-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel

variable [Facts]

def fn {F : FTy → Type} [FloatOps F] (main_arg0 : FVec F S256x8192 .f32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  main_v3
-- ==== Kernel.lean ====
abbrev S256x8192 : Shape := ⟨2, ![256, 8192]⟩
abbrev S256x1024 : Shape := ⟨2, ![256, 1024]⟩
abbrev S256x2048 : Shape := ⟨2, ![256, 2048]⟩
abbrev S1x1024 : Shape := ⟨2, ![1, 1024]⟩
abbrev S2048x1024 : Shape := ⟨2, ![2048, 1024]⟩
abbrev S1024 : Shape := ⟨1, ![1024]⟩

abbrev nBuf : Space → Nat
  | .hbm => 4
  | .vmem => 21
  | .smem => 0
  | _ => 0

abbrev bufTy : (tb : Table) → Fin (tcTables nBuf tb) → BufTy
  | .hbm, ⟨0, _⟩ => ⟨S256x8192, .f32⟩
  | .hbm, ⟨1, _⟩ => ⟨S256x8192, .f32⟩
  | .hbm, ⟨2, _⟩ => ⟨S256x8192, .f32⟩
  | .hbm, ⟨3, _⟩ => ⟨S256x8192, .f32⟩
  | .local _ .vmem, ⟨0, _⟩ => ⟨S256x1024, .f32⟩
  | .local _ .vmem, ⟨1, _⟩ => ⟨S256x2048, .f32⟩
  | .local _ .vmem, ⟨2, _⟩ => ⟨S256x2048, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x2048, .f32⟩
  | .local _ .vmem, ⟨16, _⟩ => ⟨S256x2048, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_15 : BitVec 32 := 0#32
  let v29 : BitVec 1 := Scalar.cmpi .ne v28 c0_i32_15
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_15 : BitVec 32 := 0#32
  let v29 : BitVec 1 := Scalar.cmpi .ne v28 c0_i32_15
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  reduces_S2048x1024_S1024 : S2048x1024.Reduces [0] S1024
  shapeCasts_S1024_S1x1024 : S1024.ShapeCasts S1x1024
  broadcasts_S1x1024_S256x1024 : S1x1024.Broadcasts S256x1024
  shapeCasts_S256x2048_S256x2048 : S256x2048.ShapeCasts S256x2048
  dot_S256x2048_S256x1024_S2048x1024_0_0_1_1_n_n_wf : DotDims.WF S256x2048 S256x1024 S2048x1024 [0] [0] [1] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x8192.size a
  hwx0_0 : ∀ i : grid0.Coords, EltTy.bits .f32 = 32 ∨ (Rect.block (s := S256x8192) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x8192.size a
  hwx0_1 : ∀ i : grid0.Coords, EltTy.bits .f32 = 32 ∨ (Rect.block (s := S256x8192) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x8192.size a
  hwx0_2 : ∀ i : grid0.Coords, EltTy.bits .f32 = 32 ∨ (Rect.block (s := S256x8192) S256x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x8192.size a
  hwx1_0 : ∀ i : grid1.Coords, EltTy.bits .f32 = 32 ∨ (Rect.block (s := S256x8192) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S256x8192.size a
  hwx1_1 : ∀ i : grid1.Coords, EltTy.bits .f32 = 32 ∨ (Rect.block (s := S256x8192) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x8192.size a
  hwx1_2 : ∀ i : grid1.Coords, EltTy.bits .f32 = 32 ∨ (Rect.block (s := S256x8192) S256x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x8192.size a
  hwx2_0 : ∀ i : grid2.Coords, EltTy.bits .f32 = 32 ∨ (Rect.block (s := S256x8192) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S256x8192.size a
  hwx2_1 : ∀ i : grid2.Coords, EltTy.bits .f32 = 32 ∨ (Rect.block (s := S256x8192) S256x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S256x8192.size a
  hwx2_2 : ∀ i : grid2.Coords, EltTy.bits .f32 = 32 ∨ (Rect.block (s := S256x8192) S256x1024.size (cc2_transform_2 i) (hinb2_2 i)).WholeWords (EltTy.packing .f32)

variable [Facts₀]

def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S256x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S256x8192 : Shape := ⟨2, ![256, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S_, .f32⟩
  | .hbm, ⟨10, _⟩ => ⟨S256x8192, .f32⟩
  | .hbm, ⟨11, _⟩ => ⟨S256x8192, .f32⟩
  | .hbm, ⟨12, _⟩ => ⟨S1x8192, .f32⟩
  | .hbm, ⟨13, _⟩ => ⟨S256x8192, .f32⟩
  | .hbm, ⟨14, _⟩ => ⟨S256x8192, .f32⟩
  | .hbm, ⟨15, _⟩ => ⟨S_, .f32⟩
  | .hbm, ⟨16, _⟩ => ⟨S256x8192, .f32⟩
  | .hbm, ⟨17, _⟩ => ⟨S256x8192, .f32⟩
  | .hbm, ⟨18, _⟩ => ⟨S256x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S256x8192, .f32⟩
  | .hbm, ⟨27, _⟩ => ⟨S_, .f32⟩
  | .hbm, ⟨28, _⟩ => ⟨S256x8192, .f32⟩
  | .hbm, ⟨29, _⟩ => ⟨S256x8192, .f32⟩
  | .hbm, ⟨30, _⟩ => ⟨S1x8192, .f32⟩
  | .hbm, ⟨31, _⟩ => ⟨S256x8192, .f32⟩
  | .hbm, ⟨32, _⟩ => ⟨S256x8192, .f32⟩
  | .hbm, ⟨33, _⟩ => ⟨S_, .f32⟩
  | .hbm, ⟨34, _⟩ => ⟨S256x8192, .f32⟩
  | .hbm, ⟨35, _⟩ => ⟨S256x8192, .f32⟩
  | .hbm, ⟨36, _⟩ => ⟨S256x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S256x8192, .f32⟩
  | .hbm, ⟨45, _⟩ => ⟨S_, .f32⟩
  | .hbm, ⟨46, _⟩ => ⟨S256x8192, .f32⟩
  | .hbm, ⟨47, _⟩ => ⟨S256x8192, .f32⟩
  | .hbm, ⟨48, _⟩ => ⟨S1x8192, .f32⟩
  | .hbm, ⟨49, _⟩ => ⟨S256x8192, .f32⟩
  | .hbm, ⟨50, _⟩ => ⟨S256x8192, .f32⟩
  | .hbm, ⟨51, _⟩ => ⟨S_, .f32⟩
  | .hbm, ⟨52, _⟩ => ⟨S256x8192, .f32⟩
  | .hbm, ⟨53, _⟩ => ⟨S256x8192, .f32⟩
  | .hbm, ⟨54, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S256x8192 : S_.BroadcastsInDim S256x8192 (![] : Fin 0 → Fin S256x8192.rank)
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  dot_S256x8192_S256x8192_S8192x8192_0_0_1_1_n_n_wf : DotDims.WF S256x8192 S256x8192 S8192x8192 [0] [0] [1] [1] [] []
  dot_S256x8192_S8192x8192_S256x8192_1_0_0_1_n_n_wf : DotDims.WF S256x8192 S8192x8192 S256x8192 [1] [0] [0] [1] [] []

variable [Facts₀]

def dot_S256x8192_S256x8192_S8192x8192_0_0_1_1_n_n : DotDims S256x8192 S256x8192 S8192x8192 where
  lhsContracting := [0]
  rhsContracting := [0]
  lhsNonContracting := [1]
  rhsNonContracting := [1]
  lhsBatch := []
  rhsBatch := []
  wf := dot_S256x8192_S256x8192_S8192x8192_0_0_1_1_n_n_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.KB.Conds0.lean ====
/-
  Call 0 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.Kernel.Launch
import proofs.«419860_j83794811945535_3_alg».proof.Proof.Gen.Kernel.Skeleton
import proofs.«419860_j83794811945535_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second conditional (finish and store the output block): the reduction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle; the output window is idle exactly off the last reduction step, and is
    written back exactly at it. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, as the pipeline passes it, and the two scratch memrefs. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev scM0_0 : Memref sig .tc .vmem S256x1024 .f32 := Memref.whole cc0_scratch0
abbrev scM0_1 : Memref sig .tc .vmem S1x1024 .f32 := Memref.whole cc0_scratch1

end Cert.Kernel.Hand

end
-- ==== Proof.KB.Body0.lean ====
/-
  The body of call 0 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KB.Conds0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body0_hz : (![0, 0] : Fin 2 → Nat) = fun _ => 0 := funext fun a => by fin_cases a <;> rfl

/-- A buffer whose last store went through the whole-buffer rectangle reads as that store's payload,
    whatever it held before and whatever the earlier stores were. -/
theorem body0_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body0_A (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond0_0 i) (hc1 : ¬cond0_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k0_pay6 x0 x1 (k0_pay1 (F := F)))
            ∗ owns (c : Thread nD τ) arg6 fullShare (k0_pay5 x0 x1 (k0_pay2 (F := F)))) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body0_read_store _ _ body0_hz]
    sl_unfold_words
    simp only [View.readAt_eq_ld, harg2.read_unread, harg3.read_unread,
      View.ld_unit_zero (S := S256x1024) body0_hz, View.ld_unit_zero (S := S256x2048) body0_hz,
      View.readCov_unit_zero (S := S256x1024) _ body0_hz]
  iexists _; isplitr; swap; · iexact H6
  ipureintro
  rw [body0_read_store _ _ body0_hz]
  sl_unfold_words
  simp only [View.readAt_eq_ld, harg2.read_unread, harg3.read_unread,
    View.ld_unit_zero (S := S256x1024) body0_hz, View.ld_unit_zero (S := S256x2048) body0_hz,
    View.readCov_unit_zero (S := S1x1024) _ body0_hz]

set_option maxHeartbeats 1000000 in
/-- A middle reduction step (neither conditional taken): the accumulators, found at `xs0` and `xs1`, end at
    the payloads over them. The output window's buffer keeps its contents `x4`. -/
theorem body0_B (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond0_0 i) (hc1 : ¬cond0_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k0_pay6 x0 x1 xs0)
            ∗ owns (c : Thread nD τ) arg6 fullShare (k0_pay5 x0 x1 xs1)) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body0_read_store _ _ body0_hz]
    simp only [View.readAt_eq_ld, harg2.read_unread, harg3.read_unread, harg5.read_unread,
      View.ld_unit_zero (S := S256x1024) body0_hz, View.ld_unit_zero (S := S256x2048) body0_hz]
  iexists _; isplitr; swap; · iexact H6
  ipureintro
  rw [body0_read_store _ _ body0_hz]
  simp only [View.readAt_eq_ld, harg2.read_unread, harg3.read_unread, harg6.read_unread,
    View.ld_unit_zero (S := S256x1024) body0_hz, View.ld_unit_zero (S := S256x2048) body0_hz,
    View.ld_unit_zero (S := S1x1024) body0_hz]

set_option maxHeartbeats 1000000 in
/-- The last reduction step (reset not taken, finish taken): the accumulators end at the payloads over what
    they held, and the output window's buffer at the finishing payload of the block and the new accumulators. -/
theorem body0_C (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond0_0 i) (hc1 : cond0_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k0_pay7 x0 (k0_pay5 x0 x1 xs1) (k0_pay6 x0 x1 xs0))
            ∗ owns (c : Thread nD τ) arg5 fullShare (k0_pay6 x0 x1 xs0)
            ∗ owns (c : Thread nD τ) arg6 fullShare (k0_pay5 x0 x1 xs1)) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body0_read_store _ _ body0_hz]
    sl_unfold_words
    simp only [View.readAt_eq_ld, harg2.read_unread, harg3.read_unread, harg5.read_unread, harg6.read_unread,
      View.ld_unit_zero (S := S256x1024) body0_hz, View.ld_unit_zero (S := S256x2048) body0_hz,
      View.ld_unit_zero (S := S1x1024) body0_hz,
      View.readCov_unit_zero (S := S256x1024) _ body0_hz, View.readCov_unit_zero (S := S1x1024) _ body0_hz]
  isplitl [H5]
  · iexists _; isplitr; swap; · iexact H5
    ipureintro
    sl_unfold_words
    rw [body0_read_store _ _ body0_hz]
    simp only [View.readAt_eq_ld, harg2.read_unread, harg3.read_unread, harg5.read_unread,
      View.ld_unit_zero (S := S256x1024) body0_hz, View.ld_unit_zero (S := S256x2048) body0_hz]
  iexists _; isplitr; swap; · iexact H6
  ipureintro
  sl_unfold_words
  rw [body0_read_store _ _ body0_hz]
  simp only [View.readAt_eq_ld, harg2.read_unread, harg3.read_unread, harg6.read_unread,
    View.ld_unit_zero (S := S256x1024) body0_hz, View.ld_unit_zero (S := S256x2048) body0_hz,
    View.ld_unit_zero (S := S1x1024) body0_hz]

end Cert.Kernel.Hand

end
-- ==== Proof.KB.Data0.lean ====
/-
  Call 0: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KB.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two input blocks at a point, at their literal types. -/
abbrev xm0 (c : Dev nD) (t : Fin cfg0.N) : Vec F S256x1024 .f32 := iblk0 V c 0 t
abbrev xn0 (c : Dev nD) (t : Fin cfg0.N) : Vec F S256x2048 .f32 := iblk0 V c 1 t

/-- THE ACCUMULATION: the two accumulators after the body at position `n`. -/
def scAt0 (c : Dev nD) : (n : ℕ) → n < cfg0.N → Vec F S256x1024 .f32 × Vec F S1x1024 .f32
  | 0, hn => (k0_pay6 (xm0 V c ⟨0, hn⟩) (xn0 V c ⟨0, hn⟩) (k0_pay1 (F := F)), k0_pay5 (xm0 V c ⟨0, hn⟩) (xn0 V c ⟨0, hn⟩) (k0_pay2 (F := F)))
  | n + 1, hn =>
    if (n + 1) % 4 = 0 then
      (k0_pay6 (xm0 V c ⟨n + 1, hn⟩) (xn0 V c ⟨n + 1, hn⟩) (k0_pay1 (F := F)), k0_pay5 (xm0 V c ⟨n + 1, hn⟩) (xn0 V c ⟨n + 1, hn⟩) (k0_pay2 (F := F)))
    else
      (k0_pay6 (xm0 V c ⟨n + 1, hn⟩) (xn0 V c ⟨n + 1, hn⟩) (scAt0 c n (Nat.lt_of_succ_lt hn)).1, k0_pay5 (xm0 V c ⟨n + 1, hn⟩) (xn0 V c ⟨n + 1, hn⟩) (scAt0 c n (Nat.lt_of_succ_lt hn)).2)

/-- At a first reduction step the accumulators restart. -/
theorem scAt0_first (c : Dev nD) (t : Fin cfg0.N) (h0 : t.val % 4 = 0) :
    scAt0 V c t.val t.isLt = (k0_pay6 (xm0 V c t) (xn0 V c t) (k0_pay1 (F := F)), k0_pay5 (xm0 V c t) (xn0 V c t) (k0_pay2 (F := F))) := by
  obtain ⟨n, hn⟩ := t
  cases n with
  | zero => rfl
  | succ n => exact if_pos h0

/-- At any other step they continue from the point before. -/
theorem scAt0_next (c : Dev nD) (t : Fin cfg0.N) (h0 : ¬t.val % 4 = 0) :
    scAt0 V c t.val t.isLt = (k0_pay6 (xm0 V c t) (xn0 V c t) (scAt0 V c (t.val - 1) (Nat.lt_of_le_of_lt (Nat.sub_le _ _) t.isLt)).1,
      k0_pay5 (xm0 V c t) (xn0 V c t) (scAt0 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 0 neither stages through nor takes as scratch, each at some contents. -/
def Rest0 (c : Dev nD) : sProp 𝕄 :=
  bigSep ((((Finset.univ.filter fun b : Ref sig .tc => b.isScoped) \ Finset.univ.image (Pipeline.stageRef spec0)) \ {cc0_scratch0}) \ {cc0_scratch1})
    fun b => iprop(∃ f : Buf (Elt F) ((c : Thread nD τ).loc b), ((c : Thread nD τ).loc b) ↦{fullShare} f)

/-- The region's entry invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Pipeline.scopedRest Rest0
  rw [bigSep_sdiff_split (s := (Finset.univ.filter fun b : Ref sig .tc => b.isScoped) \ Finset.univ.image (Pipeline.stageRef spec0)) (t := {cc0_scratch0}) (by decide), bigSep_singleton,
    bigSep_sdiff_split (s := ((Finset.univ.filter fun b : Ref sig .tc => b.isScoped) \ Finset.univ.image (Pipeline.stageRef spec0)) \ {cc0_scratch0}) (t := {cc0_scratch1}) (by decide), bigSep_singleton]
  simp only [scM0_0, scM0_1, owns_whole]; try rfl

/-- The region's invariant before position `n`: at the start everything at anything; afterwards the two
    accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare (scAt0 V c n hn).1 ∗ owns (c : Thread nD τ) scM0_1 fullShare (scAt0 V c n hn).2 ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scAt0 V c n hn).1 ∗ owns (c : Thread nD τ) scM0_1 fullShare (scAt0 V c n hn).2 ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scAt0 V c (n - 1) (by omega)).1 ∗ owns (c : Thread nD τ) scM0_1 fullShare (scAt0 V c (n - 1) (by omega)).2 ∗ Rest0 c) ∗ (∃ r, prngReg c r)) := by
  cases n with
  | zero => exact absurd rfl hz
  | succ n => rfl

/-- The proof data of call 0 on core `c`: the arrays as the region finds them; the inputs' buffers at their
    blocks, the output's at the finishing payload; the invariant above; the one argument array held half and
    half by the two windows that read it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay7 (xm0 V c t) (scAt0 V c t.val t.isLt).2 (scAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay7 (xm0 V c t) (scAt0 V c t.val t.isLt).2 (scAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [scAt0_first V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply (body0_A c Set.univ (grid0.coords t) _ _ _ _ _ _ _ _ _ _ hc0 hc1 (xm0 V c t) (xn0 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply (body0_A c Set.univ (grid0.coords t) _ _ _ _ _ _ _ _ _ _ hc0 hc1 (xm0 V c t) (xn0 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond0_0 (grid0.coords t) := fun h => h0 ((hcond0_0 t).mp h)
    rw [scAt0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, scAt0_next V c t h0]
      iintro ⟨⟨⟨HS0, HS1, HR⟩, Hg⟩, Ho, ⟨%d0, H0⟩, ⟨%d1, H1⟩, ⟨%d2, H2⟩⟩
      iapply (body0_C c Set.univ (grid0.coords t) _ _ _ _ _ _ _ _ _ _ hc0 hc1 (xm0 V c t) (xn0 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, HS1, HR⟩, Hg⟩, Ho, ⟨%d0, H0⟩, ⟨%d1, H1⟩, ⟨%d2, H2⟩⟩
      iapply (body0_B c Set.univ (grid0.coords t) _ _ _ _ _ _ _ _ _ _ hc0 hc1 (xm0 V c t) (xn0 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.Kernel.Hand

end
-- ==== Proof.KB.Entry0.lean ====
/-
  Call 0 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KB.Data0
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec0) = ({main_arg0, main_v0} : Finset (Ref sig .tc)) := by decide

/-- The first input window holds the argument array, never written, at the left half share. -/
private theorem arrL (c : Dev nD) (t : ℕ) :
    ((cfg0.win 0).arr.view.loc (c : Thread nD τ) ↦[(cfg0.win 0).arr.view.set]{(dat0 V c).share 0} (dat0 V c).arrAt 0 t : sProp 𝕄)
      = ((c : Thread nD τ).loc main_arg0 ↦{fullShare.left} V c main_arg0) := by
  rw [(arr_whole0 0).set_eq_univ, Pipeline.Dat.arrAt_in (dat0 V c) 0 rfl t]; rfl

/-- The second input window holds the same array at the right half share. -/
private theorem arrR (c : Dev nD) (t : ℕ) :
    ((cfg0.win 1).arr.view.loc (c : Thread nD τ) ↦[(cfg0.win 1).arr.view.set]{(dat0 V c).share 1} (dat0 V c).arrAt 1 t : sProp 𝕄)
      = ((c : Thread nD τ).loc main_arg0 ↦{fullShare.right} V c main_arg0) := by
  rw [(arr_whole0 1).set_eq_univ, Pipeline.Dat.arrAt_in (dat0 V c) 1 rfl t]; rfl

/-- The output window holds the output array whole at the full share. -/
private theorem arrOut (c : Dev nD) (t : ℕ) :
    ((cfg0.win 2).arr.view.loc (c : Thread nD τ) ↦[(cfg0.win 2).arr.view.set]{(dat0 V c).share 2} (dat0 V c).arrAt 2 t : sProp 𝕄)
      = ((c : Thread nD τ).loc main_v0 ↦{fullShare} (dat0 V c).arrAt 2 t) := by
  rw [(arr_whole0 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec0 c W : sProp 𝕄)
      = iprop(((c : Thread nD τ).loc main_arg0 ↦{fullShare} W main_arg0) ∗ ((c : Thread nD τ).loc main_v0 ↦{fullShare} W main_v0)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat0 V c).arrays ((dat0 V c).arrAt · t) : sProp 𝕄)
      = iprop(((c : Thread nD τ).loc main_arg0 ↦{fullShare.left} V c main_arg0)
          ∗ ((c : Thread nD τ).loc main_arg0 ↦{fullShare.right} V c main_arg0)
          ∗ ((c : Thread nD τ).loc main_v0 ↦{fullShare} (dat0 V c).arrAt 2 t)) := by
  unfold Dat.arrays
  rw [bigSep_W0, arrL V c t, arrR V c t, arrOut V c t]

/-- ENTRY: the core's unscoped buffers at contents `V` are the three windows' arrays at the proof data's entry
    contents (the shared argument array split between its two windows) and the unscoped buffers no window stages. -/
theorem entry0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ (fun _ : Unit => cfg0) () winFacts₀0.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit0 (c : Dev nD) (hsame : ∀ b : Ref sig .tc, b ≠ main_v0 → V' c b = V c b)
    (hout : V' c main_v0 = (dat0 V c).arrAt 2 cfg0.N) :
    iprop((dat0 V c).arrays ((dat0 V c).arrAt · cfg0.N) ∗ Pipeline.unscopedRest spec0 c (V c))
      ⊢ (unscopedBufs c (V' c) : sProp 𝕄) := by
  rw [Pipeline.unscopedBufs_split₀ (fun _ : Unit => cfg0) () winFacts₀0.arr_unscoped c (V' c), arrBufsEq c (V' c), arraysEq V c cfg0.N,
    hsame main_arg0 (by decide), hout]
  have hrest : (Pipeline.unscopedRest spec0 c (V c) : sProp 𝕄) = Pipeline.unscopedRest spec0 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.Kernel.Hand

end
-- ==== Proof.KB.Conds1.lean ====
/-
  Call 1 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.Kernel.Launch
import proofs.«419860_j83794811945535_3_alg».proof.Proof.Gen.Kernel.Skeleton
import proofs.«419860_j83794811945535_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional (finish and store the output block): the reduction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle exactly off the last reduction step, and is
    written back exactly at it. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- Each window's current staging memref at point `t`, as the pipeline passes it, and the two scratch memrefs. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev scM1_0 : Memref sig .tc .vmem S256x1024 .f32 := Memref.whole cc1_scratch0
abbrev scM1_1 : Memref sig .tc .vmem S1x1024 .f32 := Memref.whole cc1_scratch1

end Cert.Kernel.Hand

end
-- ==== Proof.KB.Body1.lean ====
/-
  The body of call 1 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KB.Conds1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body1_hz : (![0, 0] : Fin 2 → Nat) = fun _ => 0 := funext fun a => by fin_cases a <;> rfl

/-- A buffer whose last store went through the whole-buffer rectangle reads as that store's payload,
    whatever it held before and whatever the earlier stores were. -/
theorem body1_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body1_A (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond1_0 i) (hc1 : ¬cond1_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k1_pay7 x0 x1 (k1_pay1 (F := F)))
            ∗ owns (c : Thread nD τ) arg6 fullShare (k1_pay6 x0 x1 (k1_pay2 (F := F)))) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body1_read_store _ _ body1_hz]
    sl_unfold_words
    simp only [View.readAt_eq_ld, harg2.read_unread, harg3.read_unread,
      View.ld_unit_zero (S := S256x1024) body1_hz, View.ld_unit_zero (S := S256x2048) body1_hz,
      View.readCov_unit_zero (S := S256x1024) _ body1_hz]
  iexists _; isplitr; swap; · iexact H6
  ipureintro
  rw [body1_read_store _ _ body1_hz]
  sl_unfold_words
  simp only [View.readAt_eq_ld, harg2.read_unread, harg3.read_unread,
    View.ld_unit_zero (S := S256x1024) body1_hz, View.ld_unit_zero (S := S256x2048) body1_hz,
    View.readCov_unit_zero (S := S1x1024) _ body1_hz]

set_option maxHeartbeats 1000000 in
/-- A middle reduction step (neither conditional taken): the accumulators, found at `xs0` and `xs1`, end at
    the payloads over them. The output window's buffer keeps its contents `x4`. -/
theorem body1_B (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond1_0 i) (hc1 : ¬cond1_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k1_pay7 x0 x1 xs0)
            ∗ owns (c : Thread nD τ) arg6 fullShare (k1_pay6 x0 x1 xs1)) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body1_read_store _ _ body1_hz]
    simp only [View.readAt_eq_ld, harg2.read_unread, harg3.read_unread, harg5.read_unread,
      View.ld_unit_zero (S := S256x1024) body1_hz, View.ld_unit_zero (S := S256x2048) body1_hz]
  iexists _; isplitr; swap; · iexact H6
  ipureintro
  rw [body1_read_store _ _ body1_hz]
  simp only [View.readAt_eq_ld, harg2.read_unread, harg3.read_unread, harg6.read_unread,
    View.ld_unit_zero (S := S256x1024) body1_hz, View.ld_unit_zero (S := S256x2048) body1_hz,
    View.ld_unit_zero (S := S1x1024) body1_hz]

set_option maxHeartbeats 1000000 in
/-- The last reduction step (reset not taken, finish taken): the accumulators end at the payloads over what
    they held, and the output window's buffer at the finishing payload of the block and the new accumulators. -/
theorem body1_C (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond1_0 i) (hc1 : cond1_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k1_pay8 x0 (k1_pay6 x0 x1 xs1) (k1_pay7 x0 x1 xs0))
            ∗ owns (c : Thread nD τ) arg5 fullShare (k1_pay7 x0 x1 xs0)
            ∗ owns (c : Thread nD τ) arg6 fullShare (k1_pay6 x0 x1 xs1)) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body1_read_store _ _ body1_hz]
    sl_unfold_words
    simp only [View.readAt_eq_ld, harg2.read_unread, harg3.read_unread, harg5.read_unread, harg6.read_unread,
      View.ld_unit_zero (S := S256x1024) body1_hz, View.ld_unit_zero (S := S256x2048) body1_hz,
      View.ld_unit_zero (S := S1x1024) body1_hz,
      View.readCov_unit_zero (S := S256x1024) _ body1_hz, View.readCov_unit_zero (S := S1x1024) _ body1_hz]
  isplitl [H5]
  · iexists _; isplitr; swap; · iexact H5
    ipureintro
    sl_unfold_words
    rw [body1_read_store _ _ body1_hz]
    simp only [View.readAt_eq_ld, harg2.read_unread, harg3.read_unread, harg5.read_unread,
      View.ld_unit_zero (S := S256x1024) body1_hz, View.ld_unit_zero (S := S256x2048) body1_hz]
  iexists _; isplitr; swap; · iexact H6
  ipureintro
  sl_unfold_words
  rw [body1_read_store _ _ body1_hz]
  simp only [View.readAt_eq_ld, harg2.read_unread, harg3.read_unread, harg6.read_unread,
    View.ld_unit_zero (S := S256x1024) body1_hz, View.ld_unit_zero (S := S256x2048) body1_hz,
    View.ld_unit_zero (S := S1x1024) body1_hz]

end Cert.Kernel.Hand

end
-- ==== Proof.KB.Data1.lean ====
/-
  Call 1: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KB.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two input blocks at a point, at their literal types. -/
abbrev xm1 (c : Dev nD) (t : Fin cfg1.N) : Vec F S256x1024 .f32 := iblk1 V c 0 t
abbrev xn1 (c : Dev nD) (t : Fin cfg1.N) : Vec F S256x2048 .f32 := iblk1 V c 1 t

/-- THE ACCUMULATION: the two accumulators after the body at position `n`. -/
def scAt1 (c : Dev nD) : (n : ℕ) → n < cfg1.N → Vec F S256x1024 .f32 × Vec F S1x1024 .f32
  | 0, hn => (k1_pay7 (xm1 V c ⟨0, hn⟩) (xn1 V c ⟨0, hn⟩) (k1_pay1 (F := F)), k1_pay6 (xm1 V c ⟨0, hn⟩) (xn1 V c ⟨0, hn⟩) (k1_pay2 (F := F)))
  | n + 1, hn =>
    if (n + 1) % 4 = 0 then
      (k1_pay7 (xm1 V c ⟨n + 1, hn⟩) (xn1 V c ⟨n + 1, hn⟩) (k1_pay1 (F := F)), k1_pay6 (xm1 V c ⟨n + 1, hn⟩) (xn1 V c ⟨n + 1, hn⟩) (k1_pay2 (F := F)))
    else
      (k1_pay7 (xm1 V c ⟨n + 1, hn⟩) (xn1 V c ⟨n + 1, hn⟩) (scAt1 c n (Nat.lt_of_succ_lt hn)).1, k1_pay6 (xm1 V c ⟨n + 1, hn⟩) (xn1 V c ⟨n + 1, hn⟩) (scAt1 c n (Nat.lt_of_succ_lt hn)).2)

/-- At a first reduction step the accumulators restart. -/
theorem scAt1_first (c : Dev nD) (t : Fin cfg1.N) (h0 : t.val % 4 = 0) :
    scAt1 V c t.val t.isLt = (k1_pay7 (xm1 V c t) (xn1 V c t) (k1_pay1 (F := F)), k1_pay6 (xm1 V c t) (xn1 V c t) (k1_pay2 (F := F))) := by
  obtain ⟨n, hn⟩ := t
  cases n with
  | zero => rfl
  | succ n => exact if_pos h0

/-- At any other step they continue from the point before. -/
theorem scAt1_next (c : Dev nD) (t : Fin cfg1.N) (h0 : ¬t.val % 4 = 0) :
    scAt1 V c t.val t.isLt = (k1_pay7 (xm1 V c t) (xn1 V c t) (scAt1 V c (t.val - 1) (Nat.lt_of_le_of_lt (Nat.sub_le _ _) t.isLt)).1,
      k1_pay6 (xm1 V c t) (xn1 V c t) (scAt1 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 1 neither stages through nor takes as scratch, each at some contents. -/
def Rest1 (c : Dev nD) : sProp 𝕄 :=
  bigSep ((((Finset.univ.filter fun b : Ref sig .tc => b.isScoped) \ Finset.univ.image (Pipeline.stageRef spec1)) \ {cc1_scratch0}) \ {cc1_scratch1})
    fun b => iprop(∃ f : Buf (Elt F) ((c : Thread nD τ).loc b), ((c : Thread nD τ).loc b) ↦{fullShare} f)

/-- The region's entry invariant with the two scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest1 c) ∗ (∃ r, prngReg c r)) := by
  unfold Pipeline.ΦA Pipeline.scopedRest Rest1
  rw [bigSep_sdiff_split (s := (Finset.univ.filter fun b : Ref sig .tc => b.isScoped) \ Finset.univ.image (Pipeline.stageRef spec1)) (t := {cc1_scratch0}) (by decide), bigSep_singleton,
    bigSep_sdiff_split (s := ((Finset.univ.filter fun b : Ref sig .tc => b.isScoped) \ Finset.univ.image (Pipeline.stageRef spec1)) \ {cc1_scratch0}) (t := {cc1_scratch1}) (by decide), bigSep_singleton]
  simp only [scM1_0, scM1_1, owns_whole]; try rfl

/-- The region's invariant before position `n`: at the start everything at anything; afterwards the two
    accumulators at what the point before left. -/
def PhiS1 (c : Dev nD) : (n : ℕ) → n ≤ cfg1.N → sProp 𝕄
  | 0, _ => Pipeline.ΦA spec1 c
  | n + 1, hn => iprop(iprop(owns (c : Thread nD τ) scM1_0 fullShare (scAt1 V c n hn).1 ∗ owns (c : Thread nD τ) scM1_1 fullShare (scAt1 V c n hn).2 ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scAt1 V c n hn).1 ∗ owns (c : Thread nD τ) scM1_1 fullShare (scAt1 V c n hn).2 ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scAt1 V c (n - 1) (by omega)).1 ∗ owns (c : Thread nD τ) scM1_1 fullShare (scAt1 V c (n - 1) (by omega)).2 ∗ Rest1 c) ∗ (∃ r, prngReg c r)) := by
  cases n with
  | zero => exact absurd rfl hz
  | succ n => rfl

/-- The proof data of call 1 on core `c`: the arrays as the region finds them; the inputs' buffers at their
    blocks, the output's at the finishing payload; the invariant above; the one argument array held half and
    half by the two windows that read it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay8 (xm1 V c t) (scAt1 V c t.val t.isLt).2 (scAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay8 (xm1 V c t) (scAt1 V c t.val t.isLt).2 (scAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [scAt1_first V c t h0]
    by_cases hz : t.val = 0
    · rw [PhiS1_castSucc V c t, PhiS1_zero V c _ _ hz, PhiA1_eq]
      iintro ⟨⟨⟨HS0, HS1, HR⟩, Hg⟩, Ho, ⟨%d0, H0⟩, ⟨%d1, H1⟩, ⟨%d2, H2⟩⟩
      iapply (body1_A c Set.univ (grid1.coords t) _ _ _ _ _ _ _ _ _ _ hc0 hc1 (xm1 V c t) (xn1 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HS1, HR⟩, Hg⟩, Ho, ⟨%d0, H0⟩, ⟨%d1, H1⟩, ⟨%d2, H2⟩⟩
      iapply (body1_A c Set.univ (grid1.coords t) _ _ _ _ _ _ _ _ _ _ hc0 hc1 (xm1 V c t) (xn1 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [scAt1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, scAt1_next V c t h0]
      iintro ⟨⟨⟨HS0, HS1, HR⟩, Hg⟩, Ho, ⟨%d0, H0⟩, ⟨%d1, H1⟩, ⟨%d2, H2⟩⟩
      iapply (body1_C c Set.univ (grid1.coords t) _ _ _ _ _ _ _ _ _ _ hc0 hc1 (xm1 V c t) (xn1 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, HS1, HR⟩, Hg⟩, Ho, ⟨%d0, H0⟩, ⟨%d1, H1⟩, ⟨%d2, H2⟩⟩
      iapply (body1_B c Set.univ (grid1.coords t) _ _ _ _ _ _ _ _ _ _ hc0 hc1 (xm1 V c t) (xn1 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.Kernel.Hand

end
-- ==== Proof.KB.Entry1.lean ====
/-
  Call 1 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KB.Data1
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec1) = ({main_v0, main_v1} : Finset (Ref sig .tc)) := by decide

/-- The first input window holds the argument array, never written, at the left half share. -/
private theorem arrL (c : Dev nD) (t : ℕ) :
    ((cfg1.win 0).arr.view.loc (c : Thread nD τ) ↦[(cfg1.win 0).arr.view.set]{(dat1 V c).share 0} (dat1 V c).arrAt 0 t : sProp 𝕄)
      = ((c : Thread nD τ).loc main_v0 ↦{fullShare.left} V c main_v0) := by
  rw [(arr_whole1 0).set_eq_univ, Pipeline.Dat.arrAt_in (dat1 V c) 0 rfl t]; rfl

/-- The second input window holds the same array at the right half share. -/
private theorem arrR (c : Dev nD) (t : ℕ) :
    ((cfg1.win 1).arr.view.loc (c : Thread nD τ) ↦[(cfg1.win 1).arr.view.set]{(dat1 V c).share 1} (dat1 V c).arrAt 1 t : sProp 𝕄)
      = ((c : Thread nD τ).loc main_v0 ↦{fullShare.right} V c main_v0) := by
  rw [(arr_whole1 1).set_eq_univ, Pipeline.Dat.arrAt_in (dat1 V c) 1 rfl t]; rfl

/-- The output window holds the output array whole at the full share. -/
private theorem arrOut (c : Dev nD) (t : ℕ) :
    ((cfg1.win 2).arr.view.loc (c : Thread nD τ) ↦[(cfg1.win 2).arr.view.set]{(dat1 V c).share 2} (dat1 V c).arrAt 2 t : sProp 𝕄)
      = ((c : Thread nD τ).loc main_v1 ↦{fullShare} (dat1 V c).arrAt 2 t) := by
  rw [(arr_whole1 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec1 c W : sProp 𝕄)
      = iprop(((c : Thread nD τ).loc main_v0 ↦{fullShare} W main_v0) ∗ ((c : Thread nD τ).loc main_v1 ↦{fullShare} W main_v1)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat1 V c).arrays ((dat1 V c).arrAt · t) : sProp 𝕄)
      = iprop(((c : Thread nD τ).loc main_v0 ↦{fullShare.left} V c main_v0)
          ∗ ((c : Thread nD τ).loc main_v0 ↦{fullShare.right} V c main_v0)
          ∗ ((c : Thread nD τ).loc main_v1 ↦{fullShare} (dat1 V c).arrAt 2 t)) := by
  unfold Dat.arrays
  rw [bigSep_W1, arrL V c t, arrR V c t, arrOut V c t]

/-- ENTRY: the core's unscoped buffers at contents `V` are the three windows' arrays at the proof data's entry
    contents (the shared argument array split between its two windows) and the unscoped buffers no window stages. -/
theorem entry1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ (fun _ : Unit => cfg1) () winFacts₀1.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit1 (c : Dev nD) (hsame : ∀ b : Ref sig .tc, b ≠ main_v1 → V' c b = V c b)
    (hout : V' c main_v1 = (dat1 V c).arrAt 2 cfg1.N) :
    iprop((dat1 V c).arrays ((dat1 V c).arrAt · cfg1.N) ∗ Pipeline.unscopedRest spec1 c (V c))
      ⊢ (unscopedBufs c (V' c) : sProp 𝕄) := by
  rw [Pipeline.unscopedBufs_split₀ (fun _ : Unit => cfg1) () winFacts₀1.arr_unscoped c (V' c), arrBufsEq c (V' c), arraysEq V c cfg1.N,
    hsame main_v0 (by decide), hout]
  have hrest : (Pipeline.unscopedRest spec1 c (V c) : sProp 𝕄) = Pipeline.unscopedRest spec1 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.Kernel.Hand

end
-- ==== Proof.KB.Conds2.lean ====
/-
  Call 2 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.Kernel.Launch
import proofs.«419860_j83794811945535_3_alg».proof.Proof.Gen.Kernel.Skeleton
import proofs.«419860_j83794811945535_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The body's second conditional (finish and store the output block): the reduction coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle; the output window is idle exactly off the last reduction step, and is
    written back exactly at it. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- Each window's current staging memref at point `t`, as the pipeline passes it, and the two scratch memrefs. -/
abbrev ms2_0 (t : Fin cfg2.N) : Memref sig .tc .vmem S256x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
abbrev scM2_0 : Memref sig .tc .vmem S256x1024 .f32 := Memref.whole cc2_scratch0
abbrev scM2_1 : Memref sig .tc .vmem S1x1024 .f32 := Memref.whole cc2_scratch1

end Cert.Kernel.Hand

end
-- ==== Proof.KB.Body2.lean ====
/-
  The body of call 2 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KB.Conds2
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body2_hz : (![0, 0] : Fin 2 → Nat) = fun _ => 0 := funext fun a => by fin_cases a <;> rfl

/-- A buffer whose last store went through the whole-buffer rectangle reads as that store's payload,
    whatever it held before and whatever the earlier stores were. -/
theorem body2_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body2_A (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond2_0 i) (hc1 : ¬cond2_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k2_pay7 x0 x1 (k2_pay1 (F := F)))
            ∗ owns (c : Thread nD τ) arg6 fullShare (k2_pay6 x0 x1 (k2_pay2 (F := F)))) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body2_read_store _ _ body2_hz]
    sl_unfold_words
    simp only [View.readAt_eq_ld, harg2.read_unread, harg3.read_unread,
      View.ld_unit_zero (S := S256x1024) body2_hz, View.ld_unit_zero (S := S256x2048) body2_hz,
      View.readCov_unit_zero (S := S256x1024) _ body2_hz]
  iexists _; isplitr; swap; · iexact H6
  ipureintro
  rw [body2_read_store _ _ body2_hz]
  sl_unfold_words
  simp only [View.readAt_eq_ld, harg2.read_unread, harg3.read_unread,
    View.ld_unit_zero (S := S256x1024) body2_hz, View.ld_unit_zero (S := S256x2048) body2_hz,
    View.readCov_unit_zero (S := S1x1024) _ body2_hz]

set_option maxHeartbeats 1000000 in
/-- A middle reduction step (neither conditional taken): the accumulators, found at `xs0` and `xs1`, end at
    the payloads over them. The output window's buffer keeps its contents `x4`. -/
theorem body2_B (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond2_0 i) (hc1 : ¬cond2_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k2_pay7 x0 x1 xs0)
            ∗ owns (c : Thread nD τ) arg6 fullShare (k2_pay6 x0 x1 xs1)) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body2_read_store _ _ body2_hz]
    simp only [View.readAt_eq_ld, harg2.read_unread, harg3.read_unread, harg5.read_unread,
      View.ld_unit_zero (S := S256x1024) body2_hz, View.ld_unit_zero (S := S256x2048) body2_hz]
  iexists _; isplitr; swap; · iexact H6
  ipureintro
  rw [body2_read_store _ _ body2_hz]
  simp only [View.readAt_eq_ld, harg2.read_unread, harg3.read_unread, harg6.read_unread,
    View.ld_unit_zero (S := S256x1024) body2_hz, View.ld_unit_zero (S := S256x2048) body2_hz,
    View.ld_unit_zero (S := S1x1024) body2_hz]

set_option maxHeartbeats 1000000 in
/-- The last reduction step (reset not taken, finish taken): the accumulators end at the payloads over what
    they held, and the output window's buffer at the finishing payload of the block and the new accumulators. -/
theorem body2_C (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond2_0 i) (hc1 : cond2_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k2_pay8 x0 (k2_pay6 x0 x1 xs1) (k2_pay7 x0 x1 xs0))
            ∗ owns (c : Thread nD τ) arg5 fullShare (k2_pay7 x0 x1 xs0)
            ∗ owns (c : Thread nD τ) arg6 fullShare (k2_pay6 x0 x1 xs1)) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body2_read_store _ _ body2_hz]
    sl_unfold_words
    simp only [View.readAt_eq_ld, harg2.read_unread, harg3.read_unread, harg5.read_unread, harg6.read_unread,
      View.ld_unit_zero (S := S256x1024) body2_hz, View.ld_unit_zero (S := S256x2048) body2_hz,
      View.ld_unit_zero (S := S1x1024) body2_hz,
      View.readCov_unit_zero (S := S256x1024) _ body2_hz, View.readCov_unit_zero (S := S1x1024) _ body2_hz]
  isplitl [H5]
  · iexists _; isplitr; swap; · iexact H5
    ipureintro
    sl_unfold_words
    rw [body2_read_store _ _ body2_hz]
    simp only [View.readAt_eq_ld, harg2.read_unread, harg3.read_unread, harg5.read_unread,
      View.ld_unit_zero (S := S256x1024) body2_hz, View.ld_unit_zero (S := S256x2048) body2_hz]
  iexists _; isplitr; swap; · iexact H6
  ipureintro
  sl_unfold_words
  rw [body2_read_store _ _ body2_hz]
  simp only [View.readAt_eq_ld, harg2.read_unread, harg3.read_unread, harg6.read_unread,
    View.ld_unit_zero (S := S256x1024) body2_hz, View.ld_unit_zero (S := S256x2048) body2_hz,
    View.ld_unit_zero (S := S1x1024) body2_hz]

end Cert.Kernel.Hand

end
-- ==== Proof.KB.Data2.lean ====
/-
  Call 2: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KB.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The two input blocks at a point, at their literal types. -/
abbrev xm2 (c : Dev nD) (t : Fin cfg2.N) : Vec F S256x1024 .f32 := iblk2 V c 0 t
abbrev xn2 (c : Dev nD) (t : Fin cfg2.N) : Vec F S256x2048 .f32 := iblk2 V c 1 t

/-- THE ACCUMULATION: the two accumulators after the body at position `n`. -/
def scAt2 (c : Dev nD) : (n : ℕ) → n < cfg2.N → Vec F S256x1024 .f32 × Vec F S1x1024 .f32
  | 0, hn => (k2_pay7 (xm2 V c ⟨0, hn⟩) (xn2 V c ⟨0, hn⟩) (k2_pay1 (F := F)), k2_pay6 (xm2 V c ⟨0, hn⟩) (xn2 V c ⟨0, hn⟩) (k2_pay2 (F := F)))
  | n + 1, hn =>
    if (n + 1) % 4 = 0 then
      (k2_pay7 (xm2 V c ⟨n + 1, hn⟩) (xn2 V c ⟨n + 1, hn⟩) (k2_pay1 (F := F)), k2_pay6 (xm2 V c ⟨n + 1, hn⟩) (xn2 V c ⟨n + 1, hn⟩) (k2_pay2 (F := F)))
    else
      (k2_pay7 (xm2 V c ⟨n + 1, hn⟩) (xn2 V c ⟨n + 1, hn⟩) (scAt2 c n (Nat.lt_of_succ_lt hn)).1, k2_pay6 (xm2 V c ⟨n + 1, hn⟩) (xn2 V c ⟨n + 1, hn⟩) (scAt2 c n (Nat.lt_of_succ_lt hn)).2)

/-- At a first reduction step the accumulators restart. -/
theorem scAt2_first (c : Dev nD) (t : Fin cfg2.N) (h0 : t.val % 4 = 0) :
    scAt2 V c t.val t.isLt = (k2_pay7 (xm2 V c t) (xn2 V c t) (k2_pay1 (F := F)), k2_pay6 (xm2 V c t) (xn2 V c t) (k2_pay2 (F := F))) := by
  obtain ⟨n, hn⟩ := t
  cases n with
  | zero => rfl
  | succ n => exact if_pos h0

/-- At any other step they continue from the point before. -/
theorem scAt2_next (c : Dev nD) (t : Fin cfg2.N) (h0 : ¬t.val % 4 = 0) :
    scAt2 V c t.val t.isLt = (k2_pay7 (xm2 V c t) (xn2 V c t) (scAt2 V c (t.val - 1) (Nat.lt_of_le_of_lt (Nat.sub_le _ _) t.isLt)).1,
      k2_pay6 (xm2 V c t) (xn2 V c t) (scAt2 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 2 neither stages through nor takes as scratch, each at some contents. -/
def Rest2 (c : Dev nD) : sProp 𝕄 :=
  bigSep ((((Finset.univ.filter fun b : Ref sig .tc => b.isScoped) \ Finset.univ.image (Pipeline.stageRef spec2)) \ {cc2_scratch0}) \ {cc2_scratch1})
    fun b => iprop(∃ f : Buf (Elt F) ((c : Thread nD τ).loc b), ((c : Thread nD τ).loc b) ↦{fullShare} f)

/-- The region's entry invariant with the two scratch operands as memrefs owned at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Rest2 c) ∗ (∃ r, prngReg c r)) := by
  unfold Pipeline.ΦA Pipeline.scopedRest Rest2
  rw [bigSep_sdiff_split (s := (Finset.univ.filter fun b : Ref sig .tc => b.isScoped) \ Finset.univ.image (Pipeline.stageRef spec2)) (t := {cc2_scratch0}) (by decide), bigSep_singleton,
    bigSep_sdiff_split (s := ((Finset.univ.filter fun b : Ref sig .tc => b.isScoped) \ Finset.univ.image (Pipeline.stageRef spec2)) \ {cc2_scratch0}) (t := {cc2_scratch1}) (by decide), bigSep_singleton]
  simp only [scM2_0, scM2_1, owns_whole]; try rfl

/-- The region's invariant before position `n`: at the start everything at anything; afterwards the two
    accumulators at what the point before left. -/
def PhiS2 (c : Dev nD) : (n : ℕ) → n ≤ cfg2.N → sProp 𝕄
  | 0, _ => Pipeline.ΦA spec2 c
  | n + 1, hn => iprop(iprop(owns (c : Thread nD τ) scM2_0 fullShare (scAt2 V c n hn).1 ∗ owns (c : Thread nD τ) scM2_1 fullShare (scAt2 V c n hn).2 ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare (scAt2 V c n hn).1 ∗ owns (c : Thread nD τ) scM2_1 fullShare (scAt2 V c n hn).2 ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (scAt2 V c (n - 1) (by omega)).1 ∗ owns (c : Thread nD τ) scM2_1 fullShare (scAt2 V c (n - 1) (by omega)).2 ∗ Rest2 c) ∗ (∃ r, prngReg c r)) := by
  cases n with
  | zero => exact absurd rfl hz
  | succ n => rfl

/-- The proof data of call 2 on core `c`: the arrays as the region finds them; the inputs' buffers at their
    blocks, the output's at the finishing payload; the invariant above; the one argument array held half and
    half by the two windows that read it; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay8 (xm2 V c t) (scAt2 V c t.val t.isLt).2 (scAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay8 (xm2 V c t) (scAt2 V c t.val t.isLt).2 (scAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [scAt2_first V c t h0]
    by_cases hz : t.val = 0
    · rw [PhiS2_castSucc V c t, PhiS2_zero V c _ _ hz, PhiA2_eq]
      iintro ⟨⟨⟨HS0, HS1, HR⟩, Hg⟩, Ho, ⟨%d0, H0⟩, ⟨%d1, H1⟩, ⟨%d2, H2⟩⟩
      iapply (body2_A c Set.univ (grid2.coords t) _ _ _ _ _ _ _ _ _ _ hc0 hc1 (xm2 V c t) (xn2 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HS1, HR⟩, Hg⟩, Ho, ⟨%d0, H0⟩, ⟨%d1, H1⟩, ⟨%d2, H2⟩⟩
      iapply (body2_A c Set.univ (grid2.coords t) _ _ _ _ _ _ _ _ _ _ hc0 hc1 (xm2 V c t) (xn2 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond2_0 (grid2.coords t) := fun h => h0 ((hcond2_0 t).mp h)
    rw [scAt2_next V c t h0]
    rw [PhiS2_castSucc V c t, PhiS2_pos V c _ _ hz]
    by_cases h1 : t.val % 4 = 3
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, scAt2_next V c t h0]
      iintro ⟨⟨⟨HS0, HS1, HR⟩, Hg⟩, Ho, ⟨%d0, H0⟩, ⟨%d1, H1⟩, ⟨%d2, H2⟩⟩
      iapply (body2_C c Set.univ (grid2.coords t) _ _ _ _ _ _ _ _ _ _ hc0 hc1 (xm2 V c t) (xn2 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, HS1, HR⟩, Hg⟩, Ho, ⟨%d0, H0⟩, ⟨%d1, H1⟩, ⟨%d2, H2⟩⟩
      iapply (body2_B c Set.univ (grid2.coords t) _ _ _ _ _ _ _ _ _ _ hc0 hc1 (xm2 V c t) (xn2 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.Kernel.Hand

end
-- ==== Proof.KB.Entry2.lean ====
/-
  Call 2 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KB.Data2
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec2) = ({main_v1, main_v2} : Finset (Ref sig .tc)) := by decide

/-- The first input window holds the argument array, never written, at the left half share. -/
private theorem arrL (c : Dev nD) (t : ℕ) :
    ((cfg2.win 0).arr.view.loc (c : Thread nD τ) ↦[(cfg2.win 0).arr.view.set]{(dat2 V c).share 0} (dat2 V c).arrAt 0 t : sProp 𝕄)
      = ((c : Thread nD τ).loc main_v1 ↦{fullShare.left} V c main_v1) := by
  rw [(arr_whole2 0).set_eq_univ, Pipeline.Dat.arrAt_in (dat2 V c) 0 rfl t]; rfl

/-- The second input window holds the same array at the right half share. -/
private theorem arrR (c : Dev nD) (t : ℕ) :
    ((cfg2.win 1).arr.view.loc (c : Thread nD τ) ↦[(cfg2.win 1).arr.view.set]{(dat2 V c).share 1} (dat2 V c).arrAt 1 t : sProp 𝕄)
      = ((c : Thread nD τ).loc main_v1 ↦{fullShare.right} V c main_v1) := by
  rw [(arr_whole2 1).set_eq_univ, Pipeline.Dat.arrAt_in (dat2 V c) 1 rfl t]; rfl

/-- The output window holds the output array whole at the full share. -/
private theorem arrOut (c : Dev nD) (t : ℕ) :
    ((cfg2.win 2).arr.view.loc (c : Thread nD τ) ↦[(cfg2.win 2).arr.view.set]{(dat2 V c).share 2} (dat2 V c).arrAt 2 t : sProp 𝕄)
      = ((c : Thread nD τ).loc main_v2 ↦{fullShare} (dat2 V c).arrAt 2 t) := by
  rw [(arr_whole2 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec2 c W : sProp 𝕄)
      = iprop(((c : Thread nD τ).loc main_v1 ↦{fullShare} W main_v1) ∗ ((c : Thread nD τ).loc main_v2 ↦{fullShare} W main_v2)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat2 V c).arrays ((dat2 V c).arrAt · t) : sProp 𝕄)
      = iprop(((c : Thread nD τ).loc main_v1 ↦{fullShare.left} V c main_v1)
          ∗ ((c : Thread nD τ).loc main_v1 ↦{fullShare.right} V c main_v1)
          ∗ ((c : Thread nD τ).loc main_v2 ↦{fullShare} (dat2 V c).arrAt 2 t)) := by
  unfold Dat.arrays
  rw [bigSep_W2, arrL V c t, arrR V c t, arrOut V c t]

/-- ENTRY: the core's unscoped buffers at contents `V` are the three windows' arrays at the proof data's entry
    contents (the shared argument array split between its two windows) and the unscoped buffers no window stages. -/
theorem entry2 (c : Dev nD) :
    (unscopedBufs c (V c) : sProp 𝕄)
      ⊢ iprop((dat2 V c).arrays ((dat2 V c).arrAt · 0) ∗ Pipeline.unscopedRest spec2 c (V c)) := by
  rw [Pipeline.unscopedBufs_split₀ (fun _ : Unit => cfg2) () winFacts₀2.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit2 (c : Dev nD) (hsame : ∀ b : Ref sig .tc, b ≠ main_v2 → V' c b = V c b)
    (hout : V' c main_v2 = (dat2 V c).arrAt 2 cfg2.N) :
    iprop((dat2 V c).arrays ((dat2 V c).arrAt · cfg2.N) ∗ Pipeline.unscopedRest spec2 c (V c))
      ⊢ (unscopedBufs c (V' c) : sProp 𝕄) := by
  rw [Pipeline.unscopedBufs_split₀ (fun _ : Unit => cfg2) () winFacts₀2.arr_unscoped c (V' c), arrBufsEq c (V' c), arraysEq V c cfg2.N,
    hsame main_v1 (by decide), hout]
  have hrest : (Pipeline.unscopedRest spec2 c (V c) : sProp 𝕄) = Pipeline.unscopedRest spec2 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.Kernel.Hand

end
-- ==== Proof.KB.Run.lean ====
/-
  The whole program: three calls in a row, each reading the array the one before wrote. Between calls the
  core holds every unscoped buffer at known contents: the argument as launched throughout, each output
  array at what its call's write-backs leave from the moment that call ends. The run terminates with the
  three outputs at those contents and the argument unchanged.
-/
import proofs.«419860_j83794811945535_3_alg».proof.Proof.KB.Entry0
import proofs.«419860_j83794811945535_3_alg».proof.Proof.KB.Entry1
import proofs.«419860_j83794811945535_3_alg».proof.Proof.KB.Entry2
import proofs.«419860_j83794811945535_3_alg».proof.Proof.Gen.Kernel.Regions
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the calls -/

/-- At launch. -/
def Vr0 (c : Dev nD) (b : Ref sig .tc) : Buf (Elt F) ((c : Thread nD τ).loc b) := m ((c : Thread nD τ).loc b)
/-- What call 0 leaves in its output array. -/
def out0 (c : Dev nD) : Buf (Elt F) ((c : Thread nD τ).loc main_v0) := (dat0 (Vr0 m) c).arrAt 2 cfg0.N
/-- After call 0. -/
def Vr1 (c : Dev nD) : (b : Ref sig .tc) → Buf (Elt F) ((c : Thread nD τ).loc b) := Function.update (Vr0 m c) main_v0 (out0 m c)
/-- What call 1 leaves in its output array. -/
def out1 (c : Dev nD) : Buf (Elt F) ((c : Thread nD τ).loc main_v1) := (dat1 (Vr1 m) c).arrAt 2 cfg1.N
/-- After call 1. -/
def Vr2 (c : Dev nD) : (b : Ref sig .tc) → Buf (Elt F) ((c : Thread nD τ).loc b) := Function.update (Vr1 m c) main_v1 (out1 m c)
/-- What call 2 leaves in its output array. -/
def out2 (c : Dev nD) : Buf (Elt F) ((c : Thread nD τ).loc main_v2) := (dat2 (Vr2 m) c).arrAt 2 cfg2.N
/-- After call 2. -/
def Vr3 (c : Dev nD) : (b : Ref sig .tc) → Buf (Elt F) ((c : Thread nD τ).loc b) := Function.update (Vr2 m c) main_v2 (out2 m c)

theorem Vr3_main_v2 (c : Dev nD) : Vr3 m c main_v2 = out2 m c := Function.update_self _ _ _
theorem Vr3_main_v1 (c : Dev nD) : Vr3 m c main_v1 = out1 m c :=
  (Function.update_of_ne (by decide) _ _).trans (Function.update_self _ _ _)
theorem Vr3_main_v0 (c : Dev nD) : Vr3 m c main_v0 = out0 m c :=
  (Function.update_of_ne (by decide) _ _).trans ((Function.update_of_ne (by decide) _ _).trans (Function.update_self _ _ _))
theorem Vr3_main_arg0 (c : Dev nD) : Vr3 m c main_arg0 = m ((c : Thread nD τ).loc main_arg0) :=
  (Function.update_of_ne (by decide) _ _).trans ((Function.update_of_ne (by decide) _ _).trans (Function.update_of_ne (by decide) _ _))

/-! ## The proof data family and the thread states -/

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every call: the generator register at some state, and nothing owed. -/
abbrev R (c : Dev nD) : sProp 𝕄 := iprop((∃ r, prngReg c r) ∗ ∃ W, owes (c : Thread nD τ) (0 : CellTallies nD τ sig Unit) W)
/-- The last thread state, the `owes` apart. -/
abbrev Tₙ (c : Dev nD) : sProp 𝕄 := iprop(unscopedBufs c (Vr3 m c) ∗ ∃ r, prngReg c r)

/-! ## The calls as segments -/

set_option backward.isDefEq.respectTransparency.types false in
/-- Call 0 as a segment of @main: entered with every unscoped buffer at the contents before it, left with them at the
    contents after it; the generator register goes into the region's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(unscopedBufs c (Vr0 m c) ∗ R c)
  post c := iprop(unscopedBufs c (Vr1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    iintro ⟨⟨Hub, Hp, HO⟩, -, -⟩
    ihave H := (entry0 (Vr0 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := exit0 (Vr0 m) (Vr1 m) c (fun b hb => Function.update_of_ne hb _ _) (Function.update_self _ _ _)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with them at the
    contents after it; the generator register goes into the region's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(unscopedBufs c (Vr1 m c) ∗ R c)
  post c := iprop(unscopedBufs c (Vr2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 (Vr1 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin := exit1 (Vr1 m) (Vr2 m) c (fun b hb => Function.update_of_ne hb _ _) (Function.update_self _ _ _)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents before it, left with them at the
    contents after it; the generator register goes into the region's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(unscopedBufs c (Vr2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    iintro ⟨⟨Hub, Hp, HO⟩, -, -⟩
    ihave H := (entry2 (Vr2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := exit2 (Vr2 m) (Vr3 m) c (fun b hb => Function.update_of_ne hb _ _) (Function.update_self _ _ _)
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, and the final
    memory holds each output array at what its call's write-backs leave and the argument as launched. -/
theorem run_values : θ_run defs (onTc (τ := τ) (main (F := F))) ⟨m, fun _ => 0, ρ⟩ (fun r => ∀ c : Dev nD,
      r.2.mem ((c.tc : Thread nD τ).loc main_v0) = out0 m c
      ∧ r.2.mem ((c.tc : Thread nD τ).loc main_v1) = out1 m c
      ∧ r.2.mem ((c.tc : Thread nD τ).loc main_v2) = out2 m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (Vr0 m c) ∗ R c)) (Tₙ := Tₙ m)
    (hch := ⟨fun _ => .rfl, fun _ => .rfl, fun _ => .rfl, fun _ => .rfl⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = Vr3 m c b)
    (hfin := fun c s' => by
      iintro ⟨⟨Hh, -⟩, HSI⟩
      unfold unscopedBufs
      imodintro
      iapply (pointsTo_read_all (Finset.univ.filter fun b : Ref sig .tc => ¬ b.isScoped) (fun b => (c.tc : Thread nD τ).loc b) (Vr3 m c) s')
      isplitl [Hh] <;> iassumption)
    (hQ := fun s h c =>
      ⟨(h c main_v0 (by decide)).trans (Vr3_main_v0 m c), (h c main_v1 (by decide)).trans (Vr3_main_v1 m c),
        (h c main_v2 (by decide)).trans (Vr3_main_v2 m c), (h c main_arg0 (by decide)).trans (Vr3_main_arg0 m c)⟩)

end Cert.Kernel.Hand

end
-- ==== Proof.KI.Conds0.lean ====
/-
  Call 0 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.KernelIdeal.Launch
import proofs.«419860_j83794811945535_3_alg».proof.Proof.Gen.KernelIdeal.Skeleton
import proofs.«419860_j83794811945535_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second conditional (finish and store the output block): the reduction coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle; the output window is idle exactly off the last reduction step, and is
    written back exactly at it. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, as the pipeline passes it, and the two scratch memrefs. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev scM0_0 : Memref sig .tc .vmem S256x1024 .f32 := Memref.whole cc0_scratch0
abbrev scM0_1 : Memref sig .tc .vmem S1x1024 .f32 := Memref.whole cc0_scratch1

end Cert.KernelIdeal.Hand

end
-- ==== Proof.KI.Body0.lean ====
/-
  The body of call 0 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KI.Conds0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body0_hz : (![0, 0] : Fin 2 → Nat) = fun _ => 0 := funext fun a => by fin_cases a <;> rfl

/-- A buffer whose last store went through the whole-buffer rectangle reads as that store's payload,
    whatever it held before and whatever the earlier stores were. -/
theorem body0_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body0_A (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond0_0 i) (hc1 : ¬cond0_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k0_pay6 x0 x1 (k0_pay1 (F := F)))
            ∗ owns (c : Thread nD τ) arg6 fullShare (k0_pay5 x0 x1 (k0_pay2 (F := F)))) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body0_read_store _ _ body0_hz]
    sl_unfold_words
    simp only [View.readAt_eq_ld, harg2.read_unread, harg3.read_unread,
      View.ld_unit_zero (S := S256x1024) body0_hz, View.ld_unit_zero (S := S256x2048) body0_hz,
      View.readCov_unit_zero (S := S256x1024) _ body0_hz]
  iexists _; isplitr; swap; · iexact H6
  ipureintro
  rw [body0_read_store _ _ body0_hz]
  sl_unfold_words
  simp only [View.readAt_eq_ld, harg2.read_unread, harg3.read_unread,
    View.ld_unit_zero (S := S256x1024) body0_hz, View.ld_unit_zero (S := S256x2048) body0_hz,
    View.readCov_unit_zero (S := S1x1024) _ body0_hz]

set_option maxHeartbeats 1000000 in
/-- A middle reduction step (neither conditional taken): the accumulators, found at `xs0` and `xs1`, end at
    the payloads over them. The output window's buffer keeps its contents `x4`. -/
theorem body0_B (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond0_0 i) (hc1 : ¬cond0_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k0_pay6 x0 x1 xs0)
            ∗ owns (c : Thread nD τ) arg6 fullShare (k0_pay5 x0 x1 xs1)) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body0_read_store _ _ body0_hz]
    simp only [View.readAt_eq_ld, harg2.read_unread, harg3.read_unread, harg5.read_unread,
      View.ld_unit_zero (S := S256x1024) body0_hz, View.ld_unit_zero (S := S256x2048) body0_hz]
  iexists _; isplitr; swap; · iexact H6
  ipureintro
  rw [body0_read_store _ _ body0_hz]
  simp only [View.readAt_eq_ld, harg2.read_unread, harg3.read_unread, harg6.read_unread,
    View.ld_unit_zero (S := S256x1024) body0_hz, View.ld_unit_zero (S := S256x2048) body0_hz,
    View.ld_unit_zero (S := S1x1024) body0_hz]

set_option maxHeartbeats 1000000 in
/-- The last reduction step (reset not taken, finish taken): the accumulators end at the payloads over what
    they held, and the output window's buffer at the finishing payload of the block and the new accumulators. -/
theorem body0_C (c : Dev nD) (E : Set ℕ) (i : grid0.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond0_0 i) (hc1 : cond0_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k0_pay7 x0 (k0_pay5 x0 x1 xs1) (k0_pay6 x0 x1 xs0))
            ∗ owns (c : Thread nD τ) arg5 fullShare (k0_pay6 x0 x1 xs0)
            ∗ owns (c : Thread nD τ) arg6 fullShare (k0_pay5 x0 x1 xs1)) -∗ K ⟨⟩))
      ⊢ wp frame (wpE (defs₀ (F := F)) Variants.none c none) E (cc0__mean_shift_kernel i arg2 harg2 arg3 harg3 arg4 harg4 arg5 harg5 arg6 harg6) K := by
  simp only [cc0__mean_shift_kernel_eq_skeleton]; unfold cc0__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body0_read_store _ _ body0_hz]
    sl_unfold_words
    simp only [View.readAt_eq_ld, harg2.read_unread, harg3.read_unread, harg5.read_unread, harg6.read_unread,
      View.ld_unit_zero (S := S256x1024) body0_hz, View.ld_unit_zero (S := S256x2048) body0_hz,
      View.ld_unit_zero (S := S1x1024) body0_hz,
      View.readCov_unit_zero (S := S256x1024) _ body0_hz, View.readCov_unit_zero (S := S1x1024) _ body0_hz]
  isplitl [H5]
  · iexists _; isplitr; swap; · iexact H5
    ipureintro
    sl_unfold_words
    rw [body0_read_store _ _ body0_hz]
    simp only [View.readAt_eq_ld, harg2.read_unread, harg3.read_unread, harg5.read_unread,
      View.ld_unit_zero (S := S256x1024) body0_hz, View.ld_unit_zero (S := S256x2048) body0_hz]
  iexists _; isplitr; swap; · iexact H6
  ipureintro
  sl_unfold_words
  rw [body0_read_store _ _ body0_hz]
  simp only [View.readAt_eq_ld, harg2.read_unread, harg3.read_unread, harg6.read_unread,
    View.ld_unit_zero (S := S256x1024) body0_hz, View.ld_unit_zero (S := S256x2048) body0_hz,
    View.ld_unit_zero (S := S1x1024) body0_hz]

end Cert.KernelIdeal.Hand

end
-- ==== Proof.KI.Data0.lean ====
/-
  Call 0: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two input blocks at a point, at their literal types. -/
abbrev xm0 (c : Dev nD) (t : Fin cfg0.N) : Vec F S256x1024 .f32 := iblk0 V c 0 t
abbrev xn0 (c : Dev nD) (t : Fin cfg0.N) : Vec F S256x2048 .f32 := iblk0 V c 1 t

/-- THE ACCUMULATION: the two accumulators after the body at position `n`. -/
def scAt0 (c : Dev nD) : (n : ℕ) → n < cfg0.N → Vec F S256x1024 .f32 × Vec F S1x1024 .f32
  | 0, hn => (k0_pay6 (xm0 V c ⟨0, hn⟩) (xn0 V c ⟨0, hn⟩) (k0_pay1 (F := F)), k0_pay5 (xm0 V c ⟨0, hn⟩) (xn0 V c ⟨0, hn⟩) (k0_pay2 (F := F)))
  | n + 1, hn =>
    if (n + 1) % 4 = 0 then
      (k0_pay6 (xm0 V c ⟨n + 1, hn⟩) (xn0 V c ⟨n + 1, hn⟩) (k0_pay1 (F := F)), k0_pay5 (xm0 V c ⟨n + 1, hn⟩) (xn0 V c ⟨n + 1, hn⟩) (k0_pay2 (F := F)))
    else
      (k0_pay6 (xm0 V c ⟨n + 1, hn⟩) (xn0 V c ⟨n + 1, hn⟩) (scAt0 c n (Nat.lt_of_succ_lt hn)).1, k0_pay5 (xm0 V c ⟨n + 1, hn⟩) (xn0 V c ⟨n + 1, hn⟩) (scAt0 c n (Nat.lt_of_succ_lt hn)).2)

/-- At a first reduction step the accumulators restart. -/
theorem scAt0_first (c : Dev nD) (t : Fin cfg0.N) (h0 : t.val % 4 = 0) :
    scAt0 V c t.val t.isLt = (k0_pay6 (xm0 V c t) (xn0 V c t) (k0_pay1 (F := F)), k0_pay5 (xm0 V c t) (xn0 V c t) (k0_pay2 (F := F))) := by
  obtain ⟨n, hn⟩ := t
  cases n with
  | zero => rfl
  | succ n => exact if_pos h0

/-- At any other step they continue from the point before. -/
theorem scAt0_next (c : Dev nD) (t : Fin cfg0.N) (h0 : ¬t.val % 4 = 0) :
    scAt0 V c t.val t.isLt = (k0_pay6 (xm0 V c t) (xn0 V c t) (scAt0 V c (t.val - 1) (Nat.lt_of_le_of_lt (Nat.sub_le _ _) t.isLt)).1,
      k0_pay5 (xm0 V c t) (xn0 V c t) (scAt0 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 0 neither stages through nor takes as scratch, each at some contents. -/
def Rest0 (c : Dev nD) : sProp 𝕄 :=
  bigSep ((((Finset.univ.filter fun b : Ref sig .tc => b.isScoped) \ Finset.univ.image (Pipeline.stageRef spec0)) \ {cc0_scratch0}) \ {cc0_scratch1})
    fun b => iprop(∃ f : Buf (Elt F) ((c : Thread nD τ).loc b), ((c : Thread nD τ).loc b) ↦{fullShare} f)

/-- The region's entry invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 c) ∗ (∃ r, prngReg c r)) := by
  unfold Pipeline.ΦA Pipeline.scopedRest Rest0
  rw [bigSep_sdiff_split (s := (Finset.univ.filter fun b : Ref sig .tc => b.isScoped) \ Finset.univ.image (Pipeline.stageRef spec0)) (t := {cc0_scratch0}) (by decide), bigSep_singleton,
    bigSep_sdiff_split (s := ((Finset.univ.filter fun b : Ref sig .tc => b.isScoped) \ Finset.univ.image (Pipeline.stageRef spec0)) \ {cc0_scratch0}) (t := {cc0_scratch1}) (by decide), bigSep_singleton]
  simp only [scM0_0, scM0_1, owns_whole]; try rfl

/-- The region's invariant before position `n`: at the start everything at anything; afterwards the two
    accumulators at what the point before left. -/
def PhiS0 (c : Dev nD) : (n : ℕ) → n ≤ cfg0.N → sProp 𝕄
  | 0, _ => Pipeline.ΦA spec0 c
  | n + 1, hn => iprop(iprop(owns (c : Thread nD τ) scM0_0 fullShare (scAt0 V c n hn).1 ∗ owns (c : Thread nD τ) scM0_1 fullShare (scAt0 V c n hn).2 ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (scAt0 V c n hn).1 ∗ owns (c : Thread nD τ) scM0_1 fullShare (scAt0 V c n hn).2 ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (scAt0 V c (n - 1) (by omega)).1 ∗ owns (c : Thread nD τ) scM0_1 fullShare (scAt0 V c (n - 1) (by omega)).2 ∗ Rest0 c) ∗ (∃ r, prngReg c r)) := by
  cases n with
  | zero => exact absurd rfl hz
  | succ n => rfl

/-- The proof data of call 0 on core `c`: the arrays as the region finds them; the inputs' buffers at their
    blocks, the output's at the finishing payload; the invariant above; the one argument array held half and
    half by the two windows that read it; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay7 (xm0 V c t) (scAt0 V c t.val t.isLt).2 (scAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay7 (xm0 V c t) (scAt0 V c t.val t.isLt).2 (scAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1)]
    rw [scAt0_first V c t h0]
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩⟩
      iapply (body0_A c Set.univ (grid0.coords t) _ _ _ _ _ _ _ _ _ _ hc0 hc1 (xm0 V c t) (xn0 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HS1, HR⟩, Hg⟩, Ho, ⟨%d0, H0⟩, ⟨%d1, H1⟩, ⟨%d2, H2⟩⟩
      iapply (body0_A c Set.univ (grid0.coords t) _ _ _ _ _ _ _ _ _ _ hc0 hc1 (xm0 V c t) (xn0 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond0_0 (grid0.coords t) := fun h => h0 ((hcond0_0 t).mp h)
    rw [scAt0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2, scAt0_next V c t h0]
      iintro ⟨⟨⟨HS0, HS1, HR⟩, Hg⟩, Ho, ⟨%d0, H0⟩, ⟨%d1, H1⟩, ⟨%d2, H2⟩⟩
      iapply (body0_C c Set.univ (grid0.coords t) _ _ _ _ _ _ _ _ _ _ hc0 hc1 (xm0 V c t) (xn0 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, HS1, HR⟩, Hg⟩, Ho, ⟨%d0, H0⟩, ⟨%d1, H1⟩, ⟨%d2, H2⟩⟩
      iapply (body0_B c Set.univ (grid0.coords t) _ _ _ _ _ _ _ _ _ _ hc0 hc1 (xm0 V c t) (xn0 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the entry invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.KernelIdeal.Hand

end
-- ==== Proof.KI.Entry0.lean ====
/-
  Call 0 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KI.Data0
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec0) = ({main_arg0, main_v0} : Finset (Ref sig .tc)) := by decide

/-- The first input window holds the argument array, never written, at the left half share. -/
private theorem arrL (c : Dev nD) (t : ℕ) :
    ((cfg0.win 0).arr.view.loc (c : Thread nD τ) ↦[(cfg0.win 0).arr.view.set]{(dat0 V c).share 0} (dat0 V c).arrAt 0 t : sProp 𝕄)
      = ((c : Thread nD τ).loc main_arg0 ↦{fullShare.left} V c main_arg0) := by
  rw [(arr_whole0 0).set_eq_univ, Pipeline.Dat.arrAt_in (dat0 V c) 0 rfl t]; rfl

/-- The second input window holds the same array at the right half share. -/
private theorem arrR (c : Dev nD) (t : ℕ) :
    ((cfg0.win 1).arr.view.loc (c : Thread nD τ) ↦[(cfg0.win 1).arr.view.set]{(dat0 V c).share 1} (dat0 V c).arrAt 1 t : sProp 𝕄)
      = ((c : Thread nD τ).loc main_arg0 ↦{fullShare.right} V c main_arg0) := by
  rw [(arr_whole0 1).set_eq_univ, Pipeline.Dat.arrAt_in (dat0 V c) 1 rfl t]; rfl

/-- The output window holds the output array whole at the full share. -/
private theorem arrOut (c : Dev nD) (t : ℕ) :
    ((cfg0.win 2).arr.view.loc (c : Thread nD τ) ↦[(cfg0.win 2).arr.view.set]{(dat0 V c).share 2} (dat0 V c).arrAt 2 t : sProp 𝕄)
      = ((c : Thread nD τ).loc main_v0 ↦{fullShare} (dat0 V c).arrAt 2 t) := by
  rw [(arr_whole0 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec0 c W : sProp 𝕄)
      = iprop(((c : Thread nD τ).loc main_arg0 ↦{fullShare} W main_arg0) ∗ ((c : Thread nD τ).loc main_v0 ↦{fullShare} W main_v0)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat0 V c).arrays ((dat0 V c).arrAt · t) : sProp 𝕄)
      = iprop(((c : Thread nD τ).loc main_arg0 ↦{fullShare.left} V c main_arg0)
          ∗ ((c : Thread nD τ).loc main_arg0 ↦{fullShare.right} V c main_arg0)
          ∗ ((c : Thread nD τ).loc main_v0 ↦{fullShare} (dat0 V c).arrAt 2 t)) := by
  unfold Dat.arrays
  rw [bigSep_W0, arrL V c t, arrR V c t, arrOut V c t]

/-- ENTRY: the core's unscoped buffers at contents `V` are the three windows' arrays at the proof data's entry
    contents (the shared argument array split between its two windows) and the unscoped buffers no window stages. -/
theorem entry0 (c : Dev nD) :
    (unscopedBufs c (V c) : sProp 𝕄)
      ⊢ iprop((dat0 V c).arrays ((dat0 V c).arrAt · 0) ∗ Pipeline.unscopedRest spec0 c (V c)) := by
  rw [Pipeline.unscopedBufs_split₀ (fun _ : Unit => cfg0) () winFacts₀0.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit0 (c : Dev nD) (hsame : ∀ b : Ref sig .tc, b ≠ main_v0 → V' c b = V c b)
    (hout : V' c main_v0 = (dat0 V c).arrAt 2 cfg0.N) :
    iprop((dat0 V c).arrays ((dat0 V c).arrAt · cfg0.N) ∗ Pipeline.unscopedRest spec0 c (V c))
      ⊢ (unscopedBufs c (V' c) : sProp 𝕄) := by
  rw [Pipeline.unscopedBufs_split₀ (fun _ : Unit => cfg0) () winFacts₀0.arr_unscoped c (V' c), arrBufsEq c (V' c), arraysEq V c cfg0.N,
    hsame main_arg0 (by decide), hout]
  have hrest : (Pipeline.unscopedRest spec0 c (V c) : sProp 𝕄) = Pipeline.unscopedRest spec0 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.KernelIdeal.Hand

end
-- ==== Proof.KI.Conds1.lean ====
/-
  Call 1 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.KernelIdeal.Launch
import proofs.«419860_j83794811945535_3_alg».proof.Proof.Gen.KernelIdeal.Skeleton
import proofs.«419860_j83794811945535_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional (finish and store the output block): the reduction coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle exactly off the last reduction step, and is
    written back exactly at it. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- Each window's current staging memref at point `t`, as the pipeline passes it, and the two scratch memrefs. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev scM1_0 : Memref sig .tc .vmem S256x1024 .f32 := Memref.whole cc1_scratch0
abbrev scM1_1 : Memref sig .tc .vmem S1x1024 .f32 := Memref.whole cc1_scratch1

end Cert.KernelIdeal.Hand

end
-- ==== Proof.KI.Body1.lean ====
/-
  The body of call 1 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KI.Conds1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body1_hz : (![0, 0] : Fin 2 → Nat) = fun _ => 0 := funext fun a => by fin_cases a <;> rfl

/-- A buffer whose last store went through the whole-buffer rectangle reads as that store's payload,
    whatever it held before and whatever the earlier stores were. -/
theorem body1_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body1_A (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond1_0 i) (hc1 : ¬cond1_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k1_pay7 x0 x1 (k1_pay1 (F := F)))
            ∗ owns (c : Thread nD τ) arg6 fullShare (k1_pay6 x0 x1 (k1_pay2 (F := F)))) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body1_read_store _ _ body1_hz]
    sl_unfold_words
    simp only [View.readAt_eq_ld, harg2.read_unread, harg3.read_unread,
      View.ld_unit_zero (S := S256x1024) body1_hz, View.ld_unit_zero (S := S256x2048) body1_hz,
      View.readCov_unit_zero (S := S256x1024) _ body1_hz]
  iexists _; isplitr; swap; · iexact H6
  ipureintro
  rw [body1_read_store _ _ body1_hz]
  sl_unfold_words
  simp only [View.readAt_eq_ld, harg2.read_unread, harg3.read_unread,
    View.ld_unit_zero (S := S256x1024) body1_hz, View.ld_unit_zero (S := S256x2048) body1_hz,
    View.readCov_unit_zero (S := S1x1024) _ body1_hz]

set_option maxHeartbeats 1000000 in
/-- A middle reduction step (neither conditional taken): the accumulators, found at `xs0` and `xs1`, end at
    the payloads over them. The output window's buffer keeps its contents `x4`. -/
theorem body1_B (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond1_0 i) (hc1 : ¬cond1_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k1_pay7 x0 x1 xs0)
            ∗ owns (c : Thread nD τ) arg6 fullShare (k1_pay6 x0 x1 xs1)) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body1_read_store _ _ body1_hz]
    simp only [View.readAt_eq_ld, harg2.read_unread, harg3.read_unread, harg5.read_unread,
      View.ld_unit_zero (S := S256x1024) body1_hz, View.ld_unit_zero (S := S256x2048) body1_hz]
  iexists _; isplitr; swap; · iexact H6
  ipureintro
  rw [body1_read_store _ _ body1_hz]
  simp only [View.readAt_eq_ld, harg2.read_unread, harg3.read_unread, harg6.read_unread,
    View.ld_unit_zero (S := S256x1024) body1_hz, View.ld_unit_zero (S := S256x2048) body1_hz,
    View.ld_unit_zero (S := S1x1024) body1_hz]

set_option maxHeartbeats 1000000 in
/-- The last reduction step (reset not taken, finish taken): the accumulators end at the payloads over what
    they held, and the output window's buffer at the finishing payload of the block and the new accumulators. -/
theorem body1_C (c : Dev nD) (E : Set ℕ) (i : grid1.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond1_0 i) (hc1 : cond1_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k1_pay8 x0 (k1_pay6 x0 x1 xs1) (k1_pay7 x0 x1 xs0))
            ∗ owns (c : Thread nD τ) arg5 fullShare (k1_pay7 x0 x1 xs0)
            ∗ owns (c : Thread nD τ) arg6 fullShare (k1_pay6 x0 x1 xs1)) -∗ K ⟨⟩))
      ⊢ wp frame (wpE (defs₀ (F := F)) Variants.none c none) E (cc1__mean_shift_kernel i arg2 harg2 arg3 harg3 arg4 harg4 arg5 harg5 arg6 harg6) K := by
  simp only [cc1__mean_shift_kernel_eq_skeleton]; unfold cc1__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body1_read_store _ _ body1_hz]
    sl_unfold_words
    simp only [View.readAt_eq_ld, harg2.read_unread, harg3.read_unread, harg5.read_unread, harg6.read_unread,
      View.ld_unit_zero (S := S256x1024) body1_hz, View.ld_unit_zero (S := S256x2048) body1_hz,
      View.ld_unit_zero (S := S1x1024) body1_hz,
      View.readCov_unit_zero (S := S256x1024) _ body1_hz, View.readCov_unit_zero (S := S1x1024) _ body1_hz]
  isplitl [H5]
  · iexists _; isplitr; swap; · iexact H5
    ipureintro
    sl_unfold_words
    rw [body1_read_store _ _ body1_hz]
    simp only [View.readAt_eq_ld, harg2.read_unread, harg3.read_unread, harg5.read_unread,
      View.ld_unit_zero (S := S256x1024) body1_hz, View.ld_unit_zero (S := S256x2048) body1_hz]
  iexists _; isplitr; swap; · iexact H6
  ipureintro
  sl_unfold_words
  rw [body1_read_store _ _ body1_hz]
  simp only [View.readAt_eq_ld, harg2.read_unread, harg3.read_unread, harg6.read_unread,
    View.ld_unit_zero (S := S256x1024) body1_hz, View.ld_unit_zero (S := S256x2048) body1_hz,
    View.ld_unit_zero (S := S1x1024) body1_hz]

end Cert.KernelIdeal.Hand

end
-- ==== Proof.KI.Data1.lean ====
/-
  Call 1: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The two input blocks at a point, at their literal types. -/
abbrev xm1 (c : Dev nD) (t : Fin cfg1.N) : Vec F S256x1024 .f32 := iblk1 V c 0 t
abbrev xn1 (c : Dev nD) (t : Fin cfg1.N) : Vec F S256x2048 .f32 := iblk1 V c 1 t

/-- THE ACCUMULATION: the two accumulators after the body at position `n`. -/
def scAt1 (c : Dev nD) : (n : ℕ) → n < cfg1.N → Vec F S256x1024 .f32 × Vec F S1x1024 .f32
  | 0, hn => (k1_pay7 (xm1 V c ⟨0, hn⟩) (xn1 V c ⟨0, hn⟩) (k1_pay1 (F := F)), k1_pay6 (xm1 V c ⟨0, hn⟩) (xn1 V c ⟨0, hn⟩) (k1_pay2 (F := F)))
  | n + 1, hn =>
    if (n + 1) % 4 = 0 then
      (k1_pay7 (xm1 V c ⟨n + 1, hn⟩) (xn1 V c ⟨n + 1, hn⟩) (k1_pay1 (F := F)), k1_pay6 (xm1 V c ⟨n + 1, hn⟩) (xn1 V c ⟨n + 1, hn⟩) (k1_pay2 (F := F)))
    else
      (k1_pay7 (xm1 V c ⟨n + 1, hn⟩) (xn1 V c ⟨n + 1, hn⟩) (scAt1 c n (Nat.lt_of_succ_lt hn)).1, k1_pay6 (xm1 V c ⟨n + 1, hn⟩) (xn1 V c ⟨n + 1, hn⟩) (scAt1 c n (Nat.lt_of_succ_lt hn)).2)

/-- At a first reduction step the accumulators restart. -/
theorem scAt1_first (c : Dev nD) (t : Fin cfg1.N) (h0 : t.val % 4 = 0) :
    scAt1 V c t.val t.isLt = (k1_pay7 (xm1 V c t) (xn1 V c t) (k1_pay1 (F := F)), k1_pay6 (xm1 V c t) (xn1 V c t) (k1_pay2 (F := F))) := by
  obtain ⟨n, hn⟩ := t
  cases n with
  | zero => rfl
  | succ n => exact if_pos h0

/-- At any other step they continue from the point before. -/
theorem scAt1_next (c : Dev nD) (t : Fin cfg1.N) (h0 : ¬t.val % 4 = 0) :
    scAt1 V c t.val t.isLt = (k1_pay7 (xm1 V c t) (xn1 V c t) (scAt1 V c (t.val - 1) (Nat.lt_of_le_of_lt (Nat.sub_le _ _) t.isLt)).1,
      k1_pay6 (xm1 V c t) (xn1 V c t) (scAt1 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 1 neither stages through nor takes as scratch, each at some contents. -/
def Rest1 (c : Dev nD) : sProp 𝕄 :=
  bigSep ((((Finset.univ.filter fun b : Ref sig .tc => b.isScoped) \ Finset.univ.image (Pipeline.stageRef spec1)) \ {cc1_scratch0}) \ {cc1_scratch1})
    fun b => iprop(∃ f : Buf (Elt F) ((c : Thread nD τ).loc b), ((c : Thread nD τ).loc b) ↦{fullShare} f)

/-- The region's entry invariant with the two scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest1 c) ∗ (∃ r, prngReg c r)) := by
  unfold Pipeline.ΦA Pipeline.scopedRest Rest1
  rw [bigSep_sdiff_split (s := (Finset.univ.filter fun b : Ref sig .tc => b.isScoped) \ Finset.univ.image (Pipeline.stageRef spec1)) (t := {cc1_scratch0}) (by decide), bigSep_singleton,
    bigSep_sdiff_split (s := ((Finset.univ.filter fun b : Ref sig .tc => b.isScoped) \ Finset.univ.image (Pipeline.stageRef spec1)) \ {cc1_scratch0}) (t := {cc1_scratch1}) (by decide), bigSep_singleton]
  simp only [scM1_0, scM1_1, owns_whole]; try rfl

/-- The region's invariant before position `n`: at the start everything at anything; afterwards the two
    accumulators at what the point before left. -/
def PhiS1 (c : Dev nD) : (n : ℕ) → n ≤ cfg1.N → sProp 𝕄
  | 0, _ => Pipeline.ΦA spec1 c
  | n + 1, hn => iprop(iprop(owns (c : Thread nD τ) scM1_0 fullShare (scAt1 V c n hn).1 ∗ owns (c : Thread nD τ) scM1_1 fullShare (scAt1 V c n hn).2 ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare (scAt1 V c n hn).1 ∗ owns (c : Thread nD τ) scM1_1 fullShare (scAt1 V c n hn).2 ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare (scAt1 V c (n - 1) (by omega)).1 ∗ owns (c : Thread nD τ) scM1_1 fullShare (scAt1 V c (n - 1) (by omega)).2 ∗ Rest1 c) ∗ (∃ r, prngReg c r)) := by
  cases n with
  | zero => exact absurd rfl hz
  | succ n => rfl

/-- The proof data of call 1 on core `c`: the arrays as the region finds them; the inputs' buffers at their
    blocks, the output's at the finishing payload; the invariant above; the one argument array held half and
    half by the two windows that read it; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay8 (xm1 V c t) (scAt1 V c t.val t.isLt).2 (scAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay8 (xm1 V c t) (scAt1 V c t.val t.isLt).2 (scAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [scAt1_first V c t h0]
    by_cases hz : t.val = 0
    · rw [PhiS1_castSucc V c t, PhiS1_zero V c _ _ hz, PhiA1_eq]
      iintro ⟨⟨⟨HS0, HS1, HR⟩, Hg⟩, Ho, ⟨%d0, H0⟩, ⟨%d1, H1⟩, ⟨%d2, H2⟩⟩
      iapply (body1_A c Set.univ (grid1.coords t) _ _ _ _ _ _ _ _ _ _ hc0 hc1 (xm1 V c t) (xn1 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HS1, HR⟩, Hg⟩, Ho, ⟨%d0, H0⟩, ⟨%d1, H1⟩, ⟨%d2, H2⟩⟩
      iapply (body1_A c Set.univ (grid1.coords t) _ _ _ _ _ _ _ _ _ _ hc0 hc1 (xm1 V c t) (xn1 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond1_0 (grid1.coords t) := fun h => h0 ((hcond1_0 t).mp h)
    rw [scAt1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, scAt1_next V c t h0]
      iintro ⟨⟨⟨HS0, HS1, HR⟩, Hg⟩, Ho, ⟨%d0, H0⟩, ⟨%d1, H1⟩, ⟨%d2, H2⟩⟩
      iapply (body1_C c Set.univ (grid1.coords t) _ _ _ _ _ _ _ _ _ _ hc0 hc1 (xm1 V c t) (xn1 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, HS1, HR⟩, Hg⟩, Ho, ⟨%d0, H0⟩, ⟨%d1, H1⟩, ⟨%d2, H2⟩⟩
      iapply (body1_B c Set.univ (grid1.coords t) _ _ _ _ _ _ _ _ _ _ hc0 hc1 (xm1 V c t) (xn1 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the entry invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.KernelIdeal.Hand

end
-- ==== Proof.KI.Entry1.lean ====
/-
  Call 1 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KI.Data1
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec1) = ({main_v0, main_v1} : Finset (Ref sig .tc)) := by decide

/-- The first input window holds the argument array, never written, at the left half share. -/
private theorem arrL (c : Dev nD) (t : ℕ) :
    ((cfg1.win 0).arr.view.loc (c : Thread nD τ) ↦[(cfg1.win 0).arr.view.set]{(dat1 V c).share 0} (dat1 V c).arrAt 0 t : sProp 𝕄)
      = ((c : Thread nD τ).loc main_v0 ↦{fullShare.left} V c main_v0) := by
  rw [(arr_whole1 0).set_eq_univ, Pipeline.Dat.arrAt_in (dat1 V c) 0 rfl t]; rfl

/-- The second input window holds the same array at the right half share. -/
private theorem arrR (c : Dev nD) (t : ℕ) :
    ((cfg1.win 1).arr.view.loc (c : Thread nD τ) ↦[(cfg1.win 1).arr.view.set]{(dat1 V c).share 1} (dat1 V c).arrAt 1 t : sProp 𝕄)
      = ((c : Thread nD τ).loc main_v0 ↦{fullShare.right} V c main_v0) := by
  rw [(arr_whole1 1).set_eq_univ, Pipeline.Dat.arrAt_in (dat1 V c) 1 rfl t]; rfl

/-- The output window holds the output array whole at the full share. -/
private theorem arrOut (c : Dev nD) (t : ℕ) :
    ((cfg1.win 2).arr.view.loc (c : Thread nD τ) ↦[(cfg1.win 2).arr.view.set]{(dat1 V c).share 2} (dat1 V c).arrAt 2 t : sProp 𝕄)
      = ((c : Thread nD τ).loc main_v1 ↦{fullShare} (dat1 V c).arrAt 2 t) := by
  rw [(arr_whole1 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec1 c W : sProp 𝕄)
      = iprop(((c : Thread nD τ).loc main_v0 ↦{fullShare} W main_v0) ∗ ((c : Thread nD τ).loc main_v1 ↦{fullShare} W main_v1)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat1 V c).arrays ((dat1 V c).arrAt · t) : sProp 𝕄)
      = iprop(((c : Thread nD τ).loc main_v0 ↦{fullShare.left} V c main_v0)
          ∗ ((c : Thread nD τ).loc main_v0 ↦{fullShare.right} V c main_v0)
          ∗ ((c : Thread nD τ).loc main_v1 ↦{fullShare} (dat1 V c).arrAt 2 t)) := by
  unfold Dat.arrays
  rw [bigSep_W1, arrL V c t, arrR V c t, arrOut V c t]

/-- ENTRY: the core's unscoped buffers at contents `V` are the three windows' arrays at the proof data's entry
    contents (the shared argument array split between its two windows) and the unscoped buffers no window stages. -/
theorem entry1 (c : Dev nD) :
    (unscopedBufs c (V c) : sProp 𝕄)
      ⊢ iprop((dat1 V c).arrays ((dat1 V c).arrAt · 0) ∗ Pipeline.unscopedRest spec1 c (V c)) := by
  rw [Pipeline.unscopedBufs_split₀ (fun _ : Unit => cfg1) () winFacts₀1.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit1 (c : Dev nD) (hsame : ∀ b : Ref sig .tc, b ≠ main_v1 → V' c b = V c b)
    (hout : V' c main_v1 = (dat1 V c).arrAt 2 cfg1.N) :
    iprop((dat1 V c).arrays ((dat1 V c).arrAt · cfg1.N) ∗ Pipeline.unscopedRest spec1 c (V c))
      ⊢ (unscopedBufs c (V' c) : sProp 𝕄) := by
  rw [Pipeline.unscopedBufs_split₀ (fun _ : Unit => cfg1) () winFacts₀1.arr_unscoped c (V' c), arrBufsEq c (V' c), arraysEq V c cfg1.N,
    hsame main_v0 (by decide), hout]
  have hrest : (Pipeline.unscopedRest spec1 c (V c) : sProp 𝕄) = Pipeline.unscopedRest spec1 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.KernelIdeal.Hand

end
-- ==== Proof.KI.Conds2.lean ====
/-
  Call 2 of the program: where on its 8 x 4 grid the body's two conditionals hold. The grid runs the
  reduction axis innermost, so point t has reduction step t % 4: the accumulators are reset at step 0
  and the output block is stored (and written back) at step 3; at the other points the output window is idle.
-/
import proofs.«419860_j83794811945535_3_alg».proof.Proof.Gen.KernelIdeal.Launch
import proofs.«419860_j83794811945535_3_alg».proof.Proof.Gen.KernelIdeal.Skeleton
import proofs.«419860_j83794811945535_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional (reset the accumulators): the reduction coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The body's second conditional (finish and store the output block): the reduction coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The input windows are never idle; the output window is idle exactly off the last reduction step, and is
    written back exactly at it. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- Each window's current staging memref at point `t`, as the pipeline passes it, and the two scratch memrefs. -/
abbrev ms2_0 (t : Fin cfg2.N) : Memref sig .tc .vmem S256x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1024 .f32 := win2_2.stage (cfg2.slots t 2)
abbrev hs2_2 (t : Fin cfg2.N) : (ms2_2 t).IsWhole := hstage2_2 ((cfg2.slots t 2).cast nbuf2_2)
abbrev scM2_0 : Memref sig .tc .vmem S256x1024 .f32 := Memref.whole cc2_scratch0
abbrev scM2_1 : Memref sig .tc .vmem S1x1024 .f32 := Memref.whole cc2_scratch1

end Cert.KernelIdeal.Hand

end
-- ==== Proof.KI.Body2.lean ====
/-
  The body of call 2 on whole staging memrefs, in each of the three cases its two conditionals meet on
  the grid. With xm the 256 x 1024 block of window 0, xn the 256 x 2048 block of window 1, and the two
  accumulators (the 256 x 1024 scratch and the 1 x 1024 scratch):
  * first reduction step: both accumulators are reset to zero and then added to;
  * a middle step: both accumulators are added to;
  * the last step: both are added to, and the output block is stored from them.
  The added terms and the stored block are the skeleton's payloads.
-/
import proofs.«419860_j83794811945535_3_alg».proof.Proof.KI.Conds2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the whole-buffer rectangle are zero. -/
theorem body2_hz : (![0, 0] : Fin 2 → Nat) = fun _ => 0 := funext fun a => by fin_cases a <;> rfl

/-- A buffer whose last store went through the whole-buffer rectangle reads as that store's payload,
    whatever it held before and whatever the earlier stores were. -/
theorem body2_read_store {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., View.mem_set_unit_zero h inb y⟩),
    View.canon_cons_unit_zero h]

set_option maxHeartbeats 1000000 in
/-- First reduction step (reset taken, finish not taken): whatever the accumulators held, they end at the
    payloads over the reset values. The output window's buffer keeps its contents `x4`. -/
theorem body2_A (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : cond2_0 i) (hc1 : ¬cond2_1 i) (x0 : Vec F S256x1024 .f32) (x1 : Vec F S256x2048 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x4
            ∗ owns (c : Thread nD τ) arg5 fullShare (k2_pay7 x0 x1 (k2_pay1 (F := F)))
            ∗ owns (c : Thread nD τ) arg6 fullShare (k2_pay6 x0 x1 (k2_pay2 (F := F)))) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%f4, %hf4, H4⟩, ⟨%d5, %f5, -, H5⟩, ⟨%d6, %f6, -, H6⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body2_read_store _ _ body2_hz]
    sl_unfold_words
    simp only [View.readAt_eq_ld, harg2.read_unread, harg3.read_unread,
      View.ld_unit_zero (S := S256x1024) body2_hz, View.ld_unit_zero (S := S256x2048) body2_hz,
      View.readCov_unit_zero (S := S256x1024) _ body2_hz]
  iexists _; isplitr; swap; · iexact H6
  ipureintro
  rw [body2_read_store _ _ body2_hz]
  sl_unfold_words
  simp only [View.readAt_eq_ld, harg2.read_unread, harg3.read_unread,
    View.ld_unit_zero (S := S256x1024) body2_hz, View.ld_unit_zero (S := S256x2048) body2_hz,
    View.readCov_unit_zero (S := S1x1024) _ body2_hz]

set_option maxHeartbeats 1000000 in
/-- A middle reduction step (neither conditional taken): the accumulators, found at `xs0` and `xs1`, end at
    the payloads over them. The output window's buffer keeps its contents `x4`. -/
theorem body2_B (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond2_0 i) (hc1 : ¬cond2_1 i) (x0 : Vec F S256x1024 .f32) (x1 : Vec F S256x2048 .f32)
    (xs0 : Vec F S256x1024 .f32) (xs1 : Vec F S1x1024 .f32) (x4 : Vec F S256x1024 .f32) (K : PUnit → sProp 𝕄) :
    iprop(owns (c : Thread nD τ) arg2 fullShare x0 ∗ owns (c : Thread nD τ) arg3 fullShare x1 ∗ owns (c : Thread nD τ) arg4 fullShare x4
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare x4
            ∗ owns (c : Thread nD τ) arg5 fullShare (k2_pay7 x0 x1 xs0)
            ∗ owns (c : Thread nD τ) arg6 fullShare (k2_pay6 x0 x1 xs1)) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists f4; isplitr; · ipureintro; exact hf4
    iexact H4
  isplitl [H5]
  · iexists _; isplitr; swap; · iexact H5
    ipureintro
    rw [body2_read_store _ _ body2_hz]
    simp only [View.readAt_eq_ld, harg2.read_unread, harg3.read_unread, harg5.read_unread,
      View.ld_unit_zero (S := S256x1024) body2_hz, View.ld_unit_zero (S := S256x2048) body2_hz]
  iexists _; isplitr; swap; · iexact H6
  ipureintro
  rw [body2_read_store _ _ body2_hz]
  simp only [View.readAt_eq_ld, harg2.read_unread, harg3.read_unread, harg6.read_unread,
    View.ld_unit_zero (S := S256x1024) body2_hz, View.ld_unit_zero (S := S256x2048) body2_hz,
    View.ld_unit_zero (S := S1x1024) body2_hz]

set_option maxHeartbeats 1000000 in
/-- The last reduction step (reset not taken, finish taken): the accumulators end at the payloads over what
    they held, and the output window's buffer at the finishing payload of the block and the new accumulators. -/
theorem body2_C (c : Dev nD) (E : Set ℕ) (i : grid2.Coords) (arg2 : Memref sig .tc .vmem S256x1024 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole)
    (hc0 : ¬cond2_0 i) (hc1 : cond2_1 i) (x0 : Vec F S256x1024 .f32) (x1 : Vec F S256x2048 .f32)
    (xs0 : Vec F S256x1024 .f32) (xs1 : Vec F S1x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k2_pay8 x0 (k2_pay6 x0 x1 xs1) (k2_pay7 x0 x1 xs0))
            ∗ owns (c : Thread nD τ) arg5 fullShare (k2_pay7 x0 x1 xs0)
            ∗ owns (c : Thread nD τ) arg6 fullShare (k2_pay6 x0 x1 xs1)) -∗ K ⟨⟩))
      ⊢ wp frame (wpE (defs₀ (F := F)) Variants.none c none) E (cc2__mean_shift_kernel i arg2 harg2 arg3 harg3 arg4 harg4 arg5 harg5 arg6 harg6) K := by
  simp only [cc2__mean_shift_kernel_eq_skeleton]; unfold cc2__mean_shift_kernel_skel
  unfold owns
  iintro ⟨⟨%f0, %hf0, H0⟩, ⟨%f1, %hf1, H1⟩, ⟨%d4, %f4, -, H4⟩, ⟨%f5, %hf5, H5⟩, ⟨%f6, %hf6, H6⟩, Hk⟩
  obtain rfl := harg2.eq_unread hf0; obtain rfl := harg3.eq_unread hf1
  obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; · iexact H4
    ipureintro
    rw [body2_read_store _ _ body2_hz]
    sl_unfold_words
    simp only [View.readAt_eq_ld, harg2.read_unread, harg3.read_unread, harg5.read_unread, harg6.read_unread,
      View.ld_unit_zero (S := S256x1024) body2_hz, View.ld_unit_zero (S := S256x2048) body2_hz,
      View.ld_unit_zero (S := S1x1024) body2_hz,
      View.readCov_unit_zero (S := S256x1024) _ body2_hz, View.readCov_unit_zero (S := S1x1024) _ body2_hz]
  isplitl [H5]
  · iexists _; isplitr; swap; · iexact H5
    ipureintro
    sl_unfold_words
    rw [body2_read_store _ _ body2_hz]
    simp only [View.readAt_eq_ld, harg2.read_unread, harg3.read_unread, harg5.read_unread,
      View.ld_unit_zero (S := S256x1024) body2_hz, View.ld_unit_zero (S := S256x2048) body2_hz]
  iexists _; isplitr; swap; · iexact H6
  ipureintro
  sl_unfold_words
  rw [body2_read_store _ _ body2_hz]
  simp only [View.readAt_eq_ld, harg2.read_unread, harg3.read_unread, harg6.read_unread,
    View.ld_unit_zero (S := S256x1024) body2_hz, View.ld_unit_zero (S := S256x2048) body2_hz,
    View.ld_unit_zero (S := S1x1024) body2_hz]

end Cert.KernelIdeal.Hand

end
-- ==== Proof.KI.Data2.lean ====
/-
  Call 2: what its pipeline holds point by point. The grid's 32 points run the 4 reduction steps innermost.
  The two accumulators after point n: reset-then-updated at a first step, updated from what the point before
  left otherwise. The output block stored at a last step is the finishing payload of the block of window 0
  and the accumulators after that point. Between points the region's invariant holds the two accumulators
  at those contents beside the core's other scoped buffers; before the first point, everything at anything.
-/
import proofs.«419860_j83794811945535_3_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The two input blocks at a point, at their literal types. -/
abbrev xm2 (c : Dev nD) (t : Fin cfg2.N) : Vec F S256x1024 .f32 := iblk2 V c 0 t
abbrev xn2 (c : Dev nD) (t : Fin cfg2.N) : Vec F S256x2048 .f32 := iblk2 V c 1 t

/-- THE ACCUMULATION: the two accumulators after the body at position `n`. -/
def scAt2 (c : Dev nD) : (n : ℕ) → n < cfg2.N → Vec F S256x1024 .f32 × Vec F S1x1024 .f32
  | 0, hn => (k2_pay7 (xm2 V c ⟨0, hn⟩) (xn2 V c ⟨0, hn⟩) (k2_pay1 (F := F)), k2_pay6 (xm2 V c ⟨0, hn⟩) (xn2 V c ⟨0, hn⟩) (k2_pay2 (F := F)))
  | n + 1, hn =>
    if (n + 1) % 4 = 0 then
      (k2_pay7 (xm2 V c ⟨n + 1, hn⟩) (xn2 V c ⟨n + 1, hn⟩) (k2_pay1 (F := F)), k2_pay6 (xm2 V c ⟨n + 1, hn⟩) (xn2 V c ⟨n + 1, hn⟩) (k2_pay2 (F := F)))
    else
      (k2_pay7 (xm2 V c ⟨n + 1, hn⟩) (xn2 V c ⟨n + 1, hn⟩) (scAt2 c n (Nat.lt_of_succ_lt hn)).1, k2_pay6 (xm2 V c ⟨n + 1, hn⟩) (xn2 V c ⟨n + 1, hn⟩) (scAt2 c n (Nat.lt_of_succ_lt hn)).2)

/-- At a first reduction step the accumulators restart. -/
theorem scAt2_first (c : Dev nD) (t : Fin cfg2.N) (h0 : t.val % 4 = 0) :
    scAt2 V c t.val t.isLt = (k2_pay7 (xm2 V c t) (xn2 V c t) (k2_pay1 (F := F)), k2_pay6 (xm2 V c t) (xn2 V c t) (k2_pay2 (F := F))) := by
  obtain ⟨n, hn⟩ := t
  cases n with
  | zero => rfl
  | succ n => exact if_pos h0

/-- At any other step they continue from the point before. -/
theorem scAt2_next (c : Dev nD) (t : Fin cfg2.N) (h0 : ¬t.val % 4 = 0) :
    scAt2 V c t.val t.isLt = (k2_pay7 (xm2 V c t) (xn2 V c t) (scAt2 V c (t.val - 1) (Nat.lt_of_le_of_lt (Nat.sub_le _ _) t.isLt)).1,
      k2_pay6 (xm2 V c t) (xn2 V c t) (scAt2 V c (t.val - 1) (Nat.lt_of_le_of_lt (Nat.sub_le _ _) t.isLt)).2) := by
  obtain ⟨n, hn⟩ := t
  cases n with
  | zero => exact absurd (Nat.zero_mod _) h0
  | succ n => exact if_neg h0

/-- The core's scoped buffers that call 2 neither stages through nor takes as scratch, each at some contents. -/
def Rest2 (c : Dev nD) : sProp 𝕄 :=
  bigSep ((((Finset.univ.filter fun b : Ref sig .tc => b.isScoped) \ Finset.univ.image (Pipeline.stageRef spec2)) \ {cc2_scratch0}) \ {cc2_scratch1})
    fun b => iprop(∃ f : Buf (Elt F) ((c : Thread nD τ).loc b), ((c : Thread nD τ).loc b) ↦{fullShare} f)

/-- The region's entry invariant with the two scratch operands as memrefs owned at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ Rest2 c) ∗ (∃ r, prngReg c r)) := by
  unfold Pipeline.ΦA Pipeline.scopedRest Rest2
  rw [bigSep_sdiff_split (s := (Finset.univ.filter fun b : Ref sig .tc => b.isScoped) \ Finset.univ.image (Pipeline.stageRef spec2)) (t := {cc2_scratch0}) (by decide), bigSep_singleton,
    bigSep_sdiff_split (s := ((Finset.univ.filter fun b : Ref sig .tc => b.isScoped) \ Finset.univ.image (Pipeline.stageRef spec2)) \ {cc2_scratch0}) (t := {cc2_scratch1}) (by decide), bigSep_singleton]
  simp only [scM2_0, scM2_1, owns_whole]; try rfl

/-- The region's invariant before position `n`: at the start everything at anything; afterwards the two
    accumulators at what the point before left. -/
def PhiS2 (c : Dev nD) : (n : ℕ) → n ≤ cfg2.N → sProp 𝕄
  | 0, _ => Pipeline.ΦA spec2 c
  | n + 1, hn => iprop(iprop(owns (c : Thread nD τ) scM2_0 fullShare (scAt2 V c n hn).1 ∗ owns (c : Thread nD τ) scM2_1 fullShare (scAt2 V c n hn).2 ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare (scAt2 V c n hn).1 ∗ owns (c : Thread nD τ) scM2_1 fullShare (scAt2 V c n hn).2 ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare (scAt2 V c (n - 1) (by omega)).1 ∗ owns (c : Thread nD τ) scM2_1 fullShare (scAt2 V c (n - 1) (by omega)).2 ∗ Rest2 c) ∗ (∃ r, prngReg c r)) := by
  cases n with
  | zero => exact absurd rfl hz
  | succ n => rfl

/-- The proof data of call 2 on core `c`: the arrays as the region finds them; the inputs' buffers at their
    blocks, the output's at the finishing payload; the invariant above; the one argument array held half and
    half by the two windows that read it; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay8 (xm2 V c t) (scAt2 V c t.val t.isLt).2 (scAt2 V c t.val t.isLt).1
  Φ t := PhiS2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay8 (xm2 V c t) (scAt2 V c t.val t.isLt).2 (scAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the reduction step says which case the point is
    in; the invariant hands the body the accumulators at what the point before left (at anything at a first step)
    and takes them back at this point's contents; the output window is idle off the last step. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 2 t (idleAt2_2 t hc1) (noFlush2_2 t hc1)]
    rw [scAt2_first V c t h0]
    by_cases hz : t.val = 0
    · rw [PhiS2_castSucc V c t, PhiS2_zero V c _ _ hz, PhiA2_eq]
      iintro ⟨⟨⟨HS0, HS1, HR⟩, Hg⟩, Ho, ⟨%d0, H0⟩, ⟨%d1, H1⟩, ⟨%d2, H2⟩⟩
      iapply (body2_A c Set.univ (grid2.coords t) _ _ _ _ _ _ _ _ _ _ hc0 hc1 (xm2 V c t) (xn2 V c t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HS1, HR⟩, Hg⟩, Ho, ⟨%d0, H0⟩, ⟨%d1, H1⟩, ⟨%d2, H2⟩⟩
      iapply (body2_A c Set.univ (grid2.coords t) _ _ _ _ _ _ _ _ _ _ hc0 hc1 (xm2 V c t) (xn2 V c t) _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2
  · have hz : t.val ≠ 0 := fun e => h0 (by rw [e])
    have hc0 : ¬cond2_0 (grid2.coords t) := fun h => h0 ((hcond2_0 t).mp h)
    rw [scAt2_next V c t h0]
    rw [PhiS2_castSucc V c t, PhiS2_pos V c _ _ hz]
    by_cases h1 : t.val % 4 = 3
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2, scAt2_next V c t h0]
      iintro ⟨⟨⟨HS0, HS1, HR⟩, Hg⟩, Ho, ⟨%d0, H0⟩, ⟨%d1, H1⟩, ⟨%d2, H2⟩⟩
      iapply (body2_C c Set.univ (grid2.coords t) _ _ _ _ _ _ _ _ _ _ hc0 hc1 (xm2 V c t) (xn2 V c t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexact H2
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS0, HS1, HR⟩, Hg⟩, Ho, ⟨%d0, H0⟩, ⟨%d1, H1⟩, ⟨%d2, H2⟩⟩
      iapply (body2_B c Set.univ (grid2.coords t) _ _ _ _ _ _ _ _ _ _ hc0 hc1 (xm2 V c t) (xn2 V c t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HS1, HR⟩, Hg⟩
  isplitl [HS0 HS1 HR]
  · isplitl [HS0]; · iexists _; iexact HS0
    isplitl [HS1]; · iexists _; iexact HS1
    iexact HR
  iexact Hg

end Region

end Cert.KernelIdeal.Hand

end
-- ==== Proof.KI.Entry2.lean ====
/-
  Call 2 at its entry and exit, the arrays' part. Two of its three windows read ONE array (the argument
  of the update), so that array's buffer, held whole at the full share, is handed to the two windows half
  and half and the halves are joined again at the exit; the third window's array is the output, held
  whole, which ends at what the write-backs leave. Every other unscoped buffer of the core passes by.
-/
import proofs.«419860_j83794811945535_3_alg».proof.Proof.KI.Data2
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V V' : (c : Dev nD) → (b : Ref sig .tc) → Buf (Elt F) ((c : Thread nD τ).loc b))

/-- The buffers behind the call's arrays: two of them, the argument both input windows read and the output. -/
private theorem arrImage : Finset.univ.image (Pipeline.arrRef spec2) = ({main_v1, main_v2} : Finset (Ref sig .tc)) := by decide

/-- The first input window holds the argument array, never written, at the left half share. -/
private theorem arrL (c : Dev nD) (t : ℕ) :
    ((cfg2.win 0).arr.view.loc (c : Thread nD τ) ↦[(cfg2.win 0).arr.view.set]{(dat2 V c).share 0} (dat2 V c).arrAt 0 t : sProp 𝕄)
      = ((c : Thread nD τ).loc main_v1 ↦{fullShare.left} V c main_v1) := by
  rw [(arr_whole2 0).set_eq_univ, Pipeline.Dat.arrAt_in (dat2 V c) 0 rfl t]; rfl

/-- The second input window holds the same array at the right half share. -/
private theorem arrR (c : Dev nD) (t : ℕ) :
    ((cfg2.win 1).arr.view.loc (c : Thread nD τ) ↦[(cfg2.win 1).arr.view.set]{(dat2 V c).share 1} (dat2 V c).arrAt 1 t : sProp 𝕄)
      = ((c : Thread nD τ).loc main_v1 ↦{fullShare.right} V c main_v1) := by
  rw [(arr_whole2 1).set_eq_univ, Pipeline.Dat.arrAt_in (dat2 V c) 1 rfl t]; rfl

/-- The output window holds the output array whole at the full share. -/
private theorem arrOut (c : Dev nD) (t : ℕ) :
    ((cfg2.win 2).arr.view.loc (c : Thread nD τ) ↦[(cfg2.win 2).arr.view.set]{(dat2 V c).share 2} (dat2 V c).arrAt 2 t : sProp 𝕄)
      = ((c : Thread nD τ).loc main_v2 ↦{fullShare} (dat2 V c).arrAt 2 t) := by
  rw [(arr_whole2 2).set_eq_univ]; rfl

/-- The distinct buffers behind the arrays, at any contents: the argument array and the output array. -/
private theorem arrBufsEq (c : Dev nD) (W : (b : Ref sig .tc) → Buf (Elt F) ((c : Thread nD τ).loc b)) :
    (Pipeline.arrBufs spec2 c W : sProp 𝕄)
      = iprop(((c : Thread nD τ).loc main_v1 ↦{fullShare} W main_v1) ∗ ((c : Thread nD τ).loc main_v2 ↦{fullShare} W main_v2)) := by
  unfold Pipeline.arrBufs
  rw [arrImage, bigSep_insert (by decide), bigSep_singleton]; rfl

/-- The three windows' arrays after the write-backs of the points below `t`: the two halves of the argument
    array as the region found it, and the output array. -/
private theorem arraysEq (c : Dev nD) (t : ℕ) :
    ((dat2 V c).arrays ((dat2 V c).arrAt · t) : sProp 𝕄)
      = iprop(((c : Thread nD τ).loc main_v1 ↦{fullShare.left} V c main_v1)
          ∗ ((c : Thread nD τ).loc main_v1 ↦{fullShare.right} V c main_v1)
          ∗ ((c : Thread nD τ).loc main_v2 ↦{fullShare} (dat2 V c).arrAt 2 t)) := by
  unfold Dat.arrays
  rw [bigSep_W2, arrL V c t, arrR V c t, arrOut V c t]

/-- ENTRY: the core's unscoped buffers at contents `V` are the three windows' arrays at the proof data's entry
    contents (the shared argument array split between its two windows) and the unscoped buffers no window stages. -/
theorem entry2 (c : Dev nD) :
    (unscopedBufs c (V c) : sProp 𝕄)
      ⊢ iprop((dat2 V c).arrays ((dat2 V c).arrAt · 0) ∗ Pipeline.unscopedRest spec2 c (V c)) := by
  rw [Pipeline.unscopedBufs_split₀ (fun _ : Unit => cfg2) () winFacts₀2.arr_unscoped c (V c), arrBufsEq c (V c), arraysEq V c 0]
  iintro ⟨⟨Ha, Ho⟩, Hrest⟩
  icases (pointsTo_share (PosShare.mem_left_op_right fullShare)).1 $$ Ha with ⟨Hl, Hr⟩
  isplitr [Hrest]; swap; · iexact Hrest
  isplitl [Hl]; · iexact Hl
  isplitl [Hr]; · iexact Hr
  iexact Ho

/-- EXIT: the arrays at what the pipeline leaves and the buffers that passed by are the core's unscoped buffers at
    contents `V'`, which is `V` but at the output array, where it is what the write-backs leave. -/
theorem exit2 (c : Dev nD) (hsame : ∀ b : Ref sig .tc, b ≠ main_v2 → V' c b = V c b)
    (hout : V' c main_v2 = (dat2 V c).arrAt 2 cfg2.N) :
    iprop((dat2 V c).arrays ((dat2 V c).arrAt · cfg2.N) ∗ Pipeline.unscopedRest spec2 c (V c))
      ⊢ (unscopedBufs c (V' c) : sProp 𝕄) := by
  rw [Pipeline.unscopedBufs_split₀ (fun _ : Unit => cfg2) () winFacts₀2.arr_unscoped c (V' c), arrBufsEq c (V' c), arraysEq V c cfg2.N,
    hsame main_v1 (by decide), hout]
  have hrest : (Pipeline.unscopedRest spec2 c (V c) : sProp 𝕄) = Pipeline.unscopedRest spec2 c (V' c) := by
    unfold Pipeline.unscopedRest
    exact bigSep_congr fun b hb => by
      rw [hsame b fun e => (Finset.mem_sdiff.mp hb).2 (e ▸ Finset.mem_image.mpr ⟨2, Finset.mem_univ _, rfl⟩)]
  rw [hrest]
  iintro ⟨⟨Hl, Hr, Ho⟩, Hrest⟩
  isplitr [Hrest]; swap; · iexact Hrest
  isplitl [Hl Hr]
  · iapply (pointsTo_share (PosShare.mem_left_op_right fullShare)).2
    isplitl [Hl]; · iexact Hl
    iexact Hr
  iexact Ho

end Region

end Cert.KernelIdeal.Hand

end
-- ==== Proof.KI.Run.lean ====
/-
  The whole program: three calls in a row, each reading the array the one before wrote. Between calls the
  core holds every unscoped buffer at known contents: the argument as launched throughout, each output
  array at what its call's write-backs leave from the moment that call ends. The run terminates with the
  three outputs at those contents and the argument unchanged.
-/
import proofs.«419860_j83794811945535_3_alg».proof.Proof.KI.Entry0
import proofs.«419860_j83794811945535_3_alg».proof.Proof.KI.Entry1
import proofs.«419860_j83794811945535_3_alg».proof.Proof.KI.Entry2
import proofs.«419860_j83794811945535_3_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the calls -/

/-- At launch. -/
def Vr0 (c : Dev nD) (b : Ref sig .tc) : Buf (Elt F) ((c : Thread nD τ).loc b) := m ((c : Thread nD τ).loc b)
/-- What call 0 leaves in its output array. -/
def out0 (c : Dev nD) : Buf (Elt F) ((c : Thread nD τ).loc main_v0) := (dat0 (Vr0 m) c).arrAt 2 cfg0.N
/-- After call 0. -/
def Vr1 (c : Dev nD) : (b : Ref sig .tc) → Buf (Elt F) ((c : Thread nD τ).loc b) := Function.update (Vr0 m c) main_v0 (out0 m c)
/-- What call 1 leaves in its output array. -/
def out1 (c : Dev nD) : Buf (Elt F) ((c : Thread nD τ).loc main_v1) := (dat1 (Vr1 m) c).arrAt 2 cfg1.N
/-- After call 1. -/
def Vr2 (c : Dev nD) : (b : Ref sig .tc) → Buf (Elt F) ((c : Thread nD τ).loc b) := Function.update (Vr1 m c) main_v1 (out1 m c)
/-- What call 2 leaves in its output array. -/
def out2 (c : Dev nD) : Buf (Elt F) ((c : Thread nD τ).loc main_v2) := (dat2 (Vr2 m) c).arrAt 2 cfg2.N
/-- After call 2. -/
def Vr3 (c : Dev nD) : (b : Ref sig .tc) → Buf (Elt F) ((c : Thread nD τ).loc b) := Function.update (Vr2 m c) main_v2 (out2 m c)

theorem Vr3_main_v2 (c : Dev nD) : Vr3 m c main_v2 = out2 m c := Function.update_self _ _ _
theorem Vr3_main_v1 (c : Dev nD) : Vr3 m c main_v1 = out1 m c :=
  (Function.update_of_ne (by decide) _ _).trans (Function.update_self _ _ _)
theorem Vr3_main_v0 (c : Dev nD) : Vr3 m c main_v0 = out0 m c :=
  (Function.update_of_ne (by decide) _ _).trans ((Function.update_of_ne (by decide) _ _).trans (Function.update_self _ _ _))
theorem Vr3_main_arg0 (c : Dev nD) : Vr3 m c main_arg0 = m ((c : Thread nD τ).loc main_arg0) :=
  (Function.update_of_ne (by decide) _ _).trans ((Function.update_of_ne (by decide) _ _).trans (Function.update_of_ne (by decide) _ _))

/-! ## The proof data family and the thread states -/

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every call: the generator register at some state, and nothing owed. -/
abbrev R (c : Dev nD) : sProp 𝕄 := iprop((∃ r, prngReg c r) ∗ ∃ W, owes (c : Thread nD τ) (0 : CellTallies nD τ sig Unit) W)
/-- The last thread state, the `owes` apart. -/
abbrev Tₙ (c : Dev nD) : sProp 𝕄 := iprop(unscopedBufs c (Vr3 m c) ∗ ∃ r, prngReg c r)

/-! ## The calls as segments -/

set_option backward.isDefEq.respectTransparency.types false in
/-- Call 0 as a segment of @main: entered with every unscoped buffer at the contents before it, left with them at the
    contents after it; the generator register goes into the region's invariant and comes back; nothing is owed. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(unscopedBufs c (Vr0 m c) ∗ R c)
  post c := iprop(unscopedBufs c (Vr1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    iintro ⟨⟨Hub, Hp, HO⟩, -, -⟩
    ihave H := (entry0 (Vr0 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := exit0 (Vr0 m) (Vr1 m) c (fun b hb => Function.update_of_ne hb _ _) (Function.update_self _ _ _)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with them at the
    contents after it; the generator register goes into the region's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(unscopedBufs c (Vr1 m c) ∗ R c)
  post c := iprop(unscopedBufs c (Vr2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 (Vr1 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin := exit1 (Vr1 m) (Vr2 m) c (fun b hb => Function.update_of_ne hb _ _) (Function.update_self _ _ _)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 as a segment of @main: entered with every unscoped buffer at the contents before it, left with them at the
    contents after it; the generator register goes into the region's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(unscopedBufs c (Vr2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    iintro ⟨⟨Hub, Hp, HO⟩, -, -⟩
    ihave H := (entry2 (Vr2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := exit2 (Vr2 m) (Vr3 m) c (fun b hb => Function.update_of_ne hb _ _) (Function.update_self _ _ _)
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- THE RUN: from any memory with zero counters every weakly fair execution of @main terminates, and the final
    memory holds each output array at what its call's write-backs leave and the argument as launched. -/
theorem run_values : θ_run defs (onTc (τ := τ) (main (F := F))) ⟨m, fun _ => 0, ρ⟩ (fun r => ∀ c : Dev nD,
      r.2.mem ((c.tc : Thread nD τ).loc main_v0) = out0 m c
      ∧ r.2.mem ((c.tc : Thread nD τ).loc main_v1) = out1 m c
      ∧ r.2.mem ((c.tc : Thread nD τ).loc main_v2) = out2 m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (Vr0 m c) ∗ R c)) (Tₙ := Tₙ m)
    (hch := ⟨fun _ => .rfl, fun _ => .rfl, fun _ => .rfl, fun _ => .rfl⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = Vr3 m c b)
    (hfin := fun c s' => by
      iintro ⟨⟨Hh, -⟩, HSI⟩
      unfold unscopedBufs
      imodintro
      iapply (pointsTo_read_all (Finset.univ.filter fun b : Ref sig .tc => ¬ b.isScoped) (fun b => (c.tc : Thread nD τ).loc b) (Vr3 m c) s')
      isplitl [Hh] <;> iassumption)
    (hQ := fun s h c =>
      ⟨(h c main_v0 (by decide)).trans (Vr3_main_v0 m c), (h c main_v1 (by decide)).trans (Vr3_main_v1 m c),
        (h c main_v2 (by decide)).trans (Vr3_main_v2 m c), (h c main_arg0 (by decide)).trans (Vr3_main_arg0 m c)⟩)

end Cert.KernelIdeal.Hand

end
-- ==== Proof.Spec.lean ====
/-
  One mean-shift update of a 256 x 8192 array X, as a function of X, element by element, on the
  extended reals. With K[n, j] = exp (6 * sum_k X[k, n] * X[k, j]) (the affinity of points n and j),
  the update is  0 * X[d, j] + 1 * ((sum_n X[d, n] * K[n, j]) / (0 + sum_n K[n, j])):
  each column of X @ K divided by the column sum of K. The float words 0, 1 and 6 are kept as the
  words both programs print. Both programs compute this function three times in a row.
-/
import Idealize.ShloMosaic.PureOps.Ideal
import Idealize.ShloMosaic.Lib.ValueIdx

noncomputable section

open scoped BigOperators

namespace Cert.MeanShift

open Idealize.ShloMosaic Idealize.ShloMosaic.ValueIdx

/-- The array's shape: 256 features by 8192 points. -/
abbrev SX : Shape := ⟨2, ![256, 8192]⟩

/-- The words of the float constants 0, 1 and 6, read on the extended reals. -/
abbrev w0 : EReal := Ideal.ofBits .f32 0x00000000#32
abbrev w1 : EReal := Ideal.ofBits .f32 0x3F800000#32
abbrev w6 : EReal := Ideal.ofBits .f32 0x40C00000#32

/-- The affinity of points `n` and `j`: the exponential of six times their inner product. -/
def aff (X : SX.Idx → EReal) (n j : Fin 8192) : EReal :=
  Ideal.exp (w6 * ∑ k : Fin 256, X (ix2 k n) * X (ix2 k j))

/-- The sum of column `j` of the affinity matrix (from the zero word, as both programs start it). -/
def colsum (X : SX.Idx → EReal) (j : Fin 8192) : EReal := w0 + ∑ n : Fin 8192, aff X n j

/-- Entry `(d, j)` of the product of X with the affinity matrix. -/
def xk (X : SX.Idx → EReal) (d : Fin 256) (j : Fin 8192) : EReal := ∑ n : Fin 8192, X (ix2 d n) * aff X n j

/-- The update at row `d`, column `j`. -/
def stepAt (X : SX.Idx → EReal) (d : Fin 256) (j : Fin 8192) : EReal :=
  w0 * X (ix2 d j) + w1 * Ideal.div (xk X d j) (colsum X j)

/-- The update as an array. -/
def step (X : SX.Idx → EReal) : SX.Idx → EReal := fun i => stepAt X (i 0) (i 1)

theorem step_ix2 (X : SX.Idx → EReal) (d : Fin 256) (j : Fin 8192) : step X (ix2 d j) = stepAt X d j := rfl

end Cert.MeanShift

end
-- ==== Proof.KI.Block0.lean ====
/-
  The value of one output block of call 0, at the ideal instance. For output column block mb (of 8) the
  body runs at the four reduction steps k = 0..3 on xm, the 256 x 1024 column block mb of X, and xn k, the
  256 x 2048 column block k of X; the accumulators start from the reset values and take one payload per
  step, and the last step stores the finishing payload. Read at row d and column q of the block this is
  the mean-shift update of X at row d, column 1024 * mb + q: the four partial sums over 2048 points make
  the sum over all 8192, and the factor 6 folded into xm comes out of the inner product because
  multiplying by a non-negative finite constant distributes over sums of extended reals.
-/
import proofs.«419860_j83794811945535_3_alg».proof.Proof.Gen.KernelIdeal.Skeleton
import proofs.«419860_j83794811945535_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block0

open Cert.KernelIdeal Cert.KernelIdeal.Gen Cert.MeanShift
open Idealize.ShloMosaic Idealize.ShloMosaic.ValueIdx

variable {F : FTy → Type} [FloatOps F]

/-- The 256 x 1024 accumulator after the four reduction steps, from the reset value. -/
def acc0 (xm : Vec F S256x1024 .f32) (xn : Fin 4 → Vec F S256x2048 .f32) : Vec F S256x1024 .f32 :=
  k0_pay6 xm (xn 3) (k0_pay6 xm (xn 2) (k0_pay6 xm (xn 1) (k0_pay6 xm (xn 0) (k0_pay1 (F := F)))))

/-- The 1 x 1024 accumulator after the four reduction steps, from the reset value. -/
def acc1 (xm : Vec F S256x1024 .f32) (xn : Fin 4 → Vec F S256x2048 .f32) : Vec F S1x1024 .f32 :=
  k0_pay5 xm (xn 3) (k0_pay5 xm (xn 2) (k0_pay5 xm (xn 1) (k0_pay5 xm (xn 0) (k0_pay2 (F := F)))))

/-- The output block the last step stores. -/
def outBlk (xm : Vec F S256x1024 .f32) (xn : Fin 4 → Vec F S256x2048 .f32) : Vec F S256x1024 .f32 :=
  k0_pay7 xm (acc1 xm xn) (acc0 xm xn)

/-! ## Extended-real arithmetic: the constants, a non-negative finite factor through a sum, four blocks of 2048 -/

/-- The zero word is the extended real 0. -/
theorem w0_eq : w0 = 0 := Ideal.ofBits_zero_f32

/-- The word of 6.0 is the real number 6. -/
theorem w6_eq : w6 = ((6 : ℝ) : EReal) := by
  show Ideal.ofBits .f32 0x40C00000#32 = _
  simp [Ideal.ofBits, Ideal.ieee, -EReal.coe_mul]; norm_num

theorem w6_nonneg : (0 : EReal) ≤ w6 := by
  rw [w6_eq]; exact EReal.coe_nonneg.2 (by norm_num)

theorem w6_ne_top : w6 ≠ ⊤ := by
  rw [w6_eq]; exact EReal.coe_ne_top _

/-- A non-negative finite factor distributes over a finite sum of extended reals. -/
theorem mul_sum_of_nonneg_of_ne_top {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Six times an inner product is the inner product with six folded into the second factor. -/
theorem w6_mul_inner (a b : Fin 256 → EReal) :
    w6 * ∑ k : Fin 256, a k * b k = ∑ k : Fin 256, a k * (b k * w6) := by
  rw [mul_sum_of_nonneg_of_ne_top w6 w6_nonneg w6_ne_top]
  refine Finset.sum_congr rfl fun k _ => ?_
  rw [mul_comm w6 (a k * b k), mul_assoc]

/-- A point index below 8192 is a block of 2048 (of four) and a position in the block. -/
def blockEquiv : Fin 4 × Fin 2048 ≃ Fin 8192 where
  toFun p := ⟨2048 * p.1.val + p.2.val, by have := p.1.isLt; have := p.2.isLt; omega⟩
  invFun n := (⟨n.val / 2048, by have := n.isLt; omega⟩, ⟨n.val % 2048, Nat.mod_lt _ (by decide)⟩)
  left_inv p := by
    have h1 := p.1.isLt; have h2 := p.2.isLt
    refine Prod.ext (Fin.ext ?_) (Fin.ext ?_)
    · show (2048 * p.1.val + p.2.val) / 2048 = p.1.val
      omega
    · show (2048 * p.1.val + p.2.val) % 2048 = p.2.val
      omega
  right_inv n := by
    refine Fin.ext ?_
    show 2048 * (n.val / 2048) + n.val % 2048 = n.val
    omega

/-- A sum over the 8192 points is the sum of the four partial sums over 2048 points, taken in order. -/
theorem sum_four_blocks {M : Type} [AddCommMonoid M] (f : Fin 8192 → M) :
    ∑ n : Fin 8192, f n =
      (((∑ j : Fin 2048, f ⟨2048 * (0 : Fin 4).val + j.val, by have := j.isLt; omega⟩)
        + ∑ j : Fin 2048, f ⟨2048 * (1 : Fin 4).val + j.val, by have := j.isLt; omega⟩)
        + ∑ j : Fin 2048, f ⟨2048 * (2 : Fin 4).val + j.val, by have := j.isLt; omega⟩)
        + ∑ j : Fin 2048, f ⟨2048 * (3 : Fin 4).val + j.val, by have := j.isLt; omega⟩ := by
  rw [← Equiv.sum_comp blockEquiv f, Fintype.sum_prod_type, Fin.sum_univ_four]
  rfl

/-! ## The two contractions at an index -/

/-- The first product's operand indices: the contraction runs down axis 0 of both operands. -/
theorem lhs_mm1_0 (i : S2048x1024.Idx) (q : dot_S256x2048_S256x1024_S2048x1024_0_0_1_1_n_n.contr.Idx) :
    (dot_S256x2048_S256x1024_S2048x1024_0_0_1_1_n_n.lhsIdx i q 0).val = (q ⟨0, by decide⟩).val :=
  dot_S256x2048_S256x1024_S2048x1024_0_0_1_1_n_n.lhsIdx_val_of_single rfl i q
theorem lhs_mm1_1 (i : S2048x1024.Idx) (q : dot_S256x2048_S256x1024_S2048x1024_0_0_1_1_n_n.contr.Idx) :
    (dot_S256x2048_S256x1024_S2048x1024_0_0_1_1_n_n.lhsIdx i q 1).val = (i 0).val := by
  unfold DotDims.lhsIdx
  rw [dif_neg (show ¬(1 : Fin S256x2048.rank) ∈ dot_S256x2048_S256x1024_S2048x1024_0_0_1_1_n_n.lhsBatch by decide), dif_pos (show (1 : Fin S256x2048.rank) ∈ dot_S256x2048_S256x1024_S2048x1024_0_0_1_1_n_n.lhsNonContracting by decide)]
  rfl
theorem rhs_mm1_0 (i : S2048x1024.Idx) (q : dot_S256x2048_S256x1024_S2048x1024_0_0_1_1_n_n.contr.Idx) :
    (dot_S256x2048_S256x1024_S2048x1024_0_0_1_1_n_n.rhsIdx i q 0).val = (q ⟨0, by decide⟩).val :=
  dot_S256x2048_S256x1024_S2048x1024_0_0_1_1_n_n.rhsIdx_val_of_single rfl i q
theorem rhs_mm1_1 (i : S2048x1024.Idx) (q : dot_S256x2048_S256x1024_S2048x1024_0_0_1_1_n_n.contr.Idx) :
    (dot_S256x2048_S256x1024_S2048x1024_0_0_1_1_n_n.rhsIdx i q 1).val = (i 1).val := by
  unfold DotDims.rhsIdx
  rw [dif_neg (show ¬(1 : Fin S256x1024.rank) ∈ dot_S256x2048_S256x1024_S2048x1024_0_0_1_1_n_n.rhsBatch by decide), dif_pos (show (1 : Fin S256x1024.rank) ∈ dot_S256x2048_S256x1024_S2048x1024_0_0_1_1_n_n.rhsNonContracting by decide)]
  rfl

/-- The first product into the zero accumulator, at row j and column q: the inner product of column j of the left
    operand with column q of the right one. -/
theorem mm1_apply (a : FVec Ideal S256x2048 .bf16) (b : FVec Ideal S256x1024 .bf16) (j : Fin 2048) (q : Fin 1024) :
    matmul dot_S256x2048_S256x1024_S2048x1024_0_0_1_1_n_n none a b (constant (F := Ideal) S2048x1024 .f32 0x00000000#32) (ix2 j q)
      = ∑ d : Fin 256, a (ix2 d j) * b (ix2 d q) := by
  refine (Ideal.matmul_constant_zero_apply dot_S256x2048_S256x1024_S2048x1024_0_0_1_1_n_n none a b (ix2 j q)).trans ?_
  rw [← Equiv.sum_comp (contrEquiv1 dot_S256x2048_S256x1024_S2048x1024_0_0_1_1_n_n 256 rfl rfl).symm]
  refine Finset.sum_congr rfl fun k _ => ?_
  have hk := contrEquiv1_symm_val dot_S256x2048_S256x1024_S2048x1024_0_0_1_1_n_n 256 rfl rfl k
  have el : dot_S256x2048_S256x1024_S2048x1024_0_0_1_1_n_n.lhsIdx (ix2 j q) ((contrEquiv1 dot_S256x2048_S256x1024_S2048x1024_0_0_1_1_n_n 256 rfl rfl).symm k) = ix2 k j := funext fun a => Fin.ext (by
    match a with
    | ⟨0, _⟩ => exact (lhs_mm1_0 _ _).trans hk
    | ⟨1, _⟩ => exact lhs_mm1_1 _ _)
  have er : dot_S256x2048_S256x1024_S2048x1024_0_0_1_1_n_n.rhsIdx (ix2 j q) ((contrEquiv1 dot_S256x2048_S256x1024_S2048x1024_0_0_1_1_n_n 256 rfl rfl).symm k) = ix2 k q := funext fun a => Fin.ext (by
    match a with
    | ⟨0, _⟩ => exact (rhs_mm1_0 _ _).trans hk
    | ⟨1, _⟩ => exact rhs_mm1_1 _ _)
  rw [el, er]

/-- The second product's operand indices: the contraction runs along axis 1 of the left operand and down axis 0 of
    the right one. -/
theorem lhs_mm2_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_mm2_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_mm2_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_mm2_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The second product into the zero accumulator, at row d and column q: row d of the left operand against column q
    of the right one. -/
theorem mm2_apply (a : FVec Ideal S256x2048 .bf16) (b : FVec Ideal S2048x1024 .bf16) (d : Fin 256) (q : Fin 1024) :
    matmul dot_S256x2048_S2048x1024_S256x1024_1_0_0_1_n_n none a b (constant (F := Ideal) S256x1024 .f32 0x00000000#32) (ix2 d q)
      = ∑ j : Fin 2048, a (ix2 d j) * b (ix2 j q) := by
  refine (Ideal.matmul_constant_zero_apply dot_S256x2048_S2048x1024_S256x1024_1_0_0_1_n_n none a b (ix2 d q)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 d q) ((contrEquiv1 dot_S256x2048_S2048x1024_S256x1024_1_0_0_1_n_n 2048 rfl rfl).symm k) = ix2 d k := funext fun a => Fin.ext (by
    match a with
    | ⟨0, _⟩ => exact lhs_mm2_0 _ _
    | ⟨1, _⟩ => exact (lhs_mm2_1 _ _).trans hk)
  have er : dot_S256x2048_S2048x1024_S256x1024_1_0_0_1_n_n.rhsIdx (ix2 d q) ((contrEquiv1 dot_S256x2048_S2048x1024_S256x1024_1_0_0_1_n_n 2048 rfl rfl).symm k) = ix2 k q := funext fun a => Fin.ext (by
    match a with
    | ⟨0, _⟩ => exact (rhs_mm2_0 _ _).trans hk
    | ⟨1, _⟩ => exact rhs_mm2_1 _ _)
  rw [el, er]

/-! ## The payloads at an index -/

/-- The reset value of the 256 x 1024 accumulator is the zero word everywhere. -/
theorem pay1_apply (d : Fin 256) (q : Fin 1024) : (k0_pay1 (F := Ideal)) (ix2 d q) = w0 := by
  unfold k0_pay1
  exact congrFun (shapeCast_self _ _) _

/-- The reset value of the 1 x 1024 accumulator is the zero word everywhere. -/
theorem pay2_apply (q : Fin 1024) : (k0_pay2 (F := Ideal)) (ix2 (0 : Fin 1) q) = w0 := by
  unfold k0_pay2
  exact congrFun (shapeCast_self _ _) _

/-- The exponentiated scores of one step, at point j of the step's block and column q: the exponential of the inner
    product of the point with six times column q. -/
theorem E_apply (xm : Vec Ideal S256x1024 .f32) (xnk : Vec Ideal S256x2048 .f32) (j : Fin 2048) (q : Fin 1024) :
    k0_pay4 xm xnk (ix2 j q) = Ideal.exp (∑ d : Fin 256, xnk (ix2 d j) * (xm (ix2 d q) * w6)) := by
  unfold k0_pay4 k0_pay3
  refine congrArg Ideal.exp ?_
  exact mm1_apply _ _ j q

/-- The sum down axis 0 of a 2048 x 1024 array, at column q. -/
theorem rowsum_apply (E : FVec Ideal S2048x1024 .f32) (hφ : FKind.Formats .f32)
    (hacc : (0x00000000#32 : BitVec FTy.f32.bits) = FKind.add.neutral .f32 hφ) (q : Fin 1024) :
    multiReduction (F := Ideal) .add [0] S1024 E 0x00000000#32 reduces_S2048x1024_S1024 hφ hacc (ix1 q)
      = ∑ j : Fin 2048, E (ix2 j q) := by
  refine (Ideal.multiReduction_add_single E 0x00000000#32 reduces_S2048x1024_S1024 hφ hacc (ix1 q)).trans ?_
  refine Finset.sum_congr rfl fun j _ => congrArg E ?_
  funext a
  match a with
  | ⟨0, _⟩ => exact Fin.ext rfl
  | ⟨1, _⟩ => exact Fin.ext rfl

/-- One step of the 1 x 1024 accumulator: the column sums of the step's scores are added. -/
theorem pay5_apply (xm : Vec Ideal S256x1024 .f32) (xnk : Vec Ideal S256x2048 .f32) (v13 : Vec Ideal S1x1024 .f32) (q : Fin 1024) :
    k0_pay5 xm xnk v13 (ix2 (0 : Fin 1) q) = v13 (ix2 (0 : Fin 1) q) + ∑ j : Fin 2048, k0_pay4 xm xnk (ix2 j q) := by
  unfold k0_pay5
  refine (congrFun (shapeCast_self _ _) _).trans ?_
  refine congrArg (v13 (ix2 (0 : Fin 1) q) + ·) ?_
  refine (shapeCast_addUnit_apply ![1024] _ _ (ix2 (0 : Fin 1) q)).trans ?_
  refine Eq.trans ?_ (rowsum_apply (k0_pay4 xm xnk) (.inl rfl) rfl q)
  refine congrArg _ ?_
  funext a
  match a with
  | ⟨0, _⟩ => rfl

/-- One step of the 256 x 1024 accumulator: the step's block of X times the step's scores is added. -/
theorem pay6_apply (xm : Vec Ideal S256x1024 .f32) (xnk : Vec Ideal S256x2048 .f32) (v20 : Vec Ideal S256x1024 .f32)
    (d : Fin 256) (q : Fin 1024) :
    k0_pay6 xm xnk v20 (ix2 d q) = v20 (ix2 d q) + ∑ j : Fin 2048, xnk (ix2 d j) * k0_pay4 xm xnk (ix2 j q) := by
  unfold k0_pay6 k0_pay3
  refine (congrFun (shapeCast_self _ _) _).trans ?_
  refine congrArg (v20 (ix2 d q) + ·) ?_
  exact mm2_apply _ _ d q

/-- The finishing payload: the 256 x 1024 accumulator divided by the broadcast row accumulator, blended with xm. -/
theorem pay7_apply (xm : Vec Ideal S256x1024 .f32) (v28 : Vec Ideal S1x1024 .f32) (v29 : Vec Ideal S256x1024 .f32)
    (d : Fin 256) (q : Fin 1024) :
    k0_pay7 xm v28 v29 (ix2 d q) = w0 * xm (ix2 d q) + w1 * Ideal.div (v29 (ix2 d q)) (v28 (ix2 (0 : Fin 1) q)) := by
  unfold k0_pay7
  refine congrArg (fun t => w0 * xm (ix2 d q) + w1 * Ideal.div (v29 (ix2 d q)) t) ?_
  refine broadcastTo_apply v28 _ (ix2 d q) (ix2 (0 : Fin 1) q) fun a => ?_
  match a with
  | ⟨0, _⟩ => rfl
  | ⟨1, _⟩ => rfl

/-! ## The four steps make the sums over all 8192 points -/

section Steps
variable (X : SX.Idx → EReal) (mb : Fin 8) (xm : Vec Ideal S256x1024 .f32) (xn : Fin 4 → Vec Ideal S256x2048 .f32)
    (hxm : ∀ (d : Fin 256) (q : Fin 1024), xm (ix2 d q) = X (ix2 d ⟨1024 * mb.val + q.val, by omega⟩))
    (hxn : ∀ (k : Fin 4) (d : Fin 256) (q : Fin 2048), xn k (ix2 d q) = X (ix2 d ⟨2048 * k.val + q.val, by omega⟩))
include hxm hxn

/-- The scores of step k at point j of its block and column q are the affinities of point 2048 k + j and column
    1024 mb + q of X. -/
theorem E_eq_aff (k : Fin 4) (j : Fin 2048) (q : Fin 1024) :
    k0_pay4 xm (xn k) (ix2 j q) = aff X ⟨2048 * k.val + j.val, by omega⟩ ⟨1024 * mb.val + q.val, by omega⟩ := by
  refine (E_apply xm (xn k) j q).trans ?_
  unfold aff
  refine congrArg Ideal.exp ?_
  refine Eq.trans ?_ (w6_mul_inner (fun d => X (ix2 d ⟨2048 * k.val + j.val, by omega⟩))
    (fun d => X (ix2 d ⟨1024 * mb.val + q.val, by omega⟩))).symm
  refine Finset.sum_congr rfl fun d _ => ?_
  rw [hxn k d j, hxm d q]

/-- The column sums of step k's scores. -/
theorem colpart_eq (k : Fin 4) (q : Fin 1024) :
    ∑ j : Fin 2048, k0_pay4 xm (xn k) (ix2 j q)
      = ∑ j : Fin 2048, aff X ⟨2048 * k.val + j.val, by omega⟩ ⟨1024 * mb.val + q.val, by omega⟩ :=
  Finset.sum_congr rfl fun j _ => E_eq_aff X mb xm xn hxm hxn k j q

/-- Step k's block of X times its scores, at row d and column q. -/
theorem xkpart_eq (k : Fin 4) (d : Fin 256) (q : Fin 1024) :
    ∑ j : Fin 2048, xn k (ix2 d j) * k0_pay4 xm (xn k) (ix2 j q)
      = ∑ j : Fin 2048, X (ix2 d ⟨2048 * k.val + j.val, by omega⟩)
          * aff X ⟨2048 * k.val + j.val, by omega⟩ ⟨1024 * mb.val + q.val, by omega⟩ :=
  Finset.sum_congr rfl fun j _ => by rw [hxn k d j, E_eq_aff X mb xm xn hxm hxn k j q]

/-- After the four steps the row accumulator holds the column sums of the affinity matrix. -/
theorem acc1_apply (q : Fin 1024) :
    acc1 xm xn (ix2 (0 : Fin 1) q) = colsum X ⟨1024 * mb.val + q.val, by omega⟩ := by
  unfold acc1 colsum
  rw [pay5_apply, pay5_apply, pay5_apply, pay5_apply, pay2_apply,
    colpart_eq X mb xm xn hxm hxn 0 q, colpart_eq X mb xm xn hxm hxn 1 q,
    colpart_eq X mb xm xn hxm hxn 2 q, colpart_eq X mb xm xn hxm hxn 3 q,
    sum_four_blocks (fun n => aff X n ⟨1024 * mb.val + q.val, by omega⟩),
    w0_eq, zero_add, zero_add]

/-- After the four steps the block accumulator holds X times the affinity matrix. -/
theorem acc0_apply (d : Fin 256) (q : Fin 1024) :
    acc0 xm xn (ix2 d q) = xk X d ⟨1024 * mb.val + q.val, by omega⟩ := by
  unfold acc0 xk
  rw [pay6_apply, pay6_apply, pay6_apply, pay6_apply, pay1_apply,
    xkpart_eq X mb xm xn hxm hxn 0 d q, xkpart_eq X mb xm xn hxm hxn 1 d q,
    xkpart_eq X mb xm xn hxm hxn 2 d q, xkpart_eq X mb xm xn hxm hxn 3 d q,
    sum_four_blocks (fun n => X (ix2 d n) * aff X n ⟨1024 * mb.val + q.val, by omega⟩),
    w0_eq, zero_add]

end Steps

/-- The stored block IS the update of X on its columns. -/
theorem outBlk_apply (X : SX.Idx → EReal) (mb : Fin 8) (xm : Vec Ideal S256x1024 .f32) (xn : Fin 4 → Vec Ideal S256x2048 .f32)
    (hxm : ∀ (d : Fin 256) (q : Fin 1024), xm (ix2 d q) = X (ix2 d ⟨1024 * mb.val + q.val, by omega⟩))
    (hxn : ∀ (k : Fin 4) (d : Fin 256) (q : Fin 2048), xn k (ix2 d q) = X (ix2 d ⟨2048 * k.val + q.val, by omega⟩))
    (d : Fin 256) (q : Fin 1024) :
    outBlk xm xn (ix2 d q) = stepAt X d ⟨1024 * mb.val + q.val, by omega⟩ := by
  unfold outBlk stepAt
  rw [pay7_apply, acc0_apply X mb xm xn hxm hxn d q, acc1_apply X mb xm xn hxm hxn q, hxm d q]

end Cert.KernelIdeal.Block0

/-! ## Call 1: the same block value

Call 1's body differs from call 0's only by shape casts of xm and of xn to their own shapes, which are the identity;
so its payloads are call 0's, and so is the block it stores. -/

namespace Cert.KernelIdeal.Block1

open Cert.KernelIdeal Cert.KernelIdeal.Gen Cert.MeanShift
open Idealize.ShloMosaic Idealize.ShloMosaic.ValueIdx

variable {F : FTy → Type} [FloatOps F]

/-- The 256 x 1024 accumulator after the four reduction steps, from the reset value. -/
def acc0 (xm : Vec F S256x1024 .f32) (xn : Fin 4 → Vec F S256x2048 .f32) : Vec F S256x1024 .f32 :=
  k1_pay7 xm (xn 3) (k1_pay7 xm (xn 2) (k1_pay7 xm (xn 1) (k1_pay7 xm (xn 0) (k1_pay1 (F := F)))))

/-- The 1 x 1024 accumulator after the four reduction steps, from the reset value. -/
def acc1 (xm : Vec F S256x1024 .f32) (xn : Fin 4 → Vec F S256x2048 .f32) : Vec F S1x1024 .f32 :=
  k1_pay6 xm (xn 3) (k1_pay6 xm (xn 2) (k1_pay6 xm (xn 1) (k1_pay6 xm (xn 0) (k1_pay2 (F := F)))))

/-- The output block the last step stores. -/
def outBlk (xm : Vec F S256x1024 .f32) (xn : Fin 4 → Vec F S256x2048 .f32) : Vec F S256x1024 .f32 :=
  k1_pay8 xm (acc1 xm xn) (acc0 xm xn)

theorem pay1_eq : (k1_pay1 (F := F)) = k0_pay1 := rfl
theorem pay2_eq : (k1_pay2 (F := F)) = k0_pay2 := rfl
theorem pay3_eq (v3 : Vec F S256x1024 .f32) : k1_pay3 v3 = v3 := by
  unfold k1_pay3
  exact shapeCast_self _ _
theorem pay4_eq (v5 : Vec F S256x2048 .f32) : k1_pay4 v5 = k0_pay3 v5 := by
  unfold k1_pay4 k0_pay3
  rw [shapeCast_self]
theorem pay5_eq (v3 : Vec F S256x1024 .f32) (v5 : Vec F S256x2048 .f32) : k1_pay5 v3 v5 = k0_pay4 v3 v5 := by
  unfold k1_pay5 k0_pay4
  rw [pay3_eq, pay4_eq]
theorem pay6_eq (v3 : Vec F S256x1024 .f32) (v5 : Vec F S256x2048 .f32) (v15 : Vec F S1x1024 .f32) :
    k1_pay6 v3 v5 v15 = k0_pay5 v3 v5 v15 := by
  unfold k1_pay6 k0_pay5
  rw [pay5_eq]
theorem pay7_eq (v3 : Vec F S256x1024 .f32) (v5 : Vec F S256x2048 .f32) (v22 : Vec F S256x1024 .f32) :
    k1_pay7 v3 v5 v22 = k0_pay6 v3 v5 v22 := by
  unfold k1_pay7 k0_pay6
  rw [pay5_eq, pay4_eq]
theorem pay8_eq (v3 : Vec F S256x1024 .f32) (v30 : Vec F S1x1024 .f32) (v31 : Vec F S256x1024 .f32) :
    k1_pay8 v3 v30 v31 = k0_pay7 v3 v30 v31 := by
  unfold k1_pay8 k0_pay7
  rw [pay3_eq]

theorem acc0_eq (xm : Vec F S256x1024 .f32) (xn : Fin 4 → Vec F S256x2048 .f32) : acc0 xm xn = Block0.acc0 xm xn := by
  unfold acc0 Block0.acc0
  rw [pay7_eq, pay7_eq, pay7_eq, pay7_eq, pay1_eq]
theorem acc1_eq (xm : Vec F S256x1024 .f32) (xn : Fin 4 → Vec F S256x2048 .f32) : acc1 xm xn = Block0.acc1 xm xn := by
  unfold acc1 Block0.acc1
  rw [pay6_eq, pay6_eq, pay6_eq, pay6_eq, pay2_eq]
theorem outBlk_eq (xm : Vec F S256x1024 .f32) (xn : Fin 4 → Vec F S256x2048 .f32) : outBlk xm xn = Block0.outBlk xm xn := by
  unfold outBlk Block0.outBlk
  rw [pay8_eq, acc0_eq, acc1_eq]

/-- The stored block IS the update of X on its columns. -/
theorem outBlk_apply (X : SX.Idx → EReal) (mb : Fin 8) (xm : Vec Ideal S256x1024 .f32) (xn : Fin 4 → Vec Ideal S256x2048 .f32)
    (hxm : ∀ (d : Fin 256) (q : Fin 1024), xm (ix2 d q) = X (ix2 d ⟨1024 * mb.val + q.val, by omega⟩))
    (hxn : ∀ (k : Fin 4) (d : Fin 256) (q : Fin 2048), xn k (ix2 d q) = X (ix2 d ⟨2048 * k.val + q.val, by omega⟩))
    (d : Fin 256) (q : Fin 1024) :
    outBlk xm xn (ix2 d q) = stepAt X d ⟨1024 * mb.val + q.val, by omega⟩ := by
  rw [outBlk_eq]
  exact Block0.outBlk_apply X mb xm xn hxm hxn d q

end Cert.KernelIdeal.Block1

/-! ## Call 2: the same block value

Call 2's body differs from call 0's only by shape casts of xm and of xn to their own shapes, which are the identity;
so its payloads are call 0's, and so is the block it stores. -/

namespace Cert.KernelIdeal.Block2

open Cert.KernelIdeal Cert.KernelIdeal.Gen Cert.MeanShift
open Idealize.ShloMosaic Idealize.ShloMosaic.ValueIdx

variable {F : FTy → Type} [FloatOps F]

/-- The 256 x 1024 accumulator after the four reduction steps, from the reset value. -/
def acc0 (xm : Vec F S256x1024 .f32) (xn : Fin 4 → Vec F S256x2048 .f32) : Vec F S256x1024 .f32 :=
  k2_pay7 xm (xn 3) (k2_pay7 xm (xn 2) (k2_pay7 xm (xn 1) (k2_pay7 xm (xn 0) (k2_pay1 (F := F)))))

/-- The 1 x 1024 accumulator after the four reduction steps, from the reset value. -/
def acc1 (xm : Vec F S256x1024 .f32) (xn : Fin 4 → Vec F S256x2048 .f32) : Vec F S1x1024 .f32 :=
  k2_pay6 xm (xn 3) (k2_pay6 xm (xn 2) (k2_pay6 xm (xn 1) (k2_pay6 xm (xn 0) (k2_pay2 (F := F)))))

/-- The output block the last step stores. -/
def outBlk (xm : Vec F S256x1024 .f32) (xn : Fin 4 → Vec F S256x2048 .f32) : Vec F S256x1024 .f32 :=
  k2_pay8 xm (acc1 xm xn) (acc0 xm xn)

theorem pay1_eq : (k2_pay1 (F := F)) = k0_pay1 := rfl
theorem pay2_eq : (k2_pay2 (F := F)) = k0_pay2 := rfl
theorem pay3_eq (v3 : Vec F S256x1024 .f32) : k2_pay3 v3 = v3 := by
  unfold k2_pay3
  exact shapeCast_self _ _
theorem pay4_eq (v5 : Vec F S256x2048 .f32) : k2_pay4 v5 = k0_pay3 v5 := by
  unfold k2_pay4 k0_pay3
  rw [shapeCast_self]
theorem pay5_eq (v3 : Vec F S256x1024 .f32) (v5 : Vec F S256x2048 .f32) : k2_pay5 v3 v5 = k0_pay4 v3 v5 := by
  unfold k2_pay5 k0_pay4
  rw [pay3_eq, pay4_eq]
theorem pay6_eq (v3 : Vec F S256x1024 .f32) (v5 : Vec F S256x2048 .f32) (v15 : Vec F S1x1024 .f32) :
    k2_pay6 v3 v5 v15 = k0_pay5 v3 v5 v15 := by
  unfold k2_pay6 k0_pay5
  rw [pay5_eq]
theorem pay7_eq (v3 : Vec F S256x1024 .f32) (v5 : Vec F S256x2048 .f32) (v22 : Vec F S256x1024 .f32) :
    k2_pay7 v3 v5 v22 = k0_pay6 v3 v5 v22 := by
  unfold k2_pay7 k0_pay6
  rw [pay5_eq, pay4_eq]
theorem pay8_eq (v3 : Vec F S256x1024 .f32) (v30 : Vec F S1x1024 .f32) (v31 : Vec F S256x1024 .f32) :
    k2_pay8 v3 v30 v31 = k0_pay7 v3 v30 v31 := by
  unfold k2_pay8 k0_pay7
  rw [pay3_eq]

theorem acc0_eq (xm : Vec F S256x1024 .f32) (xn : Fin 4 → Vec F S256x2048 .f32) : acc0 xm xn = Block0.acc0 xm xn := by
  unfold acc0 Block0.acc0
  rw [pay7_eq, pay7_eq, pay7_eq, pay7_eq, pay1_eq]
theorem acc1_eq (xm : Vec F S256x1024 .f32) (xn : Fin 4 → Vec F S256x2048 .f32) : acc1 xm xn = Block0.acc1 xm xn := by
  unfold acc1 Block0.acc1
  rw [pay6_eq, pay6_eq, pay6_eq, pay6_eq, pay2_eq]
theorem outBlk_eq (xm : Vec F S256x1024 .f32) (xn : Fin 4 → Vec F S256x2048 .f32) : outBlk xm xn = Block0.outBlk xm xn := by
  unfold outBlk Block0.outBlk
  rw [pay8_eq, acc0_eq, acc1_eq]

/-- The stored block IS the update of X on its columns. -/
theorem outBlk_apply (X : SX.Idx → EReal) (mb : Fin 8) (xm : Vec Ideal S256x1024 .f32) (xn : Fin 4 → Vec Ideal S256x2048 .f32)
    (hxm : ∀ (d : Fin 256) (q : Fin 1024), xm (ix2 d q) = X (ix2 d ⟨1024 * mb.val + q.val, by omega⟩))
    (hxn : ∀ (k : Fin 4) (d : Fin 256) (q : Fin 2048), xn k (ix2 d q) = X (ix2 d ⟨2048 * k.val + q.val, by omega⟩))
    (d : Fin 256) (q : Fin 1024) :
    outBlk xm xn (ix2 d q) = stepAt X d ⟨1024 * mb.val + q.val, by omega⟩ := by
  rw [outBlk_eq]
  exact Block0.outBlk_apply X mb xm xn hxm hxn d q

end Cert.KernelIdeal.Block2

end
-- ==== Proof.KI.Value0.lean ====
/-
  What call 0 leaves in its output array, at the ideal instance: the mean-shift update of the array it
  read. The output window is written back at the last reduction step of each of the 8 column blocks; what
  that point stores is the finishing payload over the accumulators, which over the four steps of the
  block's run are the block algebra's four-step accumulators of the SAME column block of window 0 (its
  index does not move within a run) and the four column blocks of window 1; read at an index this is the
  update at that index (the block algebra), and the 8 written-back blocks tile the array.
-/
import proofs.«419860_j83794811945535_3_alg».proof.Proof.KI.Data0
import proofs.«419860_j83794811945535_3_alg».proof.Proof.KI.Block0
import proofs.«419860_j83794811945535_3_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.MeanShift
open Idealize.ShloMosaic Idealize.ShloMosaic.TcCoe Idealize.ShloMosaic.ValueIdx
open Idealize.SL Idealize.SL.Sem
open Idealize.ShloMosaic.Pipeline (Dat Cfg Window)

/-! ## Where the blocks sit in the array -/

/-- The block indices of the three windows at point t of the 8 x 4 grid, reduction step innermost: row block 0
    throughout; windows 0 and 2 at column block t / 4, window 1 at column block t % 4. -/
private theorem idx_facts : ∀ t : Fin cfg0.N,
    win0_0.index t (0 : Fin 2) = 0 ∧ win0_0.index t (1 : Fin 2) = t.val / 4
    ∧ win0_1.index t (0 : Fin 2) = 0 ∧ win0_1.index t (1 : Fin 2) = t.val % 4
    ∧ win0_2.index t (0 : Fin 2) = 0 ∧ win0_2.index t (1 : Fin 2) = t.val / 4 :=
  (by decide +kernel : ∀ t : Fin grid0.N, _)

/-- The array column under column q of the 1024-wide block of windows 0 and 2 at point t. -/
private def colM (t : Fin cfg0.N) (q : Fin 1024) : Fin 8192 :=
  ⟨1024 * (t.val / 4) + q.val, by have := t.isLt; have hN : cfg0.N = 32 := N_0; omega⟩

/-- The array column under column q of the 2048-wide block of window 1 at point t. -/
private def colN (t : Fin cfg0.N) (q : Fin 2048) : Fin 8192 :=
  ⟨2048 * (t.val % 4) + q.val, by omega⟩

section Region

variable (V : (c : Dev nD) → (b : Ref sig .tc) → Buf (Elt Ideal) ((c : Thread nD τ).loc b)) (c : Dev nD)

/-- Window 0's block at point t, read at (d, q), is the array at (d, 1024 * (t / 4) + q). -/
private theorem blkRead_m (t : Fin cfg0.N) (d : Fin 256) (q : Fin 1024) :
    xm0 V c t (ix2 d q) = V c main_arg0 (ix2 d (colM t q)) := by
  obtain ⟨ea, eb, -⟩ := idx_facts t
  show V c main_arg0 (((cfg0.win 0).blk t).view.emb (ix2 d q)) = V c main_arg0 (ix2 d (colM t q))
  refine congrArg (V c main_arg0) (funext fun a => Fin.ext ?_)
  match a with
  | ⟨0, _⟩ => show win0_0.index t (0 : Fin 2) * 256 + 1 * d.val = d.val; omega
  | ⟨1, _⟩ => show win0_0.index t (1 : Fin 2) * 1024 + 1 * q.val = 1024 * (t.val / 4) + q.val; omega

/-- Window 1's block at point t, read at (d, q), is the array at (d, 2048 * (t % 4) + q). -/
private theorem blkRead_n (t : Fin cfg0.N) (d : Fin 256) (q : Fin 2048) :
    xn0 V c t (ix2 d q) = V c main_arg0 (ix2 d (colN t q)) := by
  obtain ⟨-, -, ea, eb, -⟩ := idx_facts t
  show V c main_arg0 (((cfg0.win 1).blk t).view.emb (ix2 d q)) = V c main_arg0 (ix2 d (colN t q))
  refine congrArg (V c main_arg0) (funext fun a => Fin.ext ?_)
  match a with
  | ⟨0, _⟩ => show win0_1.index t (0 : Fin 2) * 256 + 1 * d.val = d.val; omega
  | ⟨1, _⟩ => show win0_1.index t (1 : Fin 2) * 2048 + 1 * q.val = 2048 * (t.val % 4) + q.val; omega

/-- The output window's block at point t sits over the same columns as window 0's. -/
private theorem out_emb (t : Fin cfg0.N) (d : Fin 256) (q : Fin 1024) :
    ((cfg0.win 2).blk t).view.emb (ix2 d q) = ix2 d (colM t q) := by
  obtain ⟨-, -, -, -, ea, eb⟩ := idx_facts t
  refine funext fun a => Fin.ext ?_
  match a with
  | ⟨0, _⟩ => show win0_2.index t (0 : Fin 2) * 256 + 1 * d.val = d.val; omega
  | ⟨1, _⟩ => show win0_2.index t (1 : Fin 2) * 1024 + 1 * q.val = 1024 * (t.val / 4) + q.val; omega

/-- Window 0's block depends on the point only through its column block t / 4. -/
private theorem blk_m_congr (t t' : Fin cfg0.N) (h : t.val / 4 = t'.val / 4) : xm0 V c t = xm0 V c t' := by
  funext i
  obtain ⟨d, q, rfl⟩ : ∃ (d : Fin 256) (q : Fin 1024), i = ix2 d q := ⟨i 0, i 1, eq_ix2 i⟩
  refine (blkRead_m V c t d q).trans (Eq.trans ?_ (blkRead_m V c t' d q).symm)
  exact congrArg (fun j => V c main_arg0 (ix2 d j)) (Fin.ext (by show 1024 * (t.val / 4) + q.val = 1024 * (t'.val / 4) + q.val; rw [h]))

/-- An index of the array is in the output block of point t iff each coordinate is in the block's range. -/
private theorem mem_blk (t : Fin cfg0.N) (i : SX.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-! ## The accumulators over one run of four reduction steps -/

/-- Off a first step the accumulators continue from the point before (the recursion's successor case, with the
    point before named). -/
private theorem scAt_step (n' n : ℕ) (hn' : n' < cfg0.N) (hn : n < cfg0.N) (e : n' = n + 1) (hz : ¬n' % 4 = 0) :
    scAt0 V c n' hn' = (k0_pay6 (xm0 V c ⟨n', hn'⟩) (xn0 V c ⟨n', hn'⟩) (scAt0 V c n hn).1,
      k0_pay5 (xm0 V c ⟨n', hn'⟩) (xn0 V c ⟨n', hn'⟩) (scAt0 V c n hn).2) := by
  subst e
  exact if_neg hz

/-- At the last step of a run that starts at point s, the accumulators are the block algebra's four-step ones
    over the run's one block of window 0 and its four blocks of window 1. -/
private theorem acc_run (s : ℕ) (hs : s + 3 < cfg0.N) (hq : s % 4 = 0) :
    scAt0 V c (s + 3) hs
      = (Block0.acc0 (xm0 V c ⟨s + 3, hs⟩) (fun k : Fin 4 => xn0 V c ⟨s + k.val, by omega⟩),
         Block0.acc1 (xm0 V c ⟨s + 3, hs⟩) (fun k : Fin 4 => xn0 V c ⟨s + k.val, by omega⟩)) := by
  have ha : s < cfg0.N := by omega
  have hb : s + 1 < cfg0.N := by omega
  have hc : s + 2 < cfg0.N := by omega
  have ea : scAt0 V c s ha = (k0_pay6 (xm0 V c ⟨s, ha⟩) (xn0 V c ⟨s, ha⟩) (k0_pay1 (F := Ideal)),
      k0_pay5 (xm0 V c ⟨s, ha⟩) (xn0 V c ⟨s, ha⟩) (k0_pay2 (F := Ideal))) := scAt0_first V c ⟨s, ha⟩ hq
  have eb := scAt_step V c (s + 1) s hb ha rfl (by omega)
  have ec := scAt_step V c (s + 2) (s + 1) hc hb rfl (by omega)
  have ed := scAt_step V c (s + 3) (s + 2) hs hc rfl (by omega)
  have ma : xm0 V c ⟨s, ha⟩ = xm0 V c ⟨s + 3, hs⟩ := blk_m_congr V c _ _ (by show s / 4 = (s + 3) / 4; omega)
  have mb : xm0 V c ⟨s + 1, hb⟩ = xm0 V c ⟨s + 3, hs⟩ := blk_m_congr V c _ _ (by show (s + 1) / 4 = (s + 3) / 4; omega)
  have mc : xm0 V c ⟨s + 2, hc⟩ = xm0 V c ⟨s + 3, hs⟩ := blk_m_congr V c _ _ (by show (s + 2) / 4 = (s + 3) / 4; omega)
  rw [ed, ec, eb, ea, ma, mb, mc]
  rfl

/-- What a last step stores, read at (d, q): the update at row d and the block's column q of the array. -/
private theorem stored_apply (t : Fin cfg0.N) (hl : t.val % 4 = 3) (d : Fin 256) (q : Fin 1024) :
    k0_pay7 (xm0 V c t) (scAt0 V c t.val t.isLt).2 (scAt0 V c t.val t.isLt).1 (ix2 d q)
      = stepAt (V c main_arg0) d (colM t q) := by
  have hN : cfg0.N = 32 := N_0
  obtain ⟨n, hn⟩ := t
  obtain ⟨s, rfl⟩ : ∃ s, n = s + 3 := ⟨n - 3, by have : n % 4 = 3 := hl; omega⟩
  have hq : s % 4 = 0 := by have : (s + 3) % 4 = 3 := hl; omega
  show k0_pay7 (xm0 V c ⟨s + 3, hn⟩) (scAt0 V c (s + 3) hn).2 (scAt0 V c (s + 3) hn).1 (ix2 d q) = _
  rw [acc_run V c s hn hq]
  refine (Block0.outBlk_apply (V c main_arg0) ⟨(s + 3) / 4, by omega⟩ (xm0 V c ⟨s + 3, hn⟩)
    (fun k : Fin 4 => xn0 V c ⟨s + k.val, by omega⟩) (fun d q => blkRead_m V c ⟨s + 3, hn⟩ d q) (fun k d q => ?_) d q)
  refine (blkRead_n V c ⟨s + k.val, by omega⟩ d q).trans ?_
  exact congrArg (fun j => V c main_arg0 (ix2 d j)) (Fin.ext (by
    show 2048 * ((s + k.val) % 4) + q.val = 2048 * k.val + q.val
    have := k.isLt; omega))

/-! ## The written-back blocks are the update's, and they tile the array -/

/-- What a flushing point writes back is its block of the update of the array the windows read. -/
private theorem flushed_eq (t : Fin cfg0.N) (hf : (cfg0.win 2).flush t = true) :
    (dat0 (F := Ideal) V c).flushed 2 t = ((cfg0.win 2).blk t).view.read (Elt Ideal) (step (V c main_arg0)) := by
  have hl : t.val % 4 = 3 := (flush0_2 t).mp hf
  show (cfg0.win 2).cut (grid0.coords t) ((dat0 (F := Ideal) V c).after 2 t) = _
  rw [after0_2]
  funext y
  obtain ⟨d, q, rfl⟩ : ∃ (d : Fin 256) (q : Fin 1024), y = ix2 d q := ⟨y 0, y 1, eq_ix2 y⟩
  show k0_pay7 (xm0 V c t) (scAt0 V c t.val t.isLt).2 (scAt0 V c t.val t.isLt).1 (ix2 d q)
    = step (V c main_arg0) (((cfg0.win 2).blk t).view.emb (ix2 d q))
  rw [out_emb, step_ix2]
  exact stored_apply V c t hl d q

/-- Every index of the array is in the block some flushing point writes back: column j is under the last step
    of column block j / 1024. -/
private theorem cover (i : SX.Idx) : ∃ t : Fin cfg0.N, (cfg0.win 2).flush t = true ∧ i ∈ ((cfg0.win 2).blk t).view.set := by
  have hN : cfg0.N = 32 := N_0
  have hr : (i 0).val < 256 := (i 0).isLt
  have hj : (i 1).val < 8192 := (i 1).isLt
  have hp : 4 * ((i 1).val / 1024) + 3 < cfg0.N := by omega
  have ht : (⟨4 * ((i 1).val / 1024) + 3, hp⟩ : Fin cfg0.N).val = 4 * ((i 1).val / 1024) + 3 := rfl
  generalize (⟨4 * ((i 1).val / 1024) + 3, hp⟩ : Fin cfg0.N) = t at ht
  refine ⟨t, (flush0_2 t).mpr (by omega), ?_⟩
  obtain ⟨-, -, -, -, ea, eb⟩ := idx_facts t
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

end Region

/-- After call 0 its output array holds the update of the array its two input windows read. -/
theorem out0_eq_step (V : (c : Dev nD) → (b : Ref sig .tc) → Buf (Elt Ideal) ((c : Thread nD τ).loc b)) (c : Dev nD) :
    (dat0 (F := Ideal) V c).arrAt 2 cfg0.N = step (V c main_arg0) :=
  (dat0 (F := Ideal) V c).arrAt_eq_of_cover 2 (step (V c main_arg0)) (fun t hf => flushed_eq V c t hf) cover

end Cert.KernelIdeal.Hand

end
-- ==== Proof.KI.Value1.lean ====
/-
  What call 1 leaves in its output array, at the ideal instance: the mean-shift update of the array it
  read. The output window is written back at the last reduction step of each of the 8 column blocks; what
  that point stores is the finishing payload over the accumulators, which over the four steps of the
  block's run are the block algebra's four-step accumulators of the SAME column block of window 0 (its
  index does not move within a run) and the four column blocks of window 1; read at an index this is the
  update at that index (the block algebra), and the 8 written-back blocks tile the array.
-/
import proofs.«419860_j83794811945535_3_alg».proof.Proof.KI.Data1
import proofs.«419860_j83794811945535_3_alg».proof.Proof.KI.Block0
import proofs.«419860_j83794811945535_3_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.MeanShift
open Idealize.ShloMosaic Idealize.ShloMosaic.TcCoe Idealize.ShloMosaic.ValueIdx
open Idealize.SL Idealize.SL.Sem
open Idealize.ShloMosaic.Pipeline (Dat Cfg Window)

/-! ## Where the blocks sit in the array -/

/-- The block indices of the three windows at point t of the 8 x 4 grid, reduction step innermost: row block 0
    throughout; windows 0 and 2 at column block t / 4, window 1 at column block t % 4. -/
private theorem idx_facts : ∀ t : Fin cfg1.N,
    win1_0.index t (0 : Fin 2) = 0 ∧ win1_0.index t (1 : Fin 2) = t.val / 4
    ∧ win1_1.index t (0 : Fin 2) = 0 ∧ win1_1.index t (1 : Fin 2) = t.val % 4
    ∧ win1_2.index t (0 : Fin 2) = 0 ∧ win1_2.index t (1 : Fin 2) = t.val / 4 :=
  (by decide +kernel : ∀ t : Fin grid1.N, _)

/-- The array column under column q of the 1024-wide block of windows 0 and 2 at point t. -/
private def colM (t : Fin cfg1.N) (q : Fin 1024) : Fin 8192 :=
  ⟨1024 * (t.val / 4) + q.val, by have := t.isLt; have hN : cfg1.N = 32 := N_1; omega⟩

/-- The array column under column q of the 2048-wide block of window 1 at point t. -/
private def colN (t : Fin cfg1.N) (q : Fin 2048) : Fin 8192 :=
  ⟨2048 * (t.val % 4) + q.val, by omega⟩

section Region

variable (V : (c : Dev nD) → (b : Ref sig .tc) → Buf (Elt Ideal) ((c : Thread nD τ).loc b)) (c : Dev nD)

/-- Window 0's block at point t, read at (d, q), is the array at (d, 1024 * (t / 4) + q). -/
private theorem blkRead_m (t : Fin cfg1.N) (d : Fin 256) (q : Fin 1024) :
    xm1 V c t (ix2 d q) = V c main_v0 (ix2 d (colM t q)) := by
  obtain ⟨ea, eb, -⟩ := idx_facts t
  show V c main_v0 (((cfg1.win 0).blk t).view.emb (ix2 d q)) = V c main_v0 (ix2 d (colM t q))
  refine congrArg (V c main_v0) (funext fun a => Fin.ext ?_)
  match a with
  | ⟨0, _⟩ => show win1_0.index t (0 : Fin 2) * 256 + 1 * d.val = d.val; omega
  | ⟨1, _⟩ => show win1_0.index t (1 : Fin 2) * 1024 + 1 * q.val = 1024 * (t.val / 4) + q.val; omega

/-- Window 1's block at point t, read at (d, q), is the array at (d, 2048 * (t % 4) + q). -/
private theorem blkRead_n (t : Fin cfg1.N) (d : Fin 256) (q : Fin 2048) :
    xn1 V c t (ix2 d q) = V c main_v0 (ix2 d (colN t q)) := by
  obtain ⟨-, -, ea, eb, -⟩ := idx_facts t
  show V c main_v0 (((cfg1.win 1).blk t).view.emb (ix2 d q)) = V c main_v0 (ix2 d (colN t q))
  refine congrArg (V c main_v0) (funext fun a => Fin.ext ?_)
  match a with
  | ⟨0, _⟩ => show win1_1.index t (0 : Fin 2) * 256 + 1 * d.val = d.val; omega
  | ⟨1, _⟩ => show win1_1.index t (1 : Fin 2) * 2048 + 1 * q.val = 2048 * (t.val % 4) + q.val; omega

/-- The output window's block at point t sits over the same columns as window 0's. -/
private theorem out_emb (t : Fin cfg1.N) (d : Fin 256) (q : Fin 1024) :
    ((cfg1.win 2).blk t).view.emb (ix2 d q) = ix2 d (colM t q) := by
  obtain ⟨-, -, -, -, ea, eb⟩ := idx_facts t
  refine funext fun a => Fin.ext ?_
  match a with
  | ⟨0, _⟩ => show win1_2.index t (0 : Fin 2) * 256 + 1 * d.val = d.val; omega
  | ⟨1, _⟩ => show win1_2.index t (1 : Fin 2) * 1024 + 1 * q.val = 1024 * (t.val / 4) + q.val; omega

/-- Window 0's block depends on the point only through its column block t / 4. -/
private theorem blk_m_congr (t t' : Fin cfg1.N) (h : t.val / 4 = t'.val / 4) : xm1 V c t = xm1 V c t' := by
  funext i
  obtain ⟨d, q, rfl⟩ : ∃ (d : Fin 256) (q : Fin 1024), i = ix2 d q := ⟨i 0, i 1, eq_ix2 i⟩
  refine (blkRead_m V c t d q).trans (Eq.trans ?_ (blkRead_m V c t' d q).symm)
  exact congrArg (fun j => V c main_v0 (ix2 d j)) (Fin.ext (by show 1024 * (t.val / 4) + q.val = 1024 * (t'.val / 4) + q.val; rw [h]))

/-- An index of the array is in the output block of point t iff each coordinate is in the block's range. -/
private theorem mem_blk (t : Fin cfg1.N) (i : SX.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v1).slice (win1_2.rect t)).set ↔ _
  rw [View.set_slice_whole, Rect.mem_set_unit]
  exact Iff.rfl

/-! ## The accumulators over one run of four reduction steps -/

/-- Off a first step the accumulators continue from the point before (the recursion's successor case, with the
    point before named). -/
private theorem scAt_step (n' n : ℕ) (hn' : n' < cfg1.N) (hn : n < cfg1.N) (e : n' = n + 1) (hz : ¬n' % 4 = 0) :
    scAt1 V c n' hn' = (k1_pay7 (xm1 V c ⟨n', hn'⟩) (xn1 V c ⟨n', hn'⟩) (scAt1 V c n hn).1,
      k1_pay6 (xm1 V c ⟨n', hn'⟩) (xn1 V c ⟨n', hn'⟩) (scAt1 V c n hn).2) := by
  subst e
  exact if_neg hz

/-- At the last step of a run that starts at point s, the accumulators are the block algebra's four-step ones
    over the run's one block of window 0 and its four blocks of window 1. -/
private theorem acc_run (s : ℕ) (hs : s + 3 < cfg1.N) (hq : s % 4 = 0) :
    scAt1 V c (s + 3) hs
      = (Block1.acc0 (xm1 V c ⟨s + 3, hs⟩) (fun k : Fin 4 => xn1 V c ⟨s + k.val, by omega⟩),
         Block1.acc1 (xm1 V c ⟨s + 3, hs⟩) (fun k : Fin 4 => xn1 V c ⟨s + k.val, by omega⟩)) := by
  have ha : s < cfg1.N := by omega
  have hb : s + 1 < cfg1.N := by omega
  have hc : s + 2 < cfg1.N := by omega
  have ea : scAt1 V c s ha = (k1_pay7 (xm1 V c ⟨s, ha⟩) (xn1 V c ⟨s, ha⟩) (k1_pay1 (F := Ideal)),
      k1_pay6 (xm1 V c ⟨s, ha⟩) (xn1 V c ⟨s, ha⟩) (k1_pay2 (F := Ideal))) := scAt1_first V c ⟨s, ha⟩ hq
  have eb := scAt_step V c (s + 1) s hb ha rfl (by omega)
  have ec := scAt_step V c (s + 2) (s + 1) hc hb rfl (by omega)
  have ed := scAt_step V c (s + 3) (s + 2) hs hc rfl (by omega)
  have ma : xm1 V c ⟨s, ha⟩ = xm1 V c ⟨s + 3, hs⟩ := blk_m_congr V c _ _ (by show s / 4 = (s + 3) / 4; omega)
  have mb : xm1 V c ⟨s + 1, hb⟩ = xm1 V c ⟨s + 3, hs⟩ := blk_m_congr V c _ _ (by show (s + 1) / 4 = (s + 3) / 4; omega)
  have mc : xm1 V c ⟨s + 2, hc⟩ = xm1 V c ⟨s + 3, hs⟩ := blk_m_congr V c _ _ (by show (s + 2) / 4 = (s + 3) / 4; omega)
  rw [ed, ec, eb, ea, ma, mb, mc]
  rfl

/-- What a last step stores, read at (d, q): the update at row d and the block's column q of the array. -/
private theorem stored_apply (t : Fin cfg1.N) (hl : t.val % 4 = 3) (d : Fin 256) (q : Fin 1024) :
    k1_pay8 (xm1 V c t) (scAt1 V c t.val t.isLt).2 (scAt1 V c t.val t.isLt).1 (ix2 d q)
      = stepAt (V c main_v0) d (colM t q) := by
  have hN : cfg1.N = 32 := N_1
  obtain ⟨n, hn⟩ := t
  obtain ⟨s, rfl⟩ : ∃ s, n = s + 3 := ⟨n - 3, by have : n % 4 = 3 := hl; omega⟩
  have hq : s % 4 = 0 := by have : (s + 3) % 4 = 3 := hl; omega
  show k1_pay8 (xm1 V c ⟨s + 3, hn⟩) (scAt1 V c (s + 3) hn).2 (scAt1 V c (s + 3) hn).1 (ix2 d q) = _
  rw [acc_run V c s hn hq]
  refine (Block1.outBlk_apply (V c main_v0) ⟨(s + 3) / 4, by omega⟩ (xm1 V c ⟨s + 3, hn⟩)
    (fun k : Fin 4 => xn1 V c ⟨s + k.val, by omega⟩) (fun d q => blkRead_m V c ⟨s + 3, hn⟩ d q) (fun k d q => ?_) d q)
  refine (blkRead_n V c ⟨s + k.val, by omega⟩ d q).trans ?_
  exact congrArg (fun j => V c main_v0 (ix2 d j)) (Fin.ext (by
    show 2048 * ((s + k.val) % 4) + q.val = 2048 * k.val + q.val
    have := k.isLt; omega))

/-! ## The written-back blocks are the update's, and they tile the array -/

/-- What a flushing point writes back is its block of the update of the array the windows read. -/
private theorem flushed_eq (t : Fin cfg1.N) (hf : (cfg1.win 2).flush t = true) :
    (dat1 (F := Ideal) V c).flushed 2 t = ((cfg1.win 2).blk t).view.read (Elt Ideal) (step (V c main_v0)) := by
  have hl : t.val % 4 = 3 := (flush1_2 t).mp hf
  show (cfg1.win 2).cut (grid1.coords t) ((dat1 (F := Ideal) V c).after 2 t) = _
  rw [after1_2]
  funext y
  obtain ⟨d, q, rfl⟩ : ∃ (d : Fin 256) (q : Fin 1024), y = ix2 d q := ⟨y 0, y 1, eq_ix2 y⟩
  show k1_pay8 (xm1 V c t) (scAt1 V c t.val t.isLt).2 (scAt1 V c t.val t.isLt).1 (ix2 d q)
    = step (V c main_v0) (((cfg1.win 2).blk t).view.emb (ix2 d q))
  rw [out_emb, step_ix2]
  exact stored_apply V c t hl d q

/-- Every index of the array is in the block some flushing point writes back: column j is under the last step
    of column block j / 1024. -/
private theorem cover (i : SX.Idx) : ∃ t : Fin cfg1.N, (cfg1.win 2).flush t = true ∧ i ∈ ((cfg1.win 2).blk t).view.set := by
  have hN : cfg1.N = 32 := N_1
  have hr : (i 0).val < 256 := (i 0).isLt
  have hj : (i 1).val < 8192 := (i 1).isLt
  have hp : 4 * ((i 1).val / 1024) + 3 < cfg1.N := by omega
  have ht : (⟨4 * ((i 1).val / 1024) + 3, hp⟩ : Fin cfg1.N).val = 4 * ((i 1).val / 1024) + 3 := rfl
  generalize (⟨4 * ((i 1).val / 1024) + 3, hp⟩ : Fin cfg1.N) = t at ht
  refine ⟨t, (flush1_2 t).mpr (by omega), ?_⟩
  obtain ⟨-, -, -, -, ea, eb⟩ := idx_facts t
  rw [mem_blk]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 1024 ≤ (i 1).val ∧ (i 1).val < win1_2.index t (1 : Fin 2) * 1024 + 1024
    omega

end Region

/-- After call 1 its output array holds the update of the array its two input windows read. -/
theorem out1_eq_step (V : (c : Dev nD) → (b : Ref sig .tc) → Buf (Elt Ideal) ((c : Thread nD τ).loc b)) (c : Dev nD) :
    (dat1 (F := Ideal) V c).arrAt 2 cfg1.N = step (V c main_v0) :=
  (dat1 (F := Ideal) V c).arrAt_eq_of_cover 2 (step (V c main_v0)) (fun t hf => flushed_eq V c t hf) cover

end Cert.KernelIdeal.Hand

end
-- ==== Proof.KI.Value2.lean ====
/-
  What call 2 leaves in its output array, at the ideal instance: the mean-shift update of the array it
  read. The output window is written back at the last reduction step of each of the 8 column blocks; what
  that point stores is the finishing payload over the accumulators, which over the four steps of the
  block's run are the block algebra's four-step accumulators of the SAME column block of window 0 (its
  index does not move within a run) and the four column blocks of window 1; read at an index this is the
  update at that index (the block algebra), and the 8 written-back blocks tile the array.
-/
import proofs.«419860_j83794811945535_3_alg».proof.Proof.KI.Data2
import proofs.«419860_j83794811945535_3_alg».proof.Proof.KI.Block0
import proofs.«419860_j83794811945535_3_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.MeanShift
open Idealize.ShloMosaic Idealize.ShloMosaic.TcCoe Idealize.ShloMosaic.ValueIdx
open Idealize.SL Idealize.SL.Sem
open Idealize.ShloMosaic.Pipeline (Dat Cfg Window)

/-! ## Where the blocks sit in the array -/

/-- The block indices of the three windows at point t of the 8 x 4 grid, reduction step innermost: row block 0
    throughout; windows 0 and 2 at column block t / 4, window 1 at column block t % 4. -/
private theorem idx_facts : ∀ t : Fin cfg2.N,
    win2_0.index t (0 : Fin 2) = 0 ∧ win2_0.index t (1 : Fin 2) = t.val / 4
    ∧ win2_1.index t (0 : Fin 2) = 0 ∧ win2_1.index t (1 : Fin 2) = t.val % 4
    ∧ win2_2.index t (0 : Fin 2) = 0 ∧ win2_2.index t (1 : Fin 2) = t.val / 4 :=
  (by decide +kernel : ∀ t : Fin grid2.N, _)

/-- The array column under column q of the 1024-wide block of windows 0 and 2 at point t. -/
private def colM (t : Fin cfg2.N) (q : Fin 1024) : Fin 8192 :=
  ⟨1024 * (t.val / 4) + q.val, by have := t.isLt; have hN : cfg2.N = 32 := N_2; omega⟩

/-- The array column under column q of the 2048-wide block of window 1 at point t. -/
private def colN (t : Fin cfg2.N) (q : Fin 2048) : Fin 8192 :=
  ⟨2048 * (t.val % 4) + q.val, by omega⟩

section Region

variable (V : (c : Dev nD) → (b : Ref sig .tc) → Buf (Elt Ideal) ((c : Thread nD τ).loc b)) (c : Dev nD)

/-- Window 0's block at point t, read at (d, q), is the array at (d, 1024 * (t / 4) + q). -/
private theorem blkRead_m (t : Fin cfg2.N) (d : Fin 256) (q : Fin 1024) :
    xm2 V c t (ix2 d q) = V c main_v1 (ix2 d (colM t q)) := by
  obtain ⟨ea, eb, -⟩ := idx_facts t
  show V c main_v1 (((cfg2.win 0).blk t).view.emb (ix2 d q)) = V c main_v1 (ix2 d (colM t q))
  refine congrArg (V c main_v1) (funext fun a => Fin.ext ?_)
  match a with
  | ⟨0, _⟩ => show win2_0.index t (0 : Fin 2) * 256 + 1 * d.val = d.val; omega
  | ⟨1, _⟩ => show win2_0.index t (1 : Fin 2) * 1024 + 1 * q.val = 1024 * (t.val / 4) + q.val; omega

/-- Window 1's block at point t, read at (d, q), is the array at (d, 2048 * (t % 4) + q). -/
private theorem blkRead_n (t : Fin cfg2.N) (d : Fin 256) (q : Fin 2048) :
    xn2 V c t (ix2 d q) = V c main_v1 (ix2 d (colN t q)) := by
  obtain ⟨-, -, ea, eb, -⟩ := idx_facts t
  show V c main_v1 (((cfg2.win 1).blk t).view.emb (ix2 d q)) = V c main_v1 (ix2 d (colN t q))
  refine congrArg (V c main_v1) (funext fun a => Fin.ext ?_)
  match a with
  | ⟨0, _⟩ => show win2_1.index t (0 : Fin 2) * 256 + 1 * d.val = d.val; omega
  | ⟨1, _⟩ => show win2_1.index t (1 : Fin 2) * 2048 + 1 * q.val = 2048 * (t.val % 4) + q.val; omega

/-- The output window's block at point t sits over the same columns as window 0's. -/
private theorem out_emb (t : Fin cfg2.N) (d : Fin 256) (q : Fin 1024) :
    ((cfg2.win 2).blk t).view.emb (ix2 d q) = ix2 d (colM t q) := by
  obtain ⟨-, -, -, -, ea, eb⟩ := idx_facts t
  refine funext fun a => Fin.ext ?_
  match a with
  | ⟨0, _⟩ => show win2_2.index t (0 : Fin 2) * 256 + 1 * d.val = d.val; omega
  | ⟨1, _⟩ => show win2_2.index t (1 : Fin 2) * 1024 + 1 * q.val = 1024 * (t.val / 4) + q.val; omega

/-- Window 0's block depends on the point only through its column block t / 4. -/
private theorem blk_m_congr (t t' : Fin cfg2.N) (h : t.val / 4 = t'.val / 4) : xm2 V c t = xm2 V c t' := by
  funext i
  obtain ⟨d, q, rfl⟩ : ∃ (d : Fin 256) (q : Fin 1024), i = ix2 d q := ⟨i 0, i 1, eq_ix2 i⟩
  refine (blkRead_m V c t d q).trans (Eq.trans ?_ (blkRead_m V c t' d q).symm)
  exact congrArg (fun j => V c main_v1 (ix2 d j)) (Fin.ext (by show 1024 * (t.val / 4) + q.val = 1024 * (t'.val / 4) + q.val; rw [h]))

/-- An index of the array is in the output block of point t iff each coordinate is in the block's range. -/
private theorem mem_blk (t : Fin cfg2.N) (i : SX.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v2).slice (win2_2.rect t)).set ↔ _
  rw [View.set_slice_whole, Rect.mem_set_unit]
  exact Iff.rfl

/-! ## The accumulators over one run of four reduction steps -/

/-- Off a first step the accumulators continue from the point before (the recursion's successor case, with the
    point before named). -/
private theorem scAt_step (n' n : ℕ) (hn' : n' < cfg2.N) (hn : n < cfg2.N) (e : n' = n + 1) (hz : ¬n' % 4 = 0) :
    scAt2 V c n' hn' = (k2_pay7 (xm2 V c ⟨n', hn'⟩) (xn2 V c ⟨n', hn'⟩) (scAt2 V c n hn).1,
      k2_pay6 (xm2 V c ⟨n', hn'⟩) (xn2 V c ⟨n', hn'⟩) (scAt2 V c n hn).2) := by
  subst e
  exact if_neg hz

/-- At the last step of a run that starts at point s, the accumulators are the block algebra's four-step ones
    over the run's one block of window 0 and its four blocks of window 1. -/
private theorem acc_run (s : ℕ) (hs : s + 3 < cfg2.N) (hq : s % 4 = 0) :
    scAt2 V c (s + 3) hs
      = (Block2.acc0 (xm2 V c ⟨s + 3, hs⟩) (fun k : Fin 4 => xn2 V c ⟨s + k.val, by omega⟩),
         Block2.acc1 (xm2 V c ⟨s + 3, hs⟩) (fun k : Fin 4 => xn2 V c ⟨s + k.val, by omega⟩)) := by
  have ha : s < cfg2.N := by omega
  have hb : s + 1 < cfg2.N := by omega
  have hc : s + 2 < cfg2.N := by omega
  have ea : scAt2 V c s ha = (k2_pay7 (xm2 V c ⟨s, ha⟩) (xn2 V c ⟨s, ha⟩) (k2_pay1 (F := Ideal)),
      k2_pay6 (xm2 V c ⟨s, ha⟩) (xn2 V c ⟨s, ha⟩) (k2_pay2 (F := Ideal))) := scAt2_first V c ⟨s, ha⟩ hq
  have eb := scAt_step V c (s + 1) s hb ha rfl (by omega)
  have ec := scAt_step V c (s + 2) (s + 1) hc hb rfl (by omega)
  have ed := scAt_step V c (s + 3) (s + 2) hs hc rfl (by omega)
  have ma : xm2 V c ⟨s, ha⟩ = xm2 V c ⟨s + 3, hs⟩ := blk_m_congr V c _ _ (by show s / 4 = (s + 3) / 4; omega)
  have mb : xm2 V c ⟨s + 1, hb⟩ = xm2 V c ⟨s + 3, hs⟩ := blk_m_congr V c _ _ (by show (s + 1) / 4 = (s + 3) / 4; omega)
  have mc : xm2 V c ⟨s + 2, hc⟩ = xm2 V c ⟨s + 3, hs⟩ := blk_m_congr V c _ _ (by show (s + 2) / 4 = (s + 3) / 4; omega)
  rw [ed, ec, eb, ea, ma, mb, mc]
  rfl

/-- What a last step stores, read at (d, q): the update at row d and the block's column q of the array. -/
private theorem stored_apply (t : Fin cfg2.N) (hl : t.val % 4 = 3) (d : Fin 256) (q : Fin 1024) :
    k2_pay8 (xm2 V c t) (scAt2 V c t.val t.isLt).2 (scAt2 V c t.val t.isLt).1 (ix2 d q)
      = stepAt (V c main_v1) d (colM t q) := by
  have hN : cfg2.N = 32 := N_2
  obtain ⟨n, hn⟩ := t
  obtain ⟨s, rfl⟩ : ∃ s, n = s + 3 := ⟨n - 3, by have : n % 4 = 3 := hl; omega⟩
  have hq : s % 4 = 0 := by have : (s + 3) % 4 = 3 := hl; omega
  show k2_pay8 (xm2 V c ⟨s + 3, hn⟩) (scAt2 V c (s + 3) hn).2 (scAt2 V c (s + 3) hn).1 (ix2 d q) = _
  rw [acc_run V c s hn hq]
  refine (Block2.outBlk_apply (V c main_v1) ⟨(s + 3) / 4, by omega⟩ (xm2 V c ⟨s + 3, hn⟩)
    (fun k : Fin 4 => xn2 V c ⟨s + k.val, by omega⟩) (fun d q => blkRead_m V c ⟨s + 3, hn⟩ d q) (fun k d q => ?_) d q)
  refine (blkRead_n V c ⟨s + k.val, by omega⟩ d q).trans ?_
  exact congrArg (fun j => V c main_v1 (ix2 d j)) (Fin.ext (by
    show 2048 * ((s + k.val) % 4) + q.val = 2048 * k.val + q.val
    have := k.isLt; omega))

/-! ## The written-back blocks are the update's, and they tile the array -/

/-- What a flushing point writes back is its block of the update of the array the windows read. -/
private theorem flushed_eq (t : Fin cfg2.N) (hf : (cfg2.win 2).flush t = true) :
    (dat2 (F := Ideal) V c).flushed 2 t = ((cfg2.win 2).blk t).view.read (Elt Ideal) (step (V c main_v1)) := by
  have hl : t.val % 4 = 3 := (flush2_2 t).mp hf
  show (cfg2.win 2).cut (grid2.coords t) ((dat2 (F := Ideal) V c).after 2 t) = _
  rw [after2_2]
  funext y
  obtain ⟨d, q, rfl⟩ : ∃ (d : Fin 256) (q : Fin 1024), y = ix2 d q := ⟨y 0, y 1, eq_ix2 y⟩
  show k2_pay8 (xm2 V c t) (scAt2 V c t.val t.isLt).2 (scAt2 V c t.val t.isLt).1 (ix2 d q)
    = step (V c main_v1) (((cfg2.win 2).blk t).view.emb (ix2 d q))
  rw [out_emb, step_ix2]
  exact stored_apply V c t hl d q

/-- Every index of the array is in the block some flushing point writes back: column j is under the last step
    of column block j / 1024. -/
private theorem cover (i : SX.Idx) : ∃ t : Fin cfg2.N, (cfg2.win 2).flush t = true ∧ i ∈ ((cfg2.win 2).blk t).view.set := by
  have hN : cfg2.N = 32 := N_2
  have hr : (i 0).val < 256 := (i 0).isLt
  have hj : (i 1).val < 8192 := (i 1).isLt
  have hp : 4 * ((i 1).val / 1024) + 3 < cfg2.N := by omega
  have ht : (⟨4 * ((i 1).val / 1024) + 3, hp⟩ : Fin cfg2.N).val = 4 * ((i 1).val / 1024) + 3 := rfl
  generalize (⟨4 * ((i 1).val / 1024) + 3, hp⟩ : Fin cfg2.N) = t at ht
  refine ⟨t, (flush2_2 t).mpr (by omega), ?_⟩
  obtain ⟨-, -, -, -, ea, eb⟩ := idx_facts t
  rw [mem_blk]
  intro a
  match a with
  | ⟨0, _⟩ =>
    show win2_2.index t (0 : Fin 2) * 256 ≤ (i 0).val ∧ (i 0).val < win2_2.index t (0 : Fin 2) * 256 + 256
    omega
  | ⟨1, _⟩ =>
    show win2_2.index t (1 : Fin 2) * 1024 ≤ (i 1).val ∧ (i 1).val < win2_2.index t (1 : Fin 2) * 1024 + 1024
    omega

end Region

/-- After call 2 its output array holds the update of the array its two input windows read. -/
theorem out2_eq_step (V : (c : Dev nD) → (b : Ref sig .tc) → Buf (Elt Ideal) ((c : Thread nD τ).loc b)) (c : Dev nD) :
    (dat2 (F := Ideal) V c).arrAt 2 cfg2.N = step (V c main_v1) :=
  (dat2 (F := Ideal) V c).arrAt_eq_of_cover 2 (step (V c main_v1)) (fun t hf => flushed_eq V c t hf) cover

end Cert.KernelIdeal.Hand

end
-- ==== Proof.KI.Values.lean ====
/-
  The three output arrays at the ideal instance: each call leaves the mean-shift update of the array it
  read, and call 1 reads what call 0 wrote, call 2 what call 1 wrote: the outputs are the first three
  iterates of the update on the argument.
-/
import proofs.«419860_j83794811945535_3_alg».proof.Proof.KI.Run
import proofs.«419860_j83794811945535_3_alg».proof.Proof.KI.Value0
import proofs.«419860_j83794811945535_3_alg».proof.Proof.KI.Value1
import proofs.«419860_j83794811945535_3_alg».proof.Proof.KI.Value2

noncomputable section

namespace Cert.KernelIdeal.Hand

open Cert.KernelIdeal Cert.KernelIdeal.Gen Cert.MeanShift
open Idealize.ShloMosaic Idealize.ShloMosaic.TcCoe Idealize.SL.Sem

variable (m : (ℓ : Loc nD τ sig) → Buf (Elt Ideal) ℓ)

theorem out0_val (c : Dev nD) : out0 (F := Ideal) m c = step (m ((c : Thread nD τ).loc main_arg0)) :=
  out0_eq_step (Vr0 m) c

theorem out1_val (c : Dev nD) : out1 (F := Ideal) m c = step (step (m ((c : Thread nD τ).loc main_arg0))) := by
  refine (out1_eq_step (Vr1 m) c).trans ?_
  rw [show Vr1 m c main_v0 = out0 m c from Function.update_self _ _ _, out0_val]

theorem out2_val (c : Dev nD) : out2 (F := Ideal) m c = step (step (step (m ((c : Thread nD τ).loc main_arg0)))) := by
  refine (out2_eq_step (Vr2 m) c).trans ?_
  rw [show Vr2 m c main_v1 = out1 m c from Function.update_self _ _ _, out1_val]

end Cert.KernelIdeal.Hand

end
-- ==== Proof.RefValue.lean ====
/-
  The reference at the ideal instance computes the mean-shift update three times in a row: its three
  results are step X, step (step X) and step (step (step X)) of the argument array X.

  One pass of the program, as a function of its input array, is read element by element: the affinity
  matrix is exp (6 * X^T X), its column sums and the product X K are sums over one coordinate, and the
  pass is 0 * X + 1 * (X K / column sum), which is the update of Spec.lean. The second and third passes
  are the same function applied to the previous result.
-/
import proofs.«419860_j83794811945535_3_alg».proof.Defs
import proofs.«419860_j83794811945535_3_alg».proof.Proof.Gen.ReferenceIdeal.Run
import proofs.«419860_j83794811945535_3_alg».proof.Proof.Gen.ReferenceIdeal.Read
import proofs.«419860_j83794811945535_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.MeanShift
open Idealize.ShloMosaic Idealize.ShloMosaic.TcCoe Idealize.SL.Sem Idealize.ShloMosaic.ValueIdx

/-- An array of the program's 256 x 8192 shape, on the extended reals. -/
abbrev Arr : Type := (⟨S256x8192, .f32⟩ : BufTy).Contents (Elt Ideal)

/-! ### The composed index maps, by coordinates -/

/-- Entry (n, j) of X^T X contracts the row coordinate k: its left factor sits at (k, n) … -/
theorem lidx0 (n j : Fin 8192) (k : Fin 256) : lidx_main_v0 (ix2 n j) k = ix2 k n :=
  funext fun a => Fin.ext (by match a with | ⟨0, _⟩ => rfl | ⟨1, _⟩ => rfl)
/-- … and its right factor at (k, j). -/
theorem ridx0 (n j : Fin 8192) (k : Fin 256) : ridx_main_v0 (ix2 n j) k = ix2 k j :=
  funext fun a => Fin.ext (by match a with | ⟨0, _⟩ => rfl | ⟨1, _⟩ => rfl)
/-- Entry (d, j) of X K contracts the point coordinate n: its left factor sits at (d, n) … -/
theorem lidx5 (d : Fin 256) (j n : Fin 8192) : lidx_main_v5 (ix2 d j) n = ix2 d n :=
  funext fun a => Fin.ext (by match a with | ⟨0, _⟩ => rfl | ⟨1, _⟩ => rfl)
/-- … and its right factor at (n, j). -/
theorem ridx5 (d : Fin 256) (j n : Fin 8192) : ridx_main_v5 (ix2 d j) n = ix2 n j :=
  funext fun a => Fin.ext (by match a with | ⟨0, _⟩ => rfl | ⟨1, _⟩ => rfl)
/-- The column sum broadcast to (d, j) adds the entries (n, j). -/
theorem idx4 (d : Fin 256) (j n : Fin 8192) :
    idx_main_v4 (idx_main_v8 (idx_main_v9 (ix2 d j))) n = ix2 n j :=
  funext fun a => Fin.ext (by match a with | ⟨0, _⟩ => rfl | ⟨1, _⟩ => rfl)

/-! ### One pass, element by element -/

/-- The exponentiated, scaled Gram matrix at (n, j) is the affinity of points n and j. -/
theorem v3_at (x : Arr) (n j : Fin 8192) : val_main_v3 (F := Ideal) x (ix2 n j) = aff x n j := by
  rw [val_main_v3_apply, val_main_v2_apply, val_main_v1_apply, val_main_cst_apply, val_main_v0_apply]
  simp only [lidx0, ridx0]
  rfl

/-- The product of X with the affinity matrix at (d, j). -/
theorem v5_at (x : Arr) (d : Fin 256) (j : Fin 8192) : val_main_v5 (F := Ideal) x (ix2 d j) = xk x d j := by
  rw [val_main_v5_apply]
  simp only [lidx5, ridx5, v3_at]
  rfl

/-- The broadcast column sum at (d, j). -/
theorem v9_at (x : Arr) (d : Fin 256) (j : Fin 8192) : val_main_v9 (F := Ideal) x (ix2 d j) = colsum x j := by
  rw [val_main_v9_apply, val_main_v8_apply, val_main_v4_apply, val_main_cst_0_apply]
  simp only [idx4, v3_at]
  rfl

/-- One pass of the program is the update. -/
theorem pass_eq_step (x : Arr) : val_main_v13 (F := Ideal) x = step x := by
  funext i
  obtain ⟨d, j, rfl⟩ : ∃ d j, i = ix2 d j := ⟨i 0, i 1, eq_ix2 i⟩
  rw [step_ix2, val_main_v13_apply, val_main_v7_apply, val_main_v12_apply, val_main_v10_apply, val_main_v6_apply,
    val_main_v11_apply, val_main_cst_1_apply, val_main_cst_2_apply, v5_at, v9_at]
  rfl

/-! ### The second and third passes are the first applied again -/

/-- The second pass reads the first pass's result where the first read the argument. -/
theorem pass2 (x : Arr) : val_main_v27 (F := Ideal) x = val_main_v13 (F := Ideal) (val_main_v13 (F := Ideal) x) := rfl
/-- The third pass reads the second pass's result. -/
theorem pass3 (x : Arr) : val_main_v41 (F := Ideal) x = val_main_v13 (F := Ideal) (val_main_v27 (F := Ideal) x) := rfl

/-- Two passes are two updates … -/
theorem pass2_eq_step (x : Arr) : val_main_v27 (F := Ideal) x = step (step x) := by
  rw [pass2, pass_eq_step, pass_eq_step]
/-- … and three passes three. -/
theorem pass3_eq_step (x : Arr) : val_main_v41 (F := Ideal) x = step (step (step x)) := by
  rw [pass3, pass_eq_step, pass2_eq_step]

/-- The reference's run with each result named as an iterate of the update. -/
theorem run_step (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = step (m ((c.tc : Thread nD τ).loc main_arg0))
      ∧ r.2.mem ((c.tc : Thread nD τ).loc main_v27) = step (step (m ((c.tc : Thread nD τ).loc main_arg0)))
      ∧ r.2.mem ((c.tc : Thread nD τ).loc main_v41) = step (step (step (m ((c.tc : Thread nD τ).loc main_arg0))))
      ∧ r.2.mem ((c.tc : Thread nD τ).loc main_arg0) = m ((c.tc : Thread nD τ).loc main_arg0) :=
  (θ_run (defs (F := Ideal)) _ _).mono (fun _ h c =>
    ⟨(h c).1.trans ((val_main_v13_eq _).trans (pass_eq_step _)),
     (h c).2.1.trans ((val_main_v27_eq m c).trans (pass2_eq_step _)),
     (h c).2.2.1.trans ((val_main_v41_eq m c).trans (pass3_eq_step _)),
     (h c).2.2.2⟩)
    (Cert.ReferenceIdeal.Value.run (F := Ideal) m ρ)

end Cert.ReferenceIdeal.RefValue

end
-- ==== Proof.lean ====
/-
  The certificate. The kernel is three chained calls of one Pallas kernel; each call, on an 8 x 4 grid with
  the reduction axis innermost, accumulates over four column blocks of its input X the column sums of the
  affinity matrix K = exp (6 X^T X) and the product X K, and at the last reduction step stores
  0 * X + 1 * (X K / column sums) for its column block. The reference computes the same update with one
  matrix product per step. Over the extended reals the two agree exactly: sums may be regrouped freely,
  a matrix product into a zero accumulator is the plain sum, changes of float format are the identity,
  and the constant 6 folded into one operand of the inner product comes out of the sum because a
  non-negative finite factor distributes over extended-real sums. So each call's output array is the
  update `step` of the array it read, the three outputs are step X, step (step X), step (step (step X)),
  and so are the reference's three results. Both programs' frames follow from the same runs; the
  idealization rewrote nothing, so preservation is trivial.
-/
import proofs.«419860_j83794811945535_3_alg».proof.Defs
import proofs.«419860_j83794811945535_3_alg».proof.Proof.Gen.Kernel
import proofs.«419860_j83794811945535_3_alg».proof.Proof.Gen.KernelIdeal
import proofs.«419860_j83794811945535_3_alg».proof.Proof.Gen.ReferenceIdeal
import proofs.«419860_j83794811945535_3_alg».proof.Proof.Gen.Pre_finite_inputs
import proofs.«419860_j83794811945535_3_alg».proof.Proof.KB.Run
import proofs.«419860_j83794811945535_3_alg».proof.Proof.KI.Values
import proofs.«419860_j83794811945535_3_alg».proof.Proof.RefValue
import Idealize.ShloMosaic.Adequacy
import Idealize.ShloMosaic.Init

noncomputable section

namespace Cert.Proof

open Idealize.ShloMosaic Idealize.SL.Sem Cert.MeanShift

/-- The word-level kernel runs to the end and leaves its argument as launched. -/
theorem frame_p [Cert.Kernel.Facts] [Cert.Pre_finite_inputs.Facts] : Cert.frame_Kernel := fun m ρ _ =>
  (θ_run Cert.Kernel.defs _ _).mono (fun _ h c => (h c).2.2.2) (Cert.Kernel.Hand.run_values (F := Bits) m ρ)

/-- So does the idealized kernel. -/
theorem frame_pi [Cert.KernelIdeal.Facts] [Cert.Pre_finite_inputs.Facts] : Cert.frame_KernelIdeal := fun m ρ _ =>
  (θ_run Cert.KernelIdeal.defs _ _).mono (fun _ h c => (h c).2.2.2) (Cert.KernelIdeal.Hand.run_values (F := Ideal) m ρ)

/-- And the reference. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.RefValue.run_step m ρ)

/-- The idealization rewrote no operation. -/
theorem preserves : Cert.preserves_Kernel_KernelIdeal := trivial

/-- Both idealized programs end with the first three iterates of the update on the argument. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => step (m ((c.tc : Thread Cert.KernelIdeal.nD Cert.KernelIdeal.τ).loc Cert.KernelIdeal.main_arg0)),
    fun c => step (step (m ((c.tc : Thread Cert.KernelIdeal.nD Cert.KernelIdeal.τ).loc Cert.KernelIdeal.main_arg0))),
    fun c => step (step (step (m ((c.tc : Thread Cert.KernelIdeal.nD Cert.KernelIdeal.τ).loc Cert.KernelIdeal.main_arg0)))), ?_, ?_⟩
  · exact (θ_run Cert.KernelIdeal.defs _ _).mono (fun _ h c =>
      ⟨(h c).1.trans (Cert.KernelIdeal.Hand.out0_val m c), (h c).2.1.trans (Cert.KernelIdeal.Hand.out1_val m c),
        (h c).2.2.1.trans (Cert.KernelIdeal.Hand.out2_val m c), (h c).2.2.2⟩)
      (Cert.KernelIdeal.Hand.run_values (F := Ideal) m ρ)
  · refine (θ_run Cert.ReferenceIdeal.defs _ _).mono (fun _ h c => ?_) (Cert.ReferenceIdeal.RefValue.run_step m' ρ')
    have hc := h c
    rw [hagree c] at hc
    exact ⟨hc.1, hc.2.1, hc.2.2.1, (h c).2.2.2⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
